-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S400000x1 : Shape := ⟨2, ![400000, 1]⟩
abbrev S27x1x16 : Shape := ⟨3, ![27, 1, 16]⟩
abbrev S16 : Shape := ⟨1, ![16]⟩
abbrev S27x16x32 : Shape := ⟨3, ![27, 16, 32]⟩
abbrev S32 : Shape := ⟨1, ![32]⟩
abbrev S27x200000 : Shape := ⟨2, ![27, 200000]⟩
abbrev S_ : Shape := ⟨0, ![]⟩

class Facts : Prop where
  bcast_S_S400000x1 : S_.BroadcastsInDim S400000x1 (![] : Fin 0 → Fin S400000x1.rank)
  reducesTo_S400000x1_S_d0_1 : S400000x1.ReducesTo [0, 1] S_
  h_S_ : 0 < S_.numel
  bcast_S_S27x1x16 : S_.BroadcastsInDim S27x1x16 (![] : Fin 0 → Fin S27x1x16.rank)
  reducesTo_S27x1x16_S_d0_1_2 : S27x1x16.ReducesTo [0, 1, 2] S_
  bcast_S_S16 : S_.BroadcastsInDim S16 (![] : Fin 0 → Fin S16.rank)
  reducesTo_S16_S_d0 : S16.ReducesTo [0] S_
  bcast_S_S27x16x32 : S_.BroadcastsInDim S27x16x32 (![] : Fin 0 → Fin S27x16x32.rank)
  reducesTo_S27x16x32_S_d0_1_2 : S27x16x32.ReducesTo [0, 1, 2] S_
  bcast_S_S32 : S_.BroadcastsInDim S32 (![] : Fin 0 → Fin S32.rank)
  reducesTo_S32_S_d0 : S32.ReducesTo [0] S_
  bcast_S_S27x200000 : S_.BroadcastsInDim S27x200000 (![] : Fin 0 → Fin S27x200000.rank)
  reducesTo_S27x200000_S_d0_1 : S27x200000.ReducesTo [0, 1] S_

variable [Facts]

def fn_part3 {F : FTy → Type} [FloatOps F] (main_arg11 : IVec S27x200000 32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_c_20 : IVec S_ 32 := constantI S_ 32 4294567296#32
  let main_v54 : IVec S27x200000 32 := broadcastInDim S27x200000 ![] bcast_S_S27x200000 main_c_20
  let main_v55 : IVec S27x200000 1 := cmpi .sge main_arg11 main_v54
  let main_c_21 : IVec S_ 32 := constantI S_ 32 400000#32
  let main_v56 : IVec S27x200000 32 := broadcastInDim S27x200000 ![] bcast_S_S27x200000 main_c_21
  let main_v57 : IVec S27x200000 1 := cmpi .slt main_arg11 main_v56
  let main_v58 : IVec S27x200000 1 := andi main_v55 main_v57
  let main_c_22 : IVec S_ 1 := constantI S_ 1 1#1
  let main_v59 : IVec S_ 1 := (fun x v => Host.reduce IntOp.andi x v reducesTo_S27x200000_S_d0_1 h_S_) main_v58 main_c_22
  let main_v60 : IVec S_ 1 := andi main_v53 main_v59
  main_v60

def fn_part2 {F : FTy → Type} [FloatOps F] (main_arg7 : FVec F S32 .f32) (main_arg8 : FVec F S32 .f32) (main_arg9 : FVec F S32 .f32) (main_arg10 : FVec F S32 .f32) (main_arg11 : IVec S27x200000 32) (main_v33 : IVec S_ 1) : IVec S_ 1 :=
  let main_v34 : FVec F S32 .f32 := Host.absf main_arg7
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32 .f32 := Host.absf main_arg8
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32 .f32 := Host.absf main_arg9
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S32 .f32 := Host.absf main_arg10
  let main_cst_18 : FVec F S_ .f32 := constant S_ .f32 0x7F800000#32
  let main_v50 : FVec F S32 .f32 := broadcastInDim S32 ![] bcast_S_S32 main_cst_18
  fn_part3 (F := F) main_arg11 main_v48 main_v49 main_v50

def fn_part1 {F : FTy → Type} [FloatOps F] (main_arg4 : FVec F S16 .f32) (main_arg5 : FVec F S16 .f32) (main_arg6 : FVec F S27x16x32 .f32) (main_arg7 : FVec F S32 .f32) (main_arg8 : FVec F S32 .f32) (main_arg9 : FVec F S32 .f32) (main_arg10 : FVec F S32 .f32) (main_arg11 : IVec S27x200000 32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16 .f32 := Host.absf main_arg4
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16 .f32 := Host.absf main_arg5
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S27x16x32 .f32 := Host.absf main_arg6
  let main_cst_10 : FVec F S_ .f32 := constant S_ .f32 0x7F800000#32
  let main_v30 : FVec F S27x16x32 .f32 := broadcastInDim S27x16x32 ![] bcast_S_S27x16x32 main_cst_10
  let main_v31 : IVec S27x16x32 1 := cmpf .olt main_v29 main_v30
  let main_c_11 : IVec S_ 1 := constantI S_ 1 1#1
  let main_v32 : IVec S_ 1 := (fun x v => Host.reduce IntOp.andi x v reducesTo_S27x16x32_S_d0_1_2 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S400000x1 .f32) (main_arg1 : FVec F S27x1x16 .f32) (main_arg2 : FVec F S16 .f32) (main_arg3 : FVec F S16 .f32) (main_arg4 : FVec F S16 .f32) (main_arg5 : FVec F S16 .f32) (main_arg6 : FVec F S27x16x32 .f32) (main_arg7 : FVec F S32 .f32) (main_arg8 : FVec F S32 .f32) (main_arg9 : FVec F S32 .f32) (main_arg10 : FVec F S32 .f32) (main_arg11 : IVec S27x200000 32) (main_arg12 : IVec S27x200000 32) : IVec S_ 1 :=
  let main_v0 : FVec F S400000x1 .f32 := Host.absf main_arg0
  let main_cst : FVec F S_ .f32 := constant S_ .f32 0x7F800000#32
  let main_v1 : FVec F S400000x1 .f32 := broadcastInDim S400000x1 ![] bcast_S_S400000x1 main_cst
  let main_v2 : IVec S400000x1 1 := cmpf .olt main_v0 main_v1
  let main_c : IVec S_ 1 := constantI S_ 1 1#1
  let main_v3 : IVec S_ 1 := (fun x v => Host.reduce IntOp.andi x v reducesTo_S400000x1_S_d0_1 h_S_) main_v2 main_c
  let main_v4 : FVec F S27x1x16 .f32 := Host.absf main_arg1
  let main_cst_0 : FVec F S_ .f32 := constant S_ .f32 0x7F800000#32
  let main_v5 : FVec F S27x1x16 .f32 := broadcastInDim S27x1x16 ![] bcast_S_S27x1x16 main_cst_0
  let main_v6 : IVec S27x1x16 1 := cmpf .olt main_v4 main_v5
  let main_c_1 : IVec S_ 1 := constantI S_ 1 1#1
  let main_v7 : IVec S_ 1 := (fun x v => Host.reduce IntOp.andi x v reducesTo_S27x1x16_S_d0_1_2 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg4 main_arg5 main_arg6 main_arg7 main_arg8 main_arg9 main_arg10 main_arg11 main_v13 main_v16
-- ==== Kernel.lean ====
abbrev S400000x1 : Shape := ⟨2, ![400000, 1]⟩
abbrev S27x1x16 : Shape := ⟨3, ![27, 1, 16]⟩
abbrev S16 : Shape := ⟨1, ![16]⟩
abbrev S27x16x32 : Shape := ⟨3, ![27, 16, 32]⟩
abbrev S32 : Shape := ⟨1, ![32]⟩
abbrev S27x200000 : Shape := ⟨2, ![27, 200000]⟩
abbrev S5400000 : Shape := ⟨1, ![5400000]⟩
abbrev S_ : Shape := ⟨0, ![]⟩
abbrev S5400000x1 : Shape := ⟨2, ![5400000, 1]⟩
abbrev S1 : Shape := ⟨1, ![1]⟩
abbrev S1x1 : Shape := ⟨2, ![1, 1]⟩
abbrev S27x200000x1 : Shape := ⟨3, ![27, 200000, 1]⟩
abbrev S27x200000x16 : Shape := ⟨3, ![27, 200000, 16]⟩
abbrev S1x8000x1 : Shape := ⟨3, ![1, 8000, 1]⟩
abbrev S1x1x16 : Shape := ⟨3, ![1, 1, 16]⟩
abbrev S1x8000x16 : Shape := ⟨3, ![1, 8000, 16]⟩
abbrev S8000x1 : Shape := ⟨2, ![8000, 1]⟩
abbrev S1x16 : Shape := ⟨2, ![1, 16]⟩
abbrev S8000x16 : Shape := ⟨2, ![8000, 16]⟩
abbrev S400000x16 : Shape := ⟨2, ![400000, 16]⟩
abbrev S5400000x16 : Shape := ⟨2, ![5400000, 16]⟩
abbrev S5000x16 : Shape := ⟨2, ![5000, 16]⟩
abbrev S27x200000x32 : Shape := ⟨3, ![27, 200000, 32]⟩
abbrev S1x16x32 : Shape := ⟨3, ![1, 16, 32]⟩
abbrev S1x8000x32 : Shape := ⟨3, ![1, 8000, 32]⟩
abbrev S16x32 : Shape := ⟨2, ![16, 32]⟩
abbrev S8000x32 : Shape := ⟨2, ![8000, 32]⟩
abbrev S400000x32 : Shape := ⟨2, ![400000, 32]⟩
abbrev S5400000x32 : Shape := ⟨2, ![5400000, 32]⟩
abbrev S1x32 : Shape := ⟨2, ![1, 32]⟩
abbrev S5000x32 : Shape := ⟨2, ![5000, 32]⟩

abbrev nBuf : Space → Nat
  | .hbm => 101
  | .vmem => 28
  | .smem => 0
  | _ => 0

abbrev bufTy : (tb : Table) → Fin (tcTables nBuf tb) → BufTy
  | .hbm, ⟨0, _⟩ => ⟨S400000x1, .f32⟩
  | .hbm, ⟨1, _⟩ => ⟨S27x1x16, .f32⟩
  | .hbm, ⟨2, _⟩ => ⟨S16, .f32⟩
  | .hbm, ⟨3, _⟩ => ⟨S16, .f32⟩
  | .hbm, ⟨4, _⟩ => ⟨S16, .f32⟩
  | .hbm, ⟨5, _⟩ => ⟨S16, .f32⟩
  | .hbm, ⟨6, _⟩ => ⟨S27x16x32, .f32⟩
  | .hbm, ⟨7, _⟩ => ⟨S32, .f32⟩
  | .hbm, ⟨8, _⟩ => ⟨S32, .f32⟩
  | .hbm, ⟨9, _⟩ => ⟨S32, .f32⟩
  | .hbm, ⟨10, _⟩ => ⟨S32, .f32⟩
  | .hbm, ⟨11, _⟩ => ⟨S27x200000, .i32⟩
  | .hbm, ⟨12, _⟩ => ⟨S27x200000, .i32⟩
  | .hbm, ⟨13, _⟩ => ⟨S5400000, .i32⟩
  | .hbm, ⟨14, _⟩ => ⟨S_, .i32⟩
  | .hbm, ⟨15, _⟩ => ⟨S5400000, .i32⟩
  | .hbm, ⟨16, _⟩ => ⟨S5400000, .i1⟩
  | .hbm, ⟨17, _⟩ => ⟨S_, .i32⟩
  | .hbm, ⟨18, _⟩ => ⟨S5400000, .i32⟩
  | .hbm, ⟨19, _⟩ => ⟨S5400000, .i32⟩
  | .hbm, ⟨20, _⟩ => ⟨S5400000, .i32⟩
  | .hbm, ⟨21, _⟩ => ⟨S5400000x1, .i32⟩
  | .hbm, ⟨22, _⟩ => ⟨S1, .i32⟩
  | .hbm, ⟨23, _⟩ => ⟨S_, .i32⟩
  | .hbm, ⟨24, _⟩ => ⟨S5400000x1, .i32⟩
  | .hbm, ⟨25, _⟩ => ⟨S5400000x1, .i1⟩
  | .hbm, ⟨26, _⟩ => ⟨S1x1, .i32⟩
  | .hbm, ⟨27, _⟩ => ⟨S5400000x1, .i32⟩
  | .hbm, ⟨28, _⟩ => ⟨S5400000x1, .i1⟩
  | .hbm, ⟨29, _⟩ => ⟨S5400000x1, .i1⟩
  | .hbm, ⟨30, _⟩ => ⟨S_, .i1⟩
  | .hbm, ⟨31, _⟩ => ⟨S5400000, .i1⟩
  | .hbm, ⟨32, _⟩ => ⟨S5400000x1, .f32⟩
  | .hbm, ⟨33, _⟩ => ⟨S5400000x1, .i1⟩
  | .hbm, ⟨34, _⟩ => ⟨S_, .f32⟩
  | .hbm, ⟨35, _⟩ => ⟨S5400000x1, .f32⟩
  | .hbm, ⟨36, _⟩ => ⟨S5400000x1, .f32⟩
  | .hbm, ⟨37, _⟩ => ⟨S27x200000x1, .f32⟩
  | .hbm, ⟨38, _⟩ => ⟨S27x200000x16, .f32⟩
  | .hbm, ⟨39, _⟩ => ⟨S_, .f32⟩
  | .hbm, ⟨40, _⟩ => ⟨S400000x16, .f32⟩
  | .hbm, ⟨41, _⟩ => ⟨S5400000, .i32⟩
  | .hbm, ⟨42, _⟩ => ⟨S5400000x16, .f32⟩
  | .hbm, ⟨43, _⟩ => ⟨S_, .i32⟩
  | .hbm, ⟨44, _⟩ => ⟨S5400000, .i32⟩
  | .hbm, ⟨45, _⟩ => ⟨S5400000, .i1⟩
  | .hbm, ⟨46, _⟩ => ⟨S_, .i32⟩
  | .hbm, ⟨47, _⟩ => ⟨S5400000, .i32⟩
  | .hbm, ⟨48, _⟩ => ⟨S5400000, .i32⟩
  | .hbm, ⟨49, _⟩ => ⟨S5400000, .i32⟩
  | .hbm, ⟨50, _⟩ => ⟨S5400000x1, .i32⟩
  | .hbm, ⟨51, _⟩ => ⟨S400000x16, .f32⟩
  | .hbm, ⟨52, _⟩ => ⟨S1x16, .f32⟩
  | .hbm, ⟨53, _⟩ => ⟨S1x16, .f32⟩
  | .hbm, ⟨54, _⟩ => ⟨S1x16, .f32⟩
  | .hbm, ⟨55, _⟩ => ⟨S1x16, .f32⟩
  | .hbm, ⟨56, _⟩ => ⟨S400000x16, .f32⟩
  | .hbm, ⟨57, _⟩ => ⟨S5400000, .i32⟩
  | .hbm, ⟨58, _⟩ => ⟨S_, .i32⟩
  | .hbm, ⟨59, _⟩ => ⟨S5400000, .i32⟩
  | .hbm, ⟨60, _⟩ => ⟨S5400000, .i1⟩
  | .hbm, ⟨61, _⟩ => ⟨S_, .i32⟩
  | .hbm, ⟨62, _⟩ => ⟨S5400000, .i32⟩
  | .hbm, ⟨63, _⟩ => ⟨S5400000, .i32⟩
  | .hbm, ⟨64, _⟩ => ⟨S5400000, .i32⟩
  | .hbm, ⟨65, _⟩ => ⟨S5400000x1, .i32⟩
  | .hbm, ⟨66, _⟩ => ⟨S1, .i32⟩
  | .hbm, ⟨67, _⟩ => ⟨S_, .i32⟩
  | .hbm, ⟨68, _⟩ => ⟨S5400000x1, .i32⟩
  | .hbm, ⟨69, _⟩ => ⟨S5400000x1, .i1⟩
  | .hbm, ⟨70, _⟩ => ⟨S1x1, .i32⟩
  | .hbm, ⟨71, _⟩ => ⟨S5400000x1, .i32⟩
  | .hbm, ⟨72, _⟩ => ⟨S5400000x1, .i1⟩
  | .hbm, ⟨73, _⟩ => ⟨S5400000x1, .i1⟩
  | .hbm, ⟨74, _⟩ => ⟨S_, .i1⟩
  | .hbm, ⟨75, _⟩ => ⟨S5400000, .i1⟩
  | .hbm, ⟨76, _⟩ => ⟨S5400000x16, .f32⟩
  | .hbm, ⟨77, _⟩ => ⟨S5400000x16, .i1⟩
  | .hbm, ⟨78, _⟩ => ⟨S_, .f32⟩
  | .hbm, ⟨79, _⟩ => ⟨S5400000x16, .f32⟩
  | .hbm, ⟨80, _⟩ => ⟨S5400000x16, .f32⟩
  | .hbm, ⟨81, _⟩ => ⟨S27x200000x16, .f32⟩
  | .hbm, ⟨82, _⟩ => ⟨S27x200000x32, .f32⟩
  | .hbm, ⟨83, _⟩ => ⟨S_, .f32⟩
  | .hbm, ⟨84, _⟩ => ⟨S400000x32, .f32⟩
  | .hbm, ⟨85, _⟩ => ⟨S5400000, .i32⟩
  | .hbm, ⟨86, _⟩ => ⟨S5400000x32, .f32⟩
  | .hbm, ⟨87, _⟩ => ⟨S_, .i32⟩
  | .hbm, ⟨88, _⟩ => ⟨S5400000, .i32⟩
  | .hbm, ⟨89, _⟩ => ⟨S5400000, .i1⟩
  | .hbm, ⟨90, _⟩ => ⟨S_, .i32⟩
  | .hbm, ⟨91, _⟩ => ⟨S5400000, .i32⟩
  | .hbm, ⟨92, _⟩ => ⟨S5400000, .i32⟩
  | .hbm, ⟨93, _⟩ => ⟨S5400000, .i32⟩
  | .hbm, ⟨94, _⟩ => ⟨S5400000x1, .i32⟩
  | .hbm, ⟨95, _⟩ => ⟨S400000x32, .f32⟩
  | .hbm, ⟨96, _⟩ => ⟨S1x32, .f32⟩
  | .hbm, ⟨97, _⟩ => ⟨S1x32, .f32⟩
  | .hbm, ⟨98, _⟩ => ⟨S1x32, .f32⟩
  | .hbm, ⟨99, _⟩ => ⟨S1x32, .f32⟩
  | .hbm, ⟨100, _⟩ => ⟨S400000x32, .f32⟩
  | .local _ .vmem, ⟨0, _⟩ => ⟨S1x8000x1, .f32⟩
  | .local _ .vmem, ⟨1, _⟩ => ⟨S1x8000x1, .f32⟩
  | .local _ .vmem, ⟨2, _⟩ => ⟨S1x1x16, .f32⟩
  | .local _ .vmem, ⟨3, _⟩ => ⟨S1x1x16, .f32⟩
  | .local _ .vmem, ⟨4, _⟩ => ⟨S1x8000x16, .f32⟩
  | .local _ .vmem, ⟨5, _⟩ => ⟨S1x8000x16, .f32⟩
  | .local _ .vmem, ⟨6, _⟩ => ⟨S5000x16, .f32⟩
  | .local _ .vmem, ⟨7, _⟩ => ⟨S5000x16, .f32⟩
  | .local _ .vmem, ⟨8, _⟩ => ⟨S1x16, .f32⟩
  | .local _ .vmem, ⟨9, _⟩ => ⟨S1x16, .f32⟩
  | .local _ .vmem, ⟨10, _⟩ => ⟨S1x16, .f32⟩
  | .local _ .vmem, ⟨11, _⟩ => ⟨S1x16, .f32⟩
  | .local _ .vmem, ⟨12, _⟩ => ⟨S5000x16, .f32⟩
  | .local _ .vmem, ⟨13, _⟩ => ⟨S5000x16, .f32⟩
  | .local _ .vmem, ⟨14, _⟩ => ⟨S1x8000x16, .f32⟩
  | .local _ .vmem, ⟨15, _⟩ => ⟨S1x8000x16, .f32⟩
  | .local _ .vmem, ⟨16, _⟩ => ⟨S1x16x32, .f32⟩
  | .local _ .vmem, ⟨17, _⟩ => ⟨S1x16x32, .f32⟩
  | .local _ .vmem, ⟨18, _⟩ => ⟨S1x8000x32, .f32⟩
  | .local _ .vmem, ⟨19, _⟩ => ⟨S1x8000x32, .f32⟩
  | .local _ .vmem, ⟨20, _⟩ => ⟨S5000x32, .f32⟩
  | .local _ .vmem, ⟨21, _⟩ => ⟨S5000x32, .f32⟩
  | .local _ .vmem, ⟨22, _⟩ => ⟨S1x32, .f32⟩
  | .local _ .vmem, ⟨23, _⟩ => ⟨S1x32, .f32⟩
  | .local _ .vmem, ⟨24, _⟩ => ⟨S1x32, .f32⟩
  | .local _ .vmem, ⟨25, _⟩ => ⟨S1x32, .f32⟩
  | .local _ .vmem, ⟨26, _⟩ => ⟨S5000x32, .f32⟩
  | .local _ .vmem, ⟨27, _⟩ => ⟨S5000x32, .f32⟩
  | _, _ => ⟨S400000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c_1 : Ref sig .tc := ⟨.hbm, 22, rfl⟩
abbrev main_call0_c_2 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_3 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_cst : Ref sig .tc := ⟨.hbm, 34, rfl⟩
abbrev main_call0_v15 : Ref sig .tc := ⟨.hbm, 35, rfl⟩
abbrev main_v1 : Ref sig .tc := ⟨.hbm, 36, rfl⟩
abbrev main_v2 : Ref sig .tc := ⟨.hbm, 37, rfl⟩
abbrev main_v3 : Ref sig .tc := ⟨.hbm, 38, rfl⟩
abbrev main_cst : Ref sig .tc := ⟨.hbm, 39, rfl⟩
abbrev main_v4 : Ref sig .tc := ⟨.hbm, 40, rfl⟩
abbrev main_v5 : Ref sig .tc := ⟨.hbm, 41, rfl⟩
abbrev main_v6 : Ref sig .tc := ⟨.hbm, 42, rfl⟩
abbrev main_c : Ref sig .tc := ⟨.hbm, 43, rfl⟩
abbrev main_v7 : Ref sig .tc := ⟨.hbm, 44, rfl⟩
abbrev main_v8 : Ref sig .tc := ⟨.hbm, 45, rfl⟩
abbrev main_c_0 : Ref sig .tc := ⟨.hbm, 46, rfl⟩
abbrev main_v9 : Ref sig .tc := ⟨.hbm, 47, rfl⟩
abbrev main_v10 : Ref sig .tc := ⟨.hbm, 48, rfl⟩
abbrev main_v11 : Ref sig .tc := ⟨.hbm, 49, rfl⟩
abbrev main_v12 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_call1_c : Ref sig .tc := ⟨.hbm, 58, rfl⟩
abbrev main_call1_v0 : Ref sig .tc := ⟨.hbm, 59, rfl⟩
abbrev main_call1_v1 : Ref sig .tc := ⟨.hbm, 60, rfl⟩
abbrev main_call1_c_0 : Ref sig .tc := ⟨.hbm, 61, rfl⟩
abbrev main_call1_v2 : Ref sig .tc := ⟨.hbm, 62, rfl⟩
abbrev main_call1_v3 : Ref sig .tc := ⟨.hbm, 63, rfl⟩
abbrev main_call1_v4 : Ref sig .tc := ⟨.hbm, 64, rfl⟩
abbrev main_call1_v5 : Ref sig .tc := ⟨.hbm, 65, rfl⟩
abbrev main_call1_c_1 : Ref sig .tc := ⟨.hbm, 66, rfl⟩
abbrev main_call1_c_2 : Ref sig .tc := ⟨.hbm, 67, rfl⟩
abbrev main_call1_v6 : Ref sig .tc := ⟨.hbm, 68, rfl⟩
abbrev main_call1_v7 : Ref sig .tc := ⟨.hbm, 69, rfl⟩
abbrev main_call1_v8 : Ref sig .tc := ⟨.hbm, 70, rfl⟩
abbrev main_call1_v9 : Ref sig .tc := ⟨.hbm, 71, rfl⟩
abbrev main_call1_v10 : Ref sig .tc := ⟨.hbm, 72, rfl⟩
abbrev main_call1_v11 : Ref sig .tc := ⟨.hbm, 73, rfl⟩
abbrev main_call1_c_3 : Ref sig .tc := ⟨.hbm, 74, rfl⟩
abbrev main_call1_v12 : Ref sig .tc := ⟨.hbm, 75, rfl⟩
abbrev main_call1_v13 : Ref sig .tc := ⟨.hbm, 76, rfl⟩
abbrev main_call1_v14 : Ref sig .tc := ⟨.hbm, 77, rfl⟩
abbrev main_call1_cst : Ref sig .tc := ⟨.hbm, 78, rfl⟩
abbrev main_call1_v15 : Ref sig .tc := ⟨.hbm, 79, rfl⟩
abbrev main_v20 : Ref sig .tc := ⟨.hbm, 80, rfl⟩
abbrev main_v21 : Ref sig .tc := ⟨.hbm, 81, rfl⟩
abbrev main_v22 : Ref sig .tc := ⟨.hbm, 82, rfl⟩
abbrev main_cst_1 : Ref sig .tc := ⟨.hbm, 83, rfl⟩
abbrev main_v23 : Ref sig .tc := ⟨.hbm, 84, rfl⟩
abbrev main_v24 : Ref sig .tc := ⟨.hbm, 85, rfl⟩
abbrev main_v25 : Ref sig .tc := ⟨.hbm, 86, rfl⟩
abbrev main_c_2 : Ref sig .tc := ⟨.hbm, 87, rfl⟩
abbrev main_v26 : Ref sig .tc := ⟨.hbm, 88, rfl⟩
abbrev main_v27 : Ref sig .tc := ⟨.hbm, 89, rfl⟩
abbrev main_c_3 : Ref sig .tc := ⟨.hbm, 90, rfl⟩
abbrev main_v28 : Ref sig .tc := ⟨.hbm, 91, rfl⟩
abbrev main_v29 : Ref sig .tc := ⟨.hbm, 92, rfl⟩
abbrev main_v30 : Ref sig .tc := ⟨.hbm, 93, rfl⟩
abbrev main_v31 : Ref sig .tc := ⟨.hbm, 94, rfl⟩
abbrev main_v32 : Ref sig .tc := ⟨.hbm, 95, rfl⟩
abbrev main_v33 : Ref sig .tc := ⟨.hbm, 96, rfl⟩
abbrev main_v34 : Ref sig .tc := ⟨.hbm, 97, rfl⟩
abbrev main_v35 : Ref sig .tc := ⟨.hbm, 98, rfl⟩
abbrev main_v36 : Ref sig .tc := ⟨.hbm, 99, rfl⟩
abbrev main_v37 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg3_0 : Ref sig .tc := ⟨.vmem, 24, rfl⟩
abbrev cc3_stg4_0 : Ref sig .tc := ⟨.vmem, 25, rfl⟩
abbrev cc3_stg5_0 : Ref sig .tc := ⟨.vmem, 26, rfl⟩
abbrev cc3_stg5_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem3_0 : DmaSem sig := 24
abbrev cc3_sem4_0 : DmaSem sig := 25
abbrev cc3_sem5_0 : DmaSem sig := 26
abbrev cc3_sem5_1 : DmaSem sig := 27

abbrev nD : Nat := 1
abbrev τ : Topo := Topo.v7x

variable {F : FTy → Type} [FloatOps F]

abbrev grid0 : Pipeline.Grid := ⟨2, ![27, 25], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨1, ![80], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x16 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨2, ![27, 25], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x8000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x16x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x8000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨1, ![80], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x32 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x32 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x32 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  shapeCasts_S27x200000_S5400000 : S27x200000.ShapeCasts S5400000
  bcast_S_S5400000 : S_.BroadcastsInDim S5400000 (![] : Fin 0 → Fin S5400000.rank)
  bcast_S5400000_S5400000x1_0 : S5400000.BroadcastsInDim S5400000x1 (![0] : Fin 1 → Fin S5400000x1.rank)
  bcast_S_S5400000x1 : S_.BroadcastsInDim S5400000x1 (![] : Fin 0 → Fin S5400000x1.rank)
  bcast_S1_S1x1_1 : S1.BroadcastsInDim S1x1 (![1] : Fin 1 → Fin S1x1.rank)
  bcast_S1x1_S5400000x1_0_1 : S1x1.BroadcastsInDim S5400000x1 (![0, 1] : Fin 2 → Fin S5400000x1.rank)
  reducesTo_S5400000x1_S5400000_d1 : S5400000x1.ReducesTo [1] S5400000
  h_S_ : 0 < S_.numel
  shapeCasts_S5400000x1_S27x200000x1 : S5400000x1.ShapeCasts S27x200000x1
  inb_S1x8000x1_S1x8000x1_0_0_0 : ∀ a, (![0, 0, 0] : Fin 3 → Nat) a + S1x8000x1.size a ≤ S1x8000x1.size a
  h_S1x8000x1 : 0 < S1x8000x1.numel
  shapeCasts_S1x8000x1_S8000x1 : S1x8000x1.ShapeCasts S8000x1
  bitsLt_bf16_f32 : FTy.bits .bf16 < FTy.bits .f32
  inb_S1x1x16_S1x1x16_0_0_0 : ∀ a, (![0, 0, 0] : Fin 3 → Nat) a + S1x1x16.size a ≤ S1x1x16.size a
  h_S1x1x16 : 0 < S1x1x16.numel
  shapeCasts_S1x1x16_S1x16 : S1x1x16.ShapeCasts S1x16
  inb_S1x8000x16_S1x8000x16_0_0_0 : ∀ a, (![0, 0, 0] : Fin 3 → Nat) a + S1x8000x16.size a ≤ S1x8000x16.size a
  h_S1x8000x16 : 0 < S1x8000x16.numel
  shapeCasts_S1x8000x16_S8000x16 : S1x8000x16.ShapeCasts S8000x16
  shapeCasts_S8000x16_S1x8000x16 : S8000x16.ShapeCasts S1x8000x16
  bcast_S_S400000x16 : S_.BroadcastsInDim S400000x16 (![] : Fin 0 → Fin S400000x16.rank)
  shapeCasts_S27x200000x16_S5400000x16 : S27x200000x16.ShapeCasts S5400000x16
  shapeCasts_S16_S1x16 : S16.ShapeCasts S1x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  inb_S5000x16_S5000x16_0_0 : ∀ a, (![0, 0] : Fin 2 → Nat) a + S5000x16.size a ≤ S5000x16.size a
  h_S5000x16 : 0 < S5000x16.numel
  shapeCasts_S5000x16_S5000x16 : S5000x16.ShapeCasts S5000x16
  broadcasts_S1x16_S5000x16 : S1x16.Broadcasts S5000x16
  bcast_S5400000_S5400000x16_0 : S5400000.BroadcastsInDim S5400000x16 (![0] : Fin 1 → Fin S5400000x16.rank)
  bcast_S_S5400000x16 : S_.BroadcastsInDim S5400000x16 (![] : Fin 0 → Fin S5400000x16.rank)
  shapeCasts_S5400000x16_S27x200000x16 : S5400000x16.ShapeCasts S27x200000x16
  inb_S1x16x32_S1x16x32_0_0_0 : ∀ a, (![0, 0, 0] : Fin 3 → Nat) a + S1x16x32.size a ≤ S1x16x32.size a
  h_S1x16x32 : 0 < S1x16x32.numel
  shapeCasts_S1x16x32_S16x32 : S1x16x32.ShapeCasts S16x32
  inb_S1x8000x32_S1x8000x32_0_0_0 : ∀ a, (![0, 0, 0] : Fin 3 → Nat) a + S1x8000x32.size a ≤ S1x8000x32.size a
  h_S1x8000x32 : 0 < S1x8000x32.numel
  shapeCasts_S1x8000x32_S8000x32 : S1x8000x32.ShapeCasts S8000x32
  shapeCasts_S8000x32_S1x8000x32 : S8000x32.ShapeCasts S1x8000x32
  bcast_S_S400000x32 : S_.BroadcastsInDim S400000x32 (![] : Fin 0 → Fin S400000x32.rank)
  shapeCasts_S27x200000x32_S5400000x32 : S27x200000x32.ShapeCasts S5400000x32
  shapeCasts_S32_S1x32 : S32.ShapeCasts S1x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  inb_S5000x32_S5000x32_0_0 : ∀ a, (![0, 0] : Fin 2 → Nat) a + S5000x32.size a ≤ S5000x32.size a
  h_S5000x32 : 0 < S5000x32.numel
  shapeCasts_S5000x32_S5000x32 : S5000x32.ShapeCasts S5000x32
  broadcasts_S1x32_S5000x32 : S1x32.Broadcasts S5000x32
  gather_S400000x1_S5400000x1_S5400000x1_1_0_n_n_0_1_11_wf : GatherDims.WF S400000x1 S5400000x1 S5400000x1 [1] [0] [] [0] [] 1 ![1, 1]
  dot_S8000x1_S1x16_S8000x16_1_0_0_1_n_n_wf : DotDims.WF S8000x1 S1x16 S8000x16 [1] [0] [0] [1] [] []
  scatter_S400000x16_S5400000x1_S5400000x16_1_0_0_1_wf : ScatterDims.WF S400000x16 S5400000x1 S5400000x16 [1] [0] [0] 1
  gather_S400000x16_S5400000x1_S5400000x16_1_0_n_n_0_1_116_wf : GatherDims.WF S400000x16 S5400000x1 S5400000x16 [1] [0] [] [0] [] 1 ![1, 16]
  dot_S8000x16_S16x32_S8000x32_1_0_0_1_n_n_wf : DotDims.WF S8000x16 S16x32 S8000x32 [1] [0] [0] [1] [] []
  scatter_S400000x32_S5400000x1_S5400000x32_1_0_0_1_wf : ScatterDims.WF S400000x32 S5400000x1 S5400000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8000x1.size a ≤ S27x200000x1.size a
  hwx0_0 : ∀ i : grid0.Coords, EltTy.bits .f32 = 32 ∨ (Rect.block (s := S27x200000x1) S1x8000x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x16.size a ≤ S27x1x16.size a
  hwx0_1 : ∀ i : grid0.Coords, EltTy.bits .f32 = 32 ∨ (Rect.block (s := S27x1x16) S1x1x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8000x16.size a ≤ S27x200000x16.size a
  hwx0_2 : ∀ i : grid0.Coords, EltTy.bits .f32 = 32 ∨ (Rect.block (s := S27x200000x16) S1x8000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S400000x16.size a
  hwx1_0 : ∀ i : grid1.Coords, EltTy.bits .f32 = 32 ∨ (Rect.block (s := S400000x16) S5000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x16.size a ≤ S1x16.size a
  hwx1_2 : ∀ i : grid1.Coords, EltTy.bits .f32 = 32 ∨ (Rect.block (s := S1x16) S1x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x16.size a ≤ S1x16.size a
  hwx1_3 : ∀ i : grid1.Coords, EltTy.bits .f32 = 32 ∨ (Rect.block (s := S1x16) S1x16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x16.size a ≤ S1x16.size a
  hwx1_4 : ∀ i : grid1.Coords, EltTy.bits .f32 = 32 ∨ (Rect.block (s := S1x16) S1x16.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x16.size a ≤ S400000x16.size a
  hwx1_5 : ∀ i : grid1.Coords, EltTy.bits .f32 = 32 ∨ (Rect.block (s := S400000x16) S5000x16.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x8000x16.size a ≤ S27x200000x16.size a
  hwx2_0 : ∀ i : grid2.Coords, EltTy.bits .f32 = 32 ∨ (Rect.block (s := S27x200000x16) S1x8000x16.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x16x32.size a ≤ S27x16x32.size a
  hwx2_1 : ∀ i : grid2.Coords, EltTy.bits .f32 = 32 ∨ (Rect.block (s := S27x16x32) S1x16x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x8000x32.size a ≤ S27x200000x32.size a
  hwx2_2 : ∀ i : grid2.Coords, EltTy.bits .f32 = 32 ∨ (Rect.block (s := S27x200000x32) S1x8000x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x32.size a ≤ S400000x32.size a
  hwx3_0 : ∀ i : grid3.Coords, EltTy.bits .f32 = 32 ∨ (Rect.block (s := S400000x32) S5000x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x32.size a ≤ S1x32.size a
  hwx3_1 : ∀ i : grid3.Coords, EltTy.bits .f32 = 32 ∨ (Rect.block (s := S1x32) S1x32.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x32.size a ≤ S1x32.size a
  hwx3_2 : ∀ i : grid3.Coords, EltTy.bits .f32 = 32 ∨ (Rect.block (s := S1x32) S1x32.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x32.size a ≤ S1x32.size a
  hwx3_3 : ∀ i : grid3.Coords, EltTy.bits .f32 = 32 ∨ (Rect.block (s := S1x32) S1x32.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x32.size a ≤ S1x32.size a
  hwx3_4 : ∀ i : grid3.Coords, EltTy.bits .f32 = 32 ∨ (Rect.block (s := S1x32) S1x32.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x32.size a ≤ S400000x32.size a
  hwx3_5 : ∀ i : grid3.Coords, EltTy.bits .f32 = 32 ∨ (Rect.block (s := S400000x32) S5000x32.size (cc3_transform_5 i) (hinb3_5 i)).WholeWords (EltTy.packing .f32)

variable [Facts₀]

def gather_S400000x1_S5400000x1_S5400000x1_1_0_n_n_0_1_11 : GatherDims S400000x1 S5400000x1 S5400000x1 where
  offsetDims := [1]
  collapsedSliceDims := [0]
  operandBatchingDims := []
  startIndicesBatchingDims := []
  startIndexMap := [0]
  indexVectorDim := 1
  sliceSizes := ![1, 1]
  wf := gather_S400000x1_S5400000x1_S5400000x1_1_0_n_n_0_1_11_wf
def dot_S8000x1_S1x16_S8000x16_1_0_0_1_n_n : DotDims S8000x1 S1x16 S8000x16 where
  lhsContracting := [1]
  rhsContracting := [0]
  lhsNonContracting := [0]
  rhsNonContracting := [1]
  lhsBatch := []
  rhsBatch := []
  wf := dot_S8000x1_S1x16_S8000x16_1_0_0_1_n_n_wf
def scatter_S400000x16_S5400000x1_S5400000x16_1_0_0_1 : ScatterDims S400000x16 S5400000x1 S5400000x16 where
  updateWindowDims := [1]
  insertedWindowDims := [0]
  scatterDimsToOperandDims := [0]
  indexVectorDim := 1
  wf := scatter_S400000x16_S5400000x1_S5400000x16_1_0_0_1_wf
def gather_S400000x16_S5400000x1_S5400000x16_1_0_n_n_0_1_116 : GatherDims S400000x16 S5400000x1 S5400000x16 where
  offsetDims := [1]
  collapsedSliceDims := [0]
  operandBatchingDims := []
  startIndicesBatchingDims := []
  startIndexMap := [0]
  indexVectorDim := 1
  sliceSizes := ![1, 16]
  wf := gather_S400000x16_S5400000x1_S5400000x16_1_0_n_n_0_1_116_wf
def dot_S8000x16_S16x32_S8000x32_1_0_0_1_n_n : DotDims S8000x16 S16x32 S8000x32 where
  lhsContracting := [1]
  rhsContracting := [0]
  lhsNonContracting := [0]
  rhsNonContracting := [1]
  lhsBatch := []
  rhsBatch := []
  wf := dot_S8000x16_S16x32_S8000x32_1_0_0_1_n_n_wf
def scatter_S400000x32_S5400000x1_S5400000x32_1_0_0_1 : ScatterDims S400000x32 S5400000x1 S5400000x32 where
  updateWindowDims := [1]
  insertedWindowDims := [0]
  scatterDimsToOperandDims := [0]
  indexVectorDim := 1
  wf := scatter_S400000x32_S5400000x1_S5400000x32_1_0_0_1_wf

abbrev win0_0 : Pipeline.Window sig grid0 :=
  Pipeline.Window.ofSpec (Memref.whole main_v2) S1x8000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x8000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S1x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S1x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v17) S1x16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v18) S5000x16.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v21) S1x8000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S1x16x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v22) S1x8000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v32) S5000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v33) S1x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v34) S1x32.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v35) S1x32.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v36) S1x32.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v37) S5000x32.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S400000x1 : Shape := ⟨2, ![400000, 1]⟩
abbrev S27x1x16 : Shape := ⟨3, ![27, 1, 16]⟩
abbrev S16 : Shape := ⟨1, ![16]⟩
abbrev S27x16x32 : Shape := ⟨3, ![27, 16, 32]⟩
abbrev S32 : Shape := ⟨1, ![32]⟩
abbrev S27x200000 : Shape := ⟨2, ![27, 200000]⟩
abbrev S_ : Shape := ⟨0, ![]⟩
abbrev S27x200000x1 : Shape := ⟨3, ![27, 200000, 1]⟩
abbrev S27x200000x16 : Shape := ⟨3, ![27, 200000, 16]⟩
abbrev S400000x16 : Shape := ⟨2, ![400000, 16]⟩
abbrev S5400000 : Shape := ⟨1, ![5400000]⟩
abbrev S5400000x16 : Shape := ⟨2, ![5400000, 16]⟩
abbrev S5400000x1 : Shape := ⟨2, ![5400000, 1]⟩
abbrev S1x16 : Shape := ⟨2, ![1, 16]⟩
abbrev S27x200000x32 : Shape := ⟨3, ![27, 200000, 32]⟩
abbrev S400000x32 : Shape := ⟨2, ![400000, 32]⟩
abbrev S5400000x32 : Shape := ⟨2, ![5400000, 32]⟩
abbrev S1x32 : Shape := ⟨2, ![1, 32]⟩

abbrev nBuf : Space → Nat
  | .hbm => 117
  | .vmem => 0
  | .smem => 0
  | _ => 0

abbrev bufTy : (tb : Table) → Fin (tcTables nBuf tb) → BufTy
  | .hbm, ⟨0, _⟩ => ⟨S400000x1, .f32⟩
  | .hbm, ⟨1, _⟩ => ⟨S27x1x16, .f32⟩
  | .hbm, ⟨2, _⟩ => ⟨S16, .f32⟩
  | .hbm, ⟨3, _⟩ => ⟨S16, .f32⟩
  | .hbm, ⟨4, _⟩ => ⟨S16, .f32⟩
  | .hbm, ⟨5, _⟩ => ⟨S16, .f32⟩
  | .hbm, ⟨6, _⟩ => ⟨S27x16x32, .f32⟩
  | .hbm, ⟨7, _⟩ => ⟨S32, .f32⟩
  | .hbm, ⟨8, _⟩ => ⟨S32, .f32⟩
  | .hbm, ⟨9, _⟩ => ⟨S32, .f32⟩
  | .hbm, ⟨10, _⟩ => ⟨S32, .f32⟩
  | .hbm, ⟨11, _⟩ => ⟨S27x200000, .i32⟩
  | .hbm, ⟨12, _⟩ => ⟨S27x200000, .i32⟩
  | .hbm, ⟨13, _⟩ => ⟨S_, .i32⟩
  | .hbm, ⟨14, _⟩ => ⟨S27x200000, .i32⟩
  | .hbm, ⟨15, _⟩ => ⟨S27x200000, .i1⟩
  | .hbm, ⟨16, _⟩ => ⟨S_, .i32⟩
  | .hbm, ⟨17, _⟩ => ⟨S27x200000, .i32⟩
  | .hbm, ⟨18, _⟩ => ⟨S27x200000, .i32⟩
  | .hbm, ⟨19, _⟩ => ⟨S27x200000, .i32⟩
  | .hbm, ⟨20, _⟩ => ⟨S27x200000x1, .i32⟩
  | .hbm, ⟨21, _⟩ => ⟨S27x200000x1, .f32⟩
  | .hbm, ⟨22, _⟩ => ⟨S27x200000x16, .f32⟩
  | .hbm, ⟨23, _⟩ => ⟨S_, .f32⟩
  | .hbm, ⟨24, _⟩ => ⟨S400000x16, .f32⟩
  | .hbm, ⟨25, _⟩ => ⟨S5400000, .i32⟩
  | .hbm, ⟨26, _⟩ => ⟨S5400000x16, .f32⟩
  | .hbm, ⟨27, _⟩ => ⟨S_, .i32⟩
  | .hbm, ⟨28, _⟩ => ⟨S5400000, .i32⟩
  | .hbm, ⟨29, _⟩ => ⟨S5400000, .i1⟩
  | .hbm, ⟨30, _⟩ => ⟨S_, .i32⟩
  | .hbm, ⟨31, _⟩ => ⟨S5400000, .i32⟩
  | .hbm, ⟨32, _⟩ => ⟨S5400000, .i32⟩
  | .hbm, ⟨33, _⟩ => ⟨S5400000, .i32⟩
  | .hbm, ⟨34, _⟩ => ⟨S5400000x1, .i32⟩
  | .hbm, ⟨35, _⟩ => ⟨S400000x16, .f32⟩
  | .hbm, ⟨36, _⟩ => ⟨S_, .f32⟩
  | .hbm, ⟨37, _⟩ => ⟨S16, .f32⟩
  | .hbm, ⟨38, _⟩ => ⟨S16, .f32⟩
  | .hbm, ⟨39, _⟩ => ⟨S16, .f32⟩
  | .hbm, ⟨40, _⟩ => ⟨S16, .f32⟩
  | .hbm, ⟨41, _⟩ => ⟨S1x16, .f32⟩
  | .hbm, ⟨42, _⟩ => ⟨S400000x16, .f32⟩
  | .hbm, ⟨43, _⟩ => ⟨S400000x16, .f32⟩
  | .hbm, ⟨44, _⟩ => ⟨S1x16, .f32⟩
  | .hbm, ⟨45, _⟩ => ⟨S400000x16, .f32⟩
  | .hbm, ⟨46, _⟩ => ⟨S400000x16, .f32⟩
  | .hbm, ⟨47, _⟩ => ⟨S1x16, .f32⟩
  | .hbm, ⟨48, _⟩ => ⟨S400000x16, .f32⟩
  | .hbm, ⟨49, _⟩ => ⟨S400000x16, .f32⟩
  | .hbm, ⟨50, _⟩ => ⟨S_, .f32⟩
  | .hbm, ⟨51, _⟩ => ⟨S400000x16, .f32⟩
  | .hbm, ⟨52, _⟩ => ⟨S400000x16, .i1⟩
  | .hbm, ⟨53, _⟩ => ⟨S_, .f32⟩
  | .hbm, ⟨54, _⟩ => ⟨S400000x16, .f32⟩
  | .hbm, ⟨55, _⟩ => ⟨S400000x16, .i1⟩
  | .hbm, ⟨56, _⟩ => ⟨S_, .f32⟩
  | .hbm, ⟨57, _⟩ => ⟨S_, .f32⟩
  | .hbm, ⟨58, _⟩ => ⟨S400000x16, .f32⟩
  | .hbm, ⟨59, _⟩ => ⟨S400000x16, .f32⟩
  | .hbm, ⟨60, _⟩ => ⟨S400000x16, .f32⟩
  | .hbm, ⟨61, _⟩ => ⟨S_, .f32⟩
  | .hbm, ⟨62, _⟩ => ⟨S400000x16, .f32⟩
  | .hbm, ⟨63, _⟩ => ⟨S400000x16, .f32⟩
  | .hbm, ⟨64, _⟩ => ⟨S400000x16, .f32⟩
  | .hbm, ⟨65, _⟩ => ⟨S_, .i32⟩
  | .hbm, ⟨66, _⟩ => ⟨S27x200000, .i32⟩
  | .hbm, ⟨67, _⟩ => ⟨S27x200000, .i1⟩
  | .hbm, ⟨68, _⟩ => ⟨S_, .i32⟩
  | .hbm, ⟨69, _⟩ => ⟨S27x200000, .i32⟩
  | .hbm, ⟨70, _⟩ => ⟨S27x200000, .i32⟩
  | .hbm, ⟨71, _⟩ => ⟨S27x200000, .i32⟩
  | .hbm, ⟨72, _⟩ => ⟨S27x200000x1, .i32⟩
  | .hbm, ⟨73, _⟩ => ⟨S27x200000x16, .f32⟩
  | .hbm, ⟨74, _⟩ => ⟨S27x200000x32, .f32⟩
  | .hbm, ⟨75, _⟩ => ⟨S_, .f32⟩
  | .hbm, ⟨76, _⟩ => ⟨S400000x32, .f32⟩
  | .hbm, ⟨77, _⟩ => ⟨S5400000, .i32⟩
  | .hbm, ⟨78, _⟩ => ⟨S5400000x32, .f32⟩
  | .hbm, ⟨79, _⟩ => ⟨S_, .i32⟩
  | .hbm, ⟨80, _⟩ => ⟨S5400000, .i32⟩
  | .hbm, ⟨81, _⟩ => ⟨S5400000, .i1⟩
  | .hbm, ⟨82, _⟩ => ⟨S_, .i32⟩
  | .hbm, ⟨83, _⟩ => ⟨S5400000, .i32⟩
  | .hbm, ⟨84, _⟩ => ⟨S5400000, .i32⟩
  | .hbm, ⟨85, _⟩ => ⟨S5400000, .i32⟩
  | .hbm, ⟨86, _⟩ => ⟨S5400000x1, .i32⟩
  | .hbm, ⟨87, _⟩ => ⟨S400000x32, .f32⟩
  | .hbm, ⟨88, _⟩ => ⟨S_, .f32⟩
  | .hbm, ⟨89, _⟩ => ⟨S32, .f32⟩
  | .hbm, ⟨90, _⟩ => ⟨S32, .f32⟩
  | .hbm, ⟨91, _⟩ => ⟨S32, .f32⟩
  | .hbm, ⟨92, _⟩ => ⟨S32, .f32⟩
  | .hbm, ⟨93, _⟩ => ⟨S1x32, .f32⟩
  | .hbm, ⟨94, _⟩ => ⟨S400000x32, .f32⟩
  | .hbm, ⟨95, _⟩ => ⟨S400000x32, .f32⟩
  | .hbm, ⟨96, _⟩ => ⟨S1x32, .f32⟩
  | .hbm, ⟨97, _⟩ => ⟨S400000x32, .f32⟩
  | .hbm, ⟨98, _⟩ => ⟨S400000x32, .f32⟩
  | .hbm, ⟨99, _⟩ => ⟨S1x32, .f32⟩
  | .hbm, ⟨100, _⟩ => ⟨S400000x32, .f32⟩
  | .hbm, ⟨101, _⟩ => ⟨S400000x32, .f32⟩
  | .hbm, ⟨102, _⟩ => ⟨S_, .f32⟩
  | .hbm, ⟨103, _⟩ => ⟨S400000x32, .f32⟩
  | .hbm, ⟨104, _⟩ => ⟨S400000x32, .i1⟩
  | .hbm, ⟨105, _⟩ => ⟨S_, .f32⟩
  | .hbm, ⟨106, _⟩ => ⟨S400000x32, .f32⟩
  | .hbm, ⟨107, _⟩ => ⟨S400000x32, .i1⟩
  | .hbm, ⟨108, _⟩ => ⟨S_, .f32⟩
  | .hbm, ⟨109, _⟩ => ⟨S_, .f32⟩
  | .hbm, ⟨110, _⟩ => ⟨S400000x32, .f32⟩
  | .hbm, ⟨111, _⟩ => ⟨S400000x32, .f32⟩
  | .hbm, ⟨112, _⟩ => ⟨S400000x32, .f32⟩
  | .hbm, ⟨113, _⟩ => ⟨S_, .f32⟩
  | .hbm, ⟨114, _⟩ => ⟨S400000x32, .f32⟩
  | .hbm, ⟨115, _⟩ => ⟨S400000x32, .f32⟩
  | .hbm, ⟨116, _⟩ => ⟨S400000x32, .f32⟩
  | _, _ => ⟨S400000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_c_1 : Ref sig .tc := ⟨.hbm, 27, rfl⟩
abbrev main_v11 : Ref sig .tc := ⟨.hbm, 28, rfl⟩
abbrev main_v12 : Ref sig .tc := ⟨.hbm, 29, rfl⟩
abbrev main_c_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_call0_cst : Ref sig .tc := ⟨.hbm, 50, rfl⟩
abbrev main_call0_v0 : Ref sig .tc := ⟨.hbm, 51, rfl⟩
abbrev main_call0_v1 : Ref sig .tc := ⟨.hbm, 52, rfl⟩
abbrev main_call0_cst_0 : Ref sig .tc := ⟨.hbm, 53, rfl⟩
abbrev main_call0_v2 : Ref sig .tc := ⟨.hbm, 54, rfl⟩
abbrev main_call0_v3 : Ref sig .tc := ⟨.hbm, 55, rfl⟩
abbrev main_call0_cst_1 : Ref sig .tc := ⟨.hbm, 56, rfl⟩
abbrev main_call0_call0_v0 : Ref sig .tc := ⟨.hbm, 57, rfl⟩
abbrev main_call0_call0_v1 : Ref sig .tc := ⟨.hbm, 58, rfl⟩
abbrev main_call0_v4 : Ref sig .tc := ⟨.hbm, 59, rfl⟩
abbrev main_call0_v5 : Ref sig .tc := ⟨.hbm, 60, rfl⟩
abbrev main_call0_cst_2 : Ref sig .tc := ⟨.hbm, 61, rfl⟩
abbrev main_call0_v6 : Ref sig .tc := ⟨.hbm, 62, rfl⟩
abbrev main_call0_v7 : Ref sig .tc := ⟨.hbm, 63, rfl⟩
abbrev main_v31 : Ref sig .tc := ⟨.hbm, 64, rfl⟩
abbrev main_c_4 : Ref sig .tc := ⟨.hbm, 65, rfl⟩
abbrev main_v32 : Ref sig .tc := ⟨.hbm, 66, rfl⟩
abbrev main_v33 : Ref sig .tc := ⟨.hbm, 67, rfl⟩
abbrev main_c_5 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_cst_6 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_c_7 : Ref sig .tc := ⟨.hbm, 79, rfl⟩
abbrev main_v43 : Ref sig .tc := ⟨.hbm, 80, rfl⟩
abbrev main_v44 : Ref sig .tc := ⟨.hbm, 81, rfl⟩
abbrev main_c_8 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_cst_9 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_call1_cst : Ref sig .tc := ⟨.hbm, 102, rfl⟩
abbrev main_call1_v0 : Ref sig .tc := ⟨.hbm, 103, rfl⟩
abbrev main_call1_v1 : Ref sig .tc := ⟨.hbm, 104, rfl⟩
abbrev main_call1_cst_0 : Ref sig .tc := ⟨.hbm, 105, rfl⟩
abbrev main_call1_v2 : Ref sig .tc := ⟨.hbm, 106, rfl⟩
abbrev main_call1_v3 : Ref sig .tc := ⟨.hbm, 107, rfl⟩
abbrev main_call1_cst_1 : Ref sig .tc := ⟨.hbm, 108, rfl⟩
abbrev main_call1_call0_v0 : Ref sig .tc := ⟨.hbm, 109, rfl⟩
abbrev main_call1_call0_v1 : Ref sig .tc := ⟨.hbm, 110, rfl⟩
abbrev main_call1_v4 : Ref sig .tc := ⟨.hbm, 111, rfl⟩
abbrev main_call1_v5 : Ref sig .tc := ⟨.hbm, 112, rfl⟩
abbrev main_call1_cst_2 : Ref sig .tc := ⟨.hbm, 113, rfl⟩
abbrev main_call1_v6 : Ref sig .tc := ⟨.hbm, 114, rfl⟩
abbrev main_call1_v7 : Ref sig .tc := ⟨.hbm, 115, rfl⟩
abbrev main_v63 : Ref sig .tc := ⟨.hbm, 116, rfl⟩

abbrev nD : Nat := 1
abbrev τ : Topo := Topo.v7x

variable {F : FTy → Type} [FloatOps F]

class Facts₀ : Prop where
  bcast_S_S27x200000 : S_.BroadcastsInDim S27x200000 (![] : Fin 0 → Fin S27x200000.rank)
  bcast_S27x200000_S27x200000x1_0_1 : S27x200000.BroadcastsInDim S27x200000x1 (![0, 1] : Fin 2 → Fin S27x200000x1.rank)
  bcast_S_S400000x16 : S_.BroadcastsInDim S400000x16 (![] : Fin 0 → Fin S400000x16.rank)
  shapeCasts_S27x200000_S5400000 : S27x200000.ShapeCasts S5400000
  shapeCasts_S27x200000x16_S5400000x16 : S27x200000x16.ShapeCasts S5400000x16
  bcast_S_S5400000 : S_.BroadcastsInDim S5400000 (![] : Fin 0 → Fin S5400000.rank)
  bcast_S5400000_S5400000x1_0 : S5400000.BroadcastsInDim S5400000x1 (![0] : Fin 1 → Fin S5400000x1.rank)
  bcast_S_S16 : S_.BroadcastsInDim S16 (![] : Fin 0 → Fin S16.rank)
  bcast_S16_S1x16_1 : S16.BroadcastsInDim S1x16 (![1] : Fin 1 → Fin S1x16.rank)
  bcast_S1x16_S400000x16_0_1 : S1x16.BroadcastsInDim S400000x16 (![0, 1] : Fin 2 → Fin S400000x16.rank)
  bcast_S_S400000x32 : S_.BroadcastsInDim S400000x32 (![] : Fin 0 → Fin S400000x32.rank)
  shapeCasts_S27x200000x32_S5400000x32 : S27x200000x32.ShapeCasts S5400000x32
  bcast_S_S32 : S_.BroadcastsInDim S32 (![] : Fin 0 → Fin S32.rank)
  bcast_S32_S1x32_1 : S32.BroadcastsInDim S1x32 (![1] : Fin 1 → Fin S1x32.rank)
  bcast_S1x32_S400000x32_0_1 : S1x32.BroadcastsInDim S400000x32 (![0, 1] : Fin 2 → Fin S400000x32.rank)
  gather_S400000x1_S27x200000x1_S27x200000x1_2_0_n_n_0_2_11_wf : GatherDims.WF S400000x1 S27x200000x1 S27x200000x1 [2] [0] [] [0] [] 2 ![1, 1]
  dot_S27x200000x1_S27x1x16_S27x200000x16_2_1_1_2_0_0_wf : DotDims.WF S27x200000x1 S27x1x16 S27x200000x16 [2] [1] [1] [2] [0] [0]
  scatter_S400000x16_S5400000x1_S5400000x16_1_0_0_1_wf : ScatterDims.WF S400000x16 S5400000x1 S5400000x16 [1] [0] [0] 1
  gather_S400000x16_S27x200000x1_S27x200000x16_2_0_n_n_0_2_116_wf : GatherDims.WF S400000x16 S27x200000x1 S27x200000x16 [2] [0] [] [0] [] 2 ![1, 16]
  dot_S27x200000x16_S27x16x32_S27x200000x32_2_1_1_2_0_0_wf : DotDims.WF S27x200000x16 S27x16x32 S27x200000x32 [2] [1] [1] [2] [0] [0]
  scatter_S400000x32_S5400000x1_S5400000x32_1_0_0_1_wf : ScatterDims.WF S400000x32 S5400000x1 S5400000x32 [1] [0] [0] 1

variable [Facts₀]

def gather_S400000x1_S27x200000x1_S27x200000x1_2_0_n_n_0_2_11 : GatherDims S400000x1 S27x200000x1 S27x200000x1 where
  offsetDims := [2]
  collapsedSliceDims := [0]
  operandBatchingDims := []
  startIndicesBatchingDims := []
  startIndexMap := [0]
  indexVectorDim := 2
  sliceSizes := ![1, 1]
  wf := gather_S400000x1_S27x200000x1_S27x200000x1_2_0_n_n_0_2_11_wf
def dot_S27x200000x1_S27x1x16_S27x200000x16_2_1_1_2_0_0 : DotDims S27x200000x1 S27x1x16 S27x200000x16 where
  lhsContracting := [2]
  rhsContracting := [1]
  lhsNonContracting := [1]
  rhsNonContracting := [2]
  lhsBatch := [0]
  rhsBatch := [0]
  wf := dot_S27x200000x1_S27x1x16_S27x200000x16_2_1_1_2_0_0_wf
def scatter_S400000x16_S5400000x1_S5400000x16_1_0_0_1 : ScatterDims S400000x16 S5400000x1 S5400000x16 where
  updateWindowDims := [1]
  insertedWindowDims := [0]
  scatterDimsToOperandDims := [0]
  indexVectorDim := 1
  wf := scatter_S400000x16_S5400000x1_S5400000x16_1_0_0_1_wf
def gather_S400000x16_S27x200000x1_S27x200000x16_2_0_n_n_0_2_116 : GatherDims S400000x16 S27x200000x1 S27x200000x16 where
  offsetDims := [2]
  collapsedSliceDims := [0]
  operandBatchingDims := []
  startIndicesBatchingDims := []
  startIndexMap := [0]
  indexVectorDim := 2
  sliceSizes := ![1, 16]
  wf := gather_S400000x16_S27x200000x1_S27x200000x16_2_0_n_n_0_2_116_wf
def dot_S27x200000x16_S27x16x32_S27x200000x32_2_1_1_2_0_0 : DotDims S27x200000x16 S27x16x32 S27x200000x32 where
  lhsContracting := [2]
  rhsContracting := [1]
  lhsNonContracting := [1]
  rhsNonContracting := [2]
  lhsBatch := [0]
  rhsBatch := [0]
  wf := dot_S27x200000x16_S27x16x32_S27x200000x32_2_1_1_2_0_0_wf
def scatter_S400000x32_S5400000x1_S5400000x32_1_0_0_1 : ScatterDims S400000x32 S5400000x1 S5400000x32 where
  updateWindowDims := [1]
  insertedWindowDims := [0]
  scatterDimsToOperandDims := [0]
  indexVectorDim := 1
  wf := scatter_S400000x32_S5400000x1_S5400000x32_1_0_0_1_wf

class Facts : Prop extends Facts₀ where

variable [Facts]
-- ==== Proof.Spec.lean ====
/-
  The specification both programs are compared with: two stages of a sparse convolution. A stage gathers rows of
  the activations by an index table (one row number per offset `k` and position `r`), multiplies each gathered
  row by the weight matrix of its offset, adds the products into the rows an output index table names (that
  scatter-add is the same operation in both programs and stays a parameter here), and applies an inference-mode
  batch normalisation followed by ELU, entry by entry. Everything is over the extended reals.
-/
import Idealize.ShloMosaic.PureOps.Ideal
import Idealize.ShloMosaic.Lib.ValueIdx

noncomputable section

open scoped BigOperators

namespace Cert.SparseConv

open Idealize.ShloMosaic Idealize.ShloMosaic.ValueIdx

/-- A row number as NumPy reads it: a negative word has the table's extent, 400000, added. -/
def wrapWord (w : BitVec 32) : BitVec 32 :=
  Scalar.select (IntOp.cmpi .slt w 0#32) (IntOp.addi w 400000#32) w

/-- The row a start index names in a table of 400000 rows: the word read signed and clamped into the table. -/
def rowOf (w : BitVec 32) : Fin 400000 := ⟨min w.toInt.toNat 399999, by omega⟩

/-- Every entry of the index table is a valid NumPy row number for 400000 rows: `-400000 ≤ i < 400000`. -/
def InRange (idx : (⟨2, ![27, 200000]⟩ : Shape).Idx → BitVec 32) : Prop :=
  ∀ (k : Fin 27) (r : Fin 200000), -400000 ≤ (idx (ix2 k r)).toInt ∧ (idx (ix2 k r)).toInt < 400000

/-- The gathered rows: entry `(k, r, c)` is column `c` of the row of `x` that `idx[k, r]` names. -/
def takeRows {C : Nat} (x : (⟨2, ![400000, C]⟩ : Shape).Idx → EReal)
    (idx : (⟨2, ![27, 200000]⟩ : Shape).Idx → BitVec 32) : (⟨3, ![27, 200000, C]⟩ : Shape).Idx → EReal :=
  fun i => x (ix2 (rowOf (wrapWord (idx (ix2 (i 0) (i 1))))) (i 2))

/-- The product per offset: entry `(k, r, d)` is the sum over the input channels `ch` of
    `xg[k, r, ch] · w[k, ch, d]`. -/
def offsetMatmul {Ci Co : Nat} (xg : (⟨3, ![27, 200000, Ci]⟩ : Shape).Idx → EReal)
    (w : (⟨3, ![27, Ci, Co]⟩ : Shape).Idx → EReal) : (⟨3, ![27, 200000, Co]⟩ : Shape).Idx → EReal :=
  fun i => ∑ ch : Fin Ci, xg (ix3 (i 0) (i 1) ch) * w (ix3 (i 0) ch (i 2))

/-- ELU of an extended real: `z` where `z > 0`, else `exp z - 1`. -/
def elu (z : EReal) : EReal :=
  Scalar.select (FloatOps.cmpf (F := Ideal) (φ := .f32) .ogt z (Ideal.ofBits .f32 0x00000000#32)) z (Ideal.exp z - 1)

/-- Batch normalisation of one entry with the channel's parameters, `(h - μ) · (γ · rsqrt(σ² + ε)) + β`, with
    `ε` the f32 word `0x3727C5AC`. -/
def bnAt (h g b mu v : EReal) : EReal :=
  (h - mu) * (g * Ideal.rsqrt (v + Ideal.ofBits .f32 0x3727C5AC#32)) + b

/-- Batch normalisation then ELU of a `400000 × C` array, the parameters indexed by the channel. -/
def bnElu {C : Nat} (h : (⟨2, ![400000, C]⟩ : Shape).Idx → EReal) (g b mu v : (⟨1, ![C]⟩ : Shape).Idx → EReal) :
    (⟨2, ![400000, C]⟩ : Shape).Idx → EReal :=
  fun i => elu (bnAt (h i) (g (ix1 (i 1))) (b (ix1 (i 1))) (mu (ix1 (i 1))) (v (ix1 (i 1))))

/-- The same with the parameters laid out as `1 × C` rows. -/
def bnEluRow {C : Nat} (h : (⟨2, ![400000, C]⟩ : Shape).Idx → EReal) (g b mu v : (⟨2, ![1, C]⟩ : Shape).Idx → EReal) :
    (⟨2, ![400000, C]⟩ : Shape).Idx → EReal :=
  fun i => elu (bnAt (h i) (g (ix2 (0 : Fin 1) (i 1))) (b (ix2 (0 : Fin 1) (i 1))) (mu (ix2 (0 : Fin 1) (i 1)))
    (v (ix2 (0 : Fin 1) (i 1))))

/-- One stage: gather, product per offset, the scatter-add `S` of the products' rows, normalisation and ELU. -/
def stage {Ci Co : Nat}
    (S : ((⟨3, ![27, 200000, Co]⟩ : Shape).Idx → EReal) → ((⟨2, ![400000, Co]⟩ : Shape).Idx → EReal))
    (x : (⟨2, ![400000, Ci]⟩ : Shape).Idx → EReal) (w : (⟨3, ![27, Ci, Co]⟩ : Shape).Idx → EReal)
    (g b mu v : (⟨1, ![Co]⟩ : Shape).Idx → EReal) (idx : (⟨2, ![27, 200000]⟩ : Shape).Idx → BitVec 32) :
    (⟨2, ![400000, Co]⟩ : Shape).Idx → EReal :=
  bnElu (S (offsetMatmul (takeRows x idx) w)) g b mu v

/-- The whole network: the 1 → 16 stage, then the 16 → 32 stage on its result, with the same index table. -/
def net
    (S16 : ((⟨3, ![27, 200000, 16]⟩ : Shape).Idx → EReal) → ((⟨2, ![400000, 16]⟩ : Shape).Idx → EReal))
    (S32 : ((⟨3, ![27, 200000, 32]⟩ : Shape).Idx → EReal) → ((⟨2, ![400000, 32]⟩ : Shape).Idx → EReal))
    (x : (⟨2, ![400000, 1]⟩ : Shape).Idx → EReal) (w1 : (⟨3, ![27, 1, 16]⟩ : Shape).Idx → EReal)
    (g1 b1 m1 v1 : (⟨1, ![16]⟩ : Shape).Idx → EReal) (w2 : (⟨3, ![27, 16, 32]⟩ : Shape).Idx → EReal)
    (g2 b2 m2 v2 : (⟨1, ![32]⟩ : Shape).Idx → EReal) (idx : (⟨2, ![27, 200000]⟩ : Shape).Idx → BitVec 32) :
    (⟨2, ![400000, 32]⟩ : Shape).Idx → EReal :=
  stage S32 (stage S16 x w1 g1 b1 m1 v1 idx) w2 g2 b2 m2 v2 idx

end Cert.SparseConv

end
-- ==== Proof.LibDot.lean ====
/-
  A plain matrix product read at an entry.

  For dimension numbers that contract axis 1 of an `M × K` left operand with axis 0 of a `K × N` right operand and
  have no batch axes, the contraction index is one coordinate `k : Fin K`, the left operand is read at `(a, k)` and the
  right operand at `(k, b)`: the sum over the contraction index is `∑ k : Fin K`. At the ideal instance this reads a
  kernel's matrix product into a zero accumulator, and a host program's `dot_general`, at entry `(a, b)`.
-/
import Idealize.ShloMosaic.PureOps.Ideal
import Idealize.ShloMosaic.PureOps.Ideal.Laws
import Idealize.ShloMosaic.Lib.ValueIdx

noncomputable section

open scoped BigOperators

namespace Cert.LibDot

open Idealize.ShloMosaic Idealize.ShloMosaic.ValueIdx

/-- The sum over the contraction index of a plain `M × K` by `K × N` product, as a sum over `Fin K`. -/
theorem plain_sum {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    {α : Type} [AddCommMonoid α] (f : (⟨2, ![M, K]⟩ : Shape).Idx → (⟨2, ![K, N]⟩ : Shape).Idx → α) (a : Fin M) (b : Fin N) :
    ∑ k : d.contr.Idx, f (d.lhsIdx (ix2 a b) k) (d.rhsIdx (ix2 a b) k) = ∑ k : Fin K, f (ix2 a k) (ix2 k b) := by
  obtain ⟨lc, rc, ln, rn, lb, rb, wf⟩ := d
  dsimp only at h1 h2 h3 h4 h5 h6
  subst h1 h2 h3 h4 h5 h6
  have hr : (DotDims.mk [1] [0] [0] [1] [] [] wf : DotDims ⟨2, ![M, K]⟩ ⟨2, ![K, N]⟩ ⟨2, ![M, N]⟩).contr.rank = 1 := rfl
  have hs : (DotDims.mk [1] [0] [0] [1] [] [] wf : DotDims ⟨2, ![M, K]⟩ ⟨2, ![K, N]⟩ ⟨2, ![M, N]⟩).contr.size ⟨0, by omega⟩ = K := rfl
  rw [← Equiv.sum_comp (contrEquiv1 _ K hr hs).symm]
  refine Finset.sum_congr rfl fun k _ => ?_
  congr 1
  · funext c
    match c with
    | ⟨0, _⟩ => exact Fin.ext rfl
    | ⟨1, _⟩ => exact Fin.ext rfl
  · funext c
    match c with
    | ⟨0, _⟩ => exact Fin.ext rfl
    | ⟨1, _⟩ => exact Fin.ext rfl

/-- A kernel's matrix product into the zero accumulator, at the ideal instance, at entry `(a, b)`. -/
theorem matmul_zero_apply {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) {φ₁ φ₂ : FTy}
    (prec : Option ContractPrecision) (l : FVec Ideal ⟨2, ![M, K]⟩ φ₁) (r : FVec Ideal ⟨2, ![K, N]⟩ φ₂) (a : Fin M) (b : Fin N) :
    matmul d prec l r (constant ⟨2, ![M, N]⟩ .f32 0x00000000#32) (ix2 a b) = ∑ k : Fin K, l (ix2 a k) * r (ix2 k b) := by
  show FloatOps.matmul d prec l r (constant ⟨2, ![M, N]⟩ .f32 0x00000000#32) (ix2 a b) = _
  rw [Ideal.matmul_constant_zero_apply]
  exact plain_sum d h1 h2 h3 h4 h5 h6 (fun i j => l i * r j) a b

/-- A host program's `dot_general`, at the ideal instance, at entry `(a, b)`. -/
theorem dotGeneral_apply {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) {φ₁ φ₂ : FTy}
    (prec : Option ContractPrecision) (l : FVec Ideal ⟨2, ![M, K]⟩ φ₁) (r : FVec Ideal ⟨2, ![K, N]⟩ φ₂) (a : Fin M) (b : Fin N) :
    Host.dotGeneral d prec l r (ix2 a b) = ∑ k : Fin K, l (ix2 a k) * r (ix2 k b) := by
  show FloatOps.dotGeneral d prec .single l r (ix2 a b) = _
  rw [Ideal.dotGeneral_apply]
  exact plain_sum d h1 h2 h3 h4 h5 h6 (fun i j => l i * r j) a b

end Cert.LibDot

end
-- ==== Proof.KRegionMatmul.lean ====
/-
  The two matrix-product regions of the kernel's program, each read as one whole-array function.

  A region's grid is 27 offsets by 25 row tiles of 8000 rows; the point (k, t) multiplies rows 8000·t … 8000·t + 7999
  of offset k's gathered activations by offset k's weight matrix and writes that tile of the result. The tiles cover
  the result array, so after the region entry (k, r, d) of the result is the sum over the input channels of
  xg[k, r, ch] · w[k, ch, d], whatever the arrays held when the region was entered.
-/
import proofs.«426714_j42949672960764_1_alg».proof.Proof.Gen.KernelIdeal.Frame
import proofs.«426714_j42949672960764_1_alg».proof.Proof.Spec
import proofs.«426714_j42949672960764_1_alg».proof.Proof.LibDot
import Idealize.ShloMosaic.Lib.ValueLayout

set_option maxRecDepth 16384

noncomputable section

open scoped BigOperators

namespace Cert.SparseConv.Kernel

open Idealize.ShloMosaic Idealize.ShloMosaic.TcCoe Idealize.ShloMosaic.ValueIdx Idealize.SL.Sem
open Cert.KernelIdeal Cert.KernelIdeal.Gen Cert.SparseConv
variable (V : (c : Dev nD) → (b : Ref sig .tc) → Buf (Elt Ideal) ((c : Thread nD τ).loc b))

/-- The zero offsets of a store or load that takes a whole rank-3 buffer. -/
theorem zeros3 : (![0, 0, 0] : Fin 3 → Nat) = fun _ => 0 := funext fun a => by fin_cases a <;> rfl

/-! ## Region 0: 1 input channel, 16 output channels -/

/-- One tile's arithmetic at an entry: the body drops the tile's leading unit axis from both operands, multiplies the
    `8000 × 1` rows by the `1 × 16` weight matrix into a zero accumulator (the narrowing of the operands is the
    identity on extended reals) and puts the unit axis back, so entry `(0, r, d)` is `∑ ch, x0[0, r, ch] · x1[0, ch, d]`. -/
theorem tileProduct0_apply (x0 : Vec Ideal S1x8000x1 .f32) (x1 : Vec Ideal S1x1x16 .f32) (r : Fin 8000) (d : Fin 16) :
    k0_pay1 (F := Ideal) x0 x1 (ix3 (0 : Fin 1) r d)
      = ∑ ch : Fin 1, x0 (ix3 (0 : Fin 1) r ch) * x1 (ix3 (0 : Fin 1) ch d) := by
  unfold k0_pay1
  refine (shapeCast_ab_1ab_apply _ shapeCasts_S8000x16_S1x8000x16 (0 : Fin 1) r d).trans ?_
  refine (Cert.LibDot.matmul_zero_apply dot_S8000x1_S1x16_S8000x16_1_0_0_1_n_n rfl rfl rfl rfl rfl rfl none _ _ r d).trans ?_
  refine Finset.sum_congr rfl fun ch _ => ?_
  refine congrArg₂ (· * ·) ?_ ?_
  · exact shapeCast_1ab_ab_apply x0 shapeCasts_S1x8000x1_S8000x1 r ch
  · exact shapeCast_1ab_ab_apply x1 shapeCasts_S1x1x16_S1x16 ch d

/-- The three windows' block indices at grid point `t = 25·k + b` (offset `k`, row tile `b`): the gathered
    activations and the result are at block `(k, b, 0)`, the weights at block `(k, 0, 0)`. Decided over the 675 points. -/
theorem tileIndex0 : ∀ t : Fin cfg0.N,
    win0_0.index t (0 : Fin 3) = t.val / 25 ∧ win0_0.index t (1 : Fin 3) = t.val % 25 ∧ win0_0.index t (2 : Fin 3) = 0
    ∧ win0_1.index t (0 : Fin 3) = t.val / 25 ∧ win0_1.index t (1 : Fin 3) = 0 ∧ win0_1.index t (2 : Fin 3) = 0
    ∧ win0_2.index t (0 : Fin 3) = t.val / 25 ∧ win0_2.index t (1 : Fin 3) = t.val % 25 ∧ win0_2.index t (2 : Fin 3) = 0 :=
  (by decide +kernel : ∀ t : Fin grid0.N, _)

/-- A tile of the product from its two operand tiles: if `x0` is rows `8000·b … 8000·b + 7999` of offset `k`'s
    activations `xg` and `x1` is offset `k`'s weight matrix in `w`, then the tile's entry `j` is the product per offset
    at the array entry `i = (k, 8000·b + j₁, j₂)`. -/
theorem tileProduct0_eq (x0 : Vec Ideal S1x8000x1 .f32) (x1 : Vec Ideal S1x1x16 .f32)
    (xg : S27x200000x1.Idx → EReal) (w : S27x1x16.Idx → EReal) (k : Fin 27) (b : Nat) (hb : b < 25)
    (h0 : ∀ (r : Fin 8000) (ch : Fin 1), x0 (ix3 (0 : Fin 1) r ch) = xg (ix3 k (⟨b * 8000 + r.val, by omega⟩ : Fin 200000) ch))
    (h1 : ∀ (ch : Fin 1) (d : Fin 16), x1 (ix3 (0 : Fin 1) ch d) = w (ix3 k ch d))
    (j : S1x8000x16.Idx) (i : S27x200000x16.Idx)
    (hi0 : (i 0).val = k.val) (hi1 : (i 1).val = b * 8000 + (j 1).val) (hi2 : (i 2).val = (j 2).val) :
    k0_pay1 (F := Ideal) x0 x1 j = offsetMatmul xg w i := by
  obtain ⟨u, r, d, rfl⟩ : ∃ (u : Fin 1) (r : Fin 8000) (d : Fin 16), j = ix3 u r d := ⟨j 0, j 1, j 2, eq_ix3 j⟩
  have hr : b * 8000 + r.val < 200000 := by omega
  obtain ⟨k', r', d', rfl⟩ : ∃ (k' : Fin 27) (r' : Fin 200000) (d' : Fin 16), i = ix3 k' r' d' := ⟨i 0, i 1, i 2, eq_ix3 i⟩
  obtain rfl : u = 0 := Subsingleton.elim _ _
  obtain rfl : k' = k := Fin.ext hi0
  obtain rfl : r' = ⟨b * 8000 + r.val, hr⟩ := Fin.ext hi1
  obtain rfl : d' = d := Fin.ext hi2
  rw [tileProduct0_apply]
  exact Finset.sum_congr rfl fun ch _ => by rw [h0, h1]

/-- The activations' block at point `t` is rows `8000·(t mod 25) …` of offset `t / 25` of the activations array as the
    region finds it: a block's coordinate on an axis is its block index times the block's extent plus the coordinate
    inside the block. -/
theorem inputTile0_apply (c : Dev nD) (t : Fin cfg0.N) (y : S1x8000x1.Idx) (i : S27x200000x1.Idx)
    (h0 : (i 0).val = t.val / 25) (h1 : (i 1).val = t.val % 25 * 8000 + (y 1).val) (h2 : (i 2).val = (y 2).val) :
    (iblk0 V c 0 t : Vec Ideal S1x8000x1 .f32) y = (V c main_v2 : S27x200000x1.Idx → EReal) i := by
  obtain ⟨e0, e1, e2, -⟩ := tileIndex0 t
  have hy0 : (y 0).val < 1 := (y 0).isLt
  unfold iblk0
  rw [View.read_apply]
  refine congrArg (V c main_v2 : S27x200000x1.Idx → EReal) ?_
  funext a
  apply Fin.ext
  match a with
  | ⟨0, _⟩ => show win0_0.index t (0 : Fin 3) * 1 + 1 * (y 0).val = (i 0).val; omega
  | ⟨1, _⟩ => show win0_0.index t (1 : Fin 3) * 8000 + 1 * (y 1).val = (i 1).val; omega
  | ⟨2, _⟩ => show win0_0.index t (2 : Fin 3) * 1 + 1 * (y 2).val = (i 2).val; omega

/-- The weights' block at point `t` is offset `t / 25`'s whole weight matrix. -/
theorem weightTile0_apply (c : Dev nD) (t : Fin cfg0.N) (y : S1x1x16.Idx) (i : S27x1x16.Idx)
    (h0 : (i 0).val = t.val / 25) (h1 : (i 1).val = (y 1).val) (h2 : (i 2).val = (y 2).val) :
    (iblk0 V c 1 t : Vec Ideal S1x1x16 .f32) y = (V c main_arg1 : S27x1x16.Idx → EReal) i := by
  obtain ⟨-, -, -, e0, e1, e2, -⟩ := tileIndex0 t
  have hy0 : (y 0).val < 1 := (y 0).isLt
  unfold iblk0
  rw [View.read_apply]
  refine congrArg (V c main_arg1 : S27x1x16.Idx → EReal) ?_
  funext a
  apply Fin.ext
  match a with
  | ⟨0, _⟩ => show win0_1.index t (0 : Fin 3) * 1 + 1 * (y 0).val = (i 0).val; omega
  | ⟨1, _⟩ => show win0_1.index t (1 : Fin 3) * 1 + 1 * (y 1).val = (i 1).val; omega
  | ⟨2, _⟩ => show win0_1.index t (2 : Fin 3) * 16 + 1 * (y 2).val = (i 2).val; omega

/-- What point `t` writes back to the result array is block `t` of the product per offset of the two input arrays:
    the body's one store fills the tile with the tile product of the two input blocks, and those blocks are the rows
    and the weight matrix the product's entries at the tile's place read. -/
theorem writtenTile0_eq (c : Dev nD) (t : Fin cfg0.N) :
    (dat0 (F := Ideal) V c).flushed 2 t = ((cfg0.win 2).blk t).view.read (Elt Ideal)
      (offsetMatmul (V c main_v2 : S27x200000x1.Idx → EReal) (V c main_arg1 : S27x1x16.Idx → EReal)) := by
  show (cfg0.win 2).cut (grid0.coords t) ((dat0 V c).after 2 t) = _
  rw [after0_2]
  unfold out0_2
  rw [View.canon_unit_zero zeros3]
  simp only [View.ld_unit_zero (S := S1x8000x1) zeros3, View.ld_unit_zero (S := S1x1x16) zeros3]
  obtain ⟨-, -, -, -, -, -, e0, e1, e2⟩ := tileIndex0 t
  have ht : t.val < 675 := lt_of_lt_of_eq t.isLt N_0
  funext j
  have hj0 : (j 0).val < 1 := (j 0).isLt
  show k0_pay1 (F := Ideal) (iblk0 V c 0 t : Vec Ideal S1x8000x1 .f32) (iblk0 V c 1 t : Vec Ideal S1x1x16 .f32) j
    = offsetMatmul (V c main_v2 : S27x200000x1.Idx → EReal) (V c main_arg1 : S27x1x16.Idx → EReal)
        (((cfg0.win 2).blk t).view.emb j)
  refine tileProduct0_eq (iblk0 V c 0 t : Vec Ideal S1x8000x1 .f32) (iblk0 V c 1 t : Vec Ideal S1x1x16 .f32)
    (V c main_v2 : S27x200000x1.Idx → EReal) (V c main_arg1 : S27x1x16.Idx → EReal)
    (⟨t.val / 25, by omega⟩ : Fin 27) (t.val % 25) (by omega) (fun r ch => ?_) (fun ch d => ?_) j
    (((cfg0.win 2).blk t).view.emb j) ?_ ?_ ?_
  · exact inputTile0_apply V c t _ _ rfl rfl rfl
  · exact weightTile0_apply V c t _ _ rfl rfl rfl
  · show win0_2.index t (0 : Fin 3) * 1 + 1 * (j 0).val = t.val / 25; omega
  · show win0_2.index t (1 : Fin 3) * 8000 + 1 * (j 1).val = t.val % 25 * 8000 + (j 1).val; omega
  · show win0_2.index t (2 : Fin 3) * 16 + 1 * (j 2).val = (j 2).val; omega

/-- An entry of the result array is in point `t`'s block iff each coordinate is in the block's range on its axis. -/
theorem mem_tile0 (t : Fin cfg0.N) (i : S27x200000x16.Idx) :
    i ∈ ((cfg0.win 2).blk t).view.set ↔ ∀ a : Fin 3, win0_2.index t a * S1x8000x16.size a ≤ (i a).val
      ∧ (i a).val < win0_2.index t a * S1x8000x16.size a + S1x8000x16.size a := by
  show i ∈ ((View.whole main_v3).slice (win0_2.rect t)).set ↔ _
  rw [View.set_slice_whole, Rect.mem_set_unit]
  exact Iff.rfl

/-- The tiles cover the result array: entry `(k, r, d)` is in the block of the point with offset `k` and row tile
    `r / 8000`, point number `25·k + r / 8000`. -/
theorem tiles0_cover (i : S27x200000x16.Idx) :
    ∃ t : Fin cfg0.N, (cfg0.win 2).flush t = true ∧ i ∈ ((cfg0.win 2).blk t).view.set := by
  have h0 : (i 0).val < 27 := (i 0).isLt
  have h1 : (i 1).val < 200000 := (i 1).isLt
  have h2 : (i 2).val < 16 := (i 2).isLt
  have hN : (i 0).val * 25 + (i 1).val / 8000 < cfg0.N := by rw [show cfg0.N = 675 from N_0]; omega
  refine ⟨⟨(i 0).val * 25 + (i 1).val / 8000, hN⟩, flush0_2 _, ?_⟩
  obtain ⟨-, -, -, -, -, -, e0, e1, e2⟩ := tileIndex0 ⟨(i 0).val * 25 + (i 1).val / 8000, hN⟩
  have e0' : win0_2.index ⟨(i 0).val * 25 + (i 1).val / 8000, hN⟩ (0 : Fin 3) = ((i 0).val * 25 + (i 1).val / 8000) / 25 := e0
  have e1' : win0_2.index ⟨(i 0).val * 25 + (i 1).val / 8000, hN⟩ (1 : Fin 3) = ((i 0).val * 25 + (i 1).val / 8000) % 25 := e1
  rw [mem_tile0]
  intro a
  match a with
  | ⟨0, _⟩ =>
    show win0_2.index ⟨(i 0).val * 25 + (i 1).val / 8000, hN⟩ (0 : Fin 3) * 1 ≤ (i 0).val
      ∧ (i 0).val < win0_2.index ⟨(i 0).val * 25 + (i 1).val / 8000, hN⟩ (0 : Fin 3) * 1 + 1
    omega
  | ⟨1, _⟩ =>
    show win0_2.index ⟨(i 0).val * 25 + (i 1).val / 8000, hN⟩ (1 : Fin 3) * 8000 ≤ (i 1).val
      ∧ (i 1).val < win0_2.index ⟨(i 0).val * 25 + (i 1).val / 8000, hN⟩ (1 : Fin 3) * 8000 + 8000
    omega
  | ⟨2, _⟩ =>
    show win0_2.index ⟨(i 0).val * 25 + (i 1).val / 8000, hN⟩ (2 : Fin 3) * 16 ≤ (i 2).val
      ∧ (i 2).val < win0_2.index ⟨(i 0).val * 25 + (i 1).val / 8000, hN⟩ (2 : Fin 3) * 16 + 16
    omega

/-- Region 0 (1 input channel, 16 output channels): the result array after the region is the product per offset of
    the region's two input arrays as it finds them. -/
theorem region0_value (c : Dev nD) :
    ((dat0 (F := Ideal) V c).arrAt 2 cfg0.N : S27x200000x16.Idx → EReal)
      = offsetMatmul (V c main_v2 : S27x200000x1.Idx → EReal) (V c main_arg1 : S27x1x16.Idx → EReal) :=
  (dat0 (F := Ideal) V c).arrAt_eq_of_cover 2
    (offsetMatmul (V c main_v2 : S27x200000x1.Idx → EReal) (V c main_arg1 : S27x1x16.Idx → EReal))
    (fun t _ => writtenTile0_eq V c t) tiles0_cover

/-! ## Region 2: 16 input channels, 32 output channels -/

/-- One tile's arithmetic at an entry: the body drops the tile's leading unit axis from both operands, multiplies the
    `8000 × 16` rows by the `16 × 32` weight matrix into a zero accumulator (the narrowing of the operands is the
    identity on extended reals) and puts the unit axis back, so entry `(0, r, d)` is `∑ ch, x0[0, r, ch] · x1[0, ch, d]`. -/
theorem tileProduct2_apply (x0 : Vec Ideal S1x8000x16 .f32) (x1 : Vec Ideal S1x16x32 .f32) (r : Fin 8000) (d : Fin 32) :
    k2_pay1 (F := Ideal) x0 x1 (ix3 (0 : Fin 1) r d)
      = ∑ ch : Fin 16, x0 (ix3 (0 : Fin 1) r ch) * x1 (ix3 (0 : Fin 1) ch d) := by
  unfold k2_pay1
  refine (shapeCast_ab_1ab_apply _ shapeCasts_S8000x32_S1x8000x32 (0 : Fin 1) r d).trans ?_
  refine (Cert.LibDot.matmul_zero_apply dot_S8000x16_S16x32_S8000x32_1_0_0_1_n_n rfl rfl rfl rfl rfl rfl none _ _ r d).trans ?_
  refine Finset.sum_congr rfl fun ch _ => ?_
  refine congrArg₂ (· * ·) ?_ ?_
  · exact shapeCast_1ab_ab_apply x0 shapeCasts_S1x8000x16_S8000x16 r ch
  · exact shapeCast_1ab_ab_apply x1 shapeCasts_S1x16x32_S16x32 ch d

/-- The three windows' block indices at grid point `t = 25·k + b` (offset `k`, row tile `b`): the gathered
    activations and the result are at block `(k, b, 0)`, the weights at block `(k, 0, 0)`. Decided over the 675 points. -/
theorem tileIndex2 : ∀ t : Fin cfg2.N,
    win2_0.index t (0 : Fin 3) = t.val / 25 ∧ win2_0.index t (1 : Fin 3) = t.val % 25 ∧ win2_0.index t (2 : Fin 3) = 0
    ∧ win2_1.index t (0 : Fin 3) = t.val / 25 ∧ win2_1.index t (1 : Fin 3) = 0 ∧ win2_1.index t (2 : Fin 3) = 0
    ∧ win2_2.index t (0 : Fin 3) = t.val / 25 ∧ win2_2.index t (1 : Fin 3) = t.val % 25 ∧ win2_2.index t (2 : Fin 3) = 0 :=
  (by decide +kernel : ∀ t : Fin grid2.N, _)

/-- A tile of the product from its two operand tiles: if `x0` is rows `8000·b … 8000·b + 7999` of offset `k`'s
    activations `xg` and `x1` is offset `k`'s weight matrix in `w`, then the tile's entry `j` is the product per offset
    at the array entry `i = (k, 8000·b + j₁, j₂)`. -/
theorem tileProduct2_eq (x0 : Vec Ideal S1x8000x16 .f32) (x1 : Vec Ideal S1x16x32 .f32)
    (xg : S27x200000x16.Idx → EReal) (w : S27x16x32.Idx → EReal) (k : Fin 27) (b : Nat) (hb : b < 25)
    (h0 : ∀ (r : Fin 8000) (ch : Fin 16), x0 (ix3 (0 : Fin 1) r ch) = xg (ix3 k (⟨b * 8000 + r.val, by omega⟩ : Fin 200000) ch))
    (h1 : ∀ (ch : Fin 16) (d : Fin 32), x1 (ix3 (0 : Fin 1) ch d) = w (ix3 k ch d))
    (j : S1x8000x32.Idx) (i : S27x200000x32.Idx)
    (hi0 : (i 0).val = k.val) (hi1 : (i 1).val = b * 8000 + (j 1).val) (hi2 : (i 2).val = (j 2).val) :
    k2_pay1 (F := Ideal) x0 x1 j = offsetMatmul xg w i := by
  obtain ⟨u, r, d, rfl⟩ : ∃ (u : Fin 1) (r : Fin 8000) (d : Fin 32), j = ix3 u r d := ⟨j 0, j 1, j 2, eq_ix3 j⟩
  have hr : b * 8000 + r.val < 200000 := by omega
  obtain ⟨k', r', d', rfl⟩ : ∃ (k' : Fin 27) (r' : Fin 200000) (d' : Fin 32), i = ix3 k' r' d' := ⟨i 0, i 1, i 2, eq_ix3 i⟩
  obtain rfl : u = 0 := Subsingleton.elim _ _
  obtain rfl : k' = k := Fin.ext hi0
  obtain rfl : r' = ⟨b * 8000 + r.val, hr⟩ := Fin.ext hi1
  obtain rfl : d' = d := Fin.ext hi2
  rw [tileProduct2_apply]
  exact Finset.sum_congr rfl fun ch _ => by rw [h0, h1]

/-- The activations' block at point `t` is rows `8000·(t mod 25) …` of offset `t / 25` of the activations array as the
    region finds it: a block's coordinate on an axis is its block index times the block's extent plus the coordinate
    inside the block. -/
theorem inputTile2_apply (c : Dev nD) (t : Fin cfg2.N) (y : S1x8000x16.Idx) (i : S27x200000x16.Idx)
    (h0 : (i 0).val = t.val / 25) (h1 : (i 1).val = t.val % 25 * 8000 + (y 1).val) (h2 : (i 2).val = (y 2).val) :
    (iblk2 V c 0 t : Vec Ideal S1x8000x16 .f32) y = (V c main_v21 : S27x200000x16.Idx → EReal) i := by
  obtain ⟨e0, e1, e2, -⟩ := tileIndex2 t
  have hy0 : (y 0).val < 1 := (y 0).isLt
  unfold iblk2
  rw [View.read_apply]
  refine congrArg (V c main_v21 : S27x200000x16.Idx → EReal) ?_
  funext a
  apply Fin.ext
  match a with
  | ⟨0, _⟩ => show win2_0.index t (0 : Fin 3) * 1 + 1 * (y 0).val = (i 0).val; omega
  | ⟨1, _⟩ => show win2_0.index t (1 : Fin 3) * 8000 + 1 * (y 1).val = (i 1).val; omega
  | ⟨2, _⟩ => show win2_0.index t (2 : Fin 3) * 16 + 1 * (y 2).val = (i 2).val; omega

/-- The weights' block at point `t` is offset `t / 25`'s whole weight matrix. -/
theorem weightTile2_apply (c : Dev nD) (t : Fin cfg2.N) (y : S1x16x32.Idx) (i : S27x16x32.Idx)
    (h0 : (i 0).val = t.val / 25) (h1 : (i 1).val = (y 1).val) (h2 : (i 2).val = (y 2).val) :
    (iblk2 V c 1 t : Vec Ideal S1x16x32 .f32) y = (V c main_arg6 : S27x16x32.Idx → EReal) i := by
  obtain ⟨-, -, -, e0, e1, e2, -⟩ := tileIndex2 t
  have hy0 : (y 0).val < 1 := (y 0).isLt
  unfold iblk2
  rw [View.read_apply]
  refine congrArg (V c main_arg6 : S27x16x32.Idx → EReal) ?_
  funext a
  apply Fin.ext
  match a with
  | ⟨0, _⟩ => show win2_1.index t (0 : Fin 3) * 1 + 1 * (y 0).val = (i 0).val; omega
  | ⟨1, _⟩ => show win2_1.index t (1 : Fin 3) * 16 + 1 * (y 1).val = (i 1).val; omega
  | ⟨2, _⟩ => show win2_1.index t (2 : Fin 3) * 32 + 1 * (y 2).val = (i 2).val; omega

/-- What point `t` writes back to the result array is block `t` of the product per offset of the two input arrays:
    the body's one store fills the tile with the tile product of the two input blocks, and those blocks are the rows
    and the weight matrix the product's entries at the tile's place read. -/
theorem writtenTile2_eq (c : Dev nD) (t : Fin cfg2.N) :
    (dat2 (F := Ideal) V c).flushed 2 t = ((cfg2.win 2).blk t).view.read (Elt Ideal)
      (offsetMatmul (V c main_v21 : S27x200000x16.Idx → EReal) (V c main_arg6 : S27x16x32.Idx → EReal)) := by
  show (cfg2.win 2).cut (grid2.coords t) ((dat2 V c).after 2 t) = _
  rw [after2_2]
  unfold out2_2
  rw [View.canon_unit_zero zeros3]
  simp only [View.ld_unit_zero (S := S1x8000x16) zeros3, View.ld_unit_zero (S := S1x16x32) zeros3]
  obtain ⟨-, -, -, -, -, -, e0, e1, e2⟩ := tileIndex2 t
  have ht : t.val < 675 := lt_of_lt_of_eq t.isLt N_2
  funext j
  have hj0 : (j 0).val < 1 := (j 0).isLt
  show k2_pay1 (F := Ideal) (iblk2 V c 0 t : Vec Ideal S1x8000x16 .f32) (iblk2 V c 1 t : Vec Ideal S1x16x32 .f32) j
    = offsetMatmul (V c main_v21 : S27x200000x16.Idx → EReal) (V c main_arg6 : S27x16x32.Idx → EReal)
        (((cfg2.win 2).blk t).view.emb j)
  refine tileProduct2_eq (iblk2 V c 0 t : Vec Ideal S1x8000x16 .f32) (iblk2 V c 1 t : Vec Ideal S1x16x32 .f32)
    (V c main_v21 : S27x200000x16.Idx → EReal) (V c main_arg6 : S27x16x32.Idx → EReal)
    (⟨t.val / 25, by omega⟩ : Fin 27) (t.val % 25) (by omega) (fun r ch => ?_) (fun ch d => ?_) j
    (((cfg2.win 2).blk t).view.emb j) ?_ ?_ ?_
  · exact inputTile2_apply V c t _ _ rfl rfl rfl
  · exact weightTile2_apply V c t _ _ rfl rfl rfl
  · show win2_2.index t (0 : Fin 3) * 1 + 1 * (j 0).val = t.val / 25; omega
  · show win2_2.index t (1 : Fin 3) * 8000 + 1 * (j 1).val = t.val % 25 * 8000 + (j 1).val; omega
  · show win2_2.index t (2 : Fin 3) * 32 + 1 * (j 2).val = (j 2).val; omega

/-- An entry of the result array is in point `t`'s block iff each coordinate is in the block's range on its axis. -/
theorem mem_tile2 (t : Fin cfg2.N) (i : S27x200000x32.Idx) :
    i ∈ ((cfg2.win 2).blk t).view.set ↔ ∀ a : Fin 3, win2_2.index t a * S1x8000x32.size a ≤ (i a).val
      ∧ (i a).val < win2_2.index t a * S1x8000x32.size a + S1x8000x32.size a := by
  show i ∈ ((View.whole main_v22).slice (win2_2.rect t)).set ↔ _
  rw [View.set_slice_whole, Rect.mem_set_unit]
  exact Iff.rfl

/-- The tiles cover the result array: entry `(k, r, d)` is in the block of the point with offset `k` and row tile
    `r / 8000`, point number `25·k + r / 8000`. -/
theorem tiles2_cover (i : S27x200000x32.Idx) :
    ∃ t : Fin cfg2.N, (cfg2.win 2).flush t = true ∧ i ∈ ((cfg2.win 2).blk t).view.set := by
  have h0 : (i 0).val < 27 := (i 0).isLt
  have h1 : (i 1).val < 200000 := (i 1).isLt
  have h2 : (i 2).val < 32 := (i 2).isLt
  have hN : (i 0).val * 25 + (i 1).val / 8000 < cfg2.N := by rw [show cfg2.N = 675 from N_2]; omega
  refine ⟨⟨(i 0).val * 25 + (i 1).val / 8000, hN⟩, flush2_2 _, ?_⟩
  obtain ⟨-, -, -, -, -, -, e0, e1, e2⟩ := tileIndex2 ⟨(i 0).val * 25 + (i 1).val / 8000, hN⟩
  have e0' : win2_2.index ⟨(i 0).val * 25 + (i 1).val / 8000, hN⟩ (0 : Fin 3) = ((i 0).val * 25 + (i 1).val / 8000) / 25 := e0
  have e1' : win2_2.index ⟨(i 0).val * 25 + (i 1).val / 8000, hN⟩ (1 : Fin 3) = ((i 0).val * 25 + (i 1).val / 8000) % 25 := e1
  rw [mem_tile2]
  intro a
  match a with
  | ⟨0, _⟩ =>
    show win2_2.index ⟨(i 0).val * 25 + (i 1).val / 8000, hN⟩ (0 : Fin 3) * 1 ≤ (i 0).val
      ∧ (i 0).val < win2_2.index ⟨(i 0).val * 25 + (i 1).val / 8000, hN⟩ (0 : Fin 3) * 1 + 1
    omega
  | ⟨1, _⟩ =>
    show win2_2.index ⟨(i 0).val * 25 + (i 1).val / 8000, hN⟩ (1 : Fin 3) * 8000 ≤ (i 1).val
      ∧ (i 1).val < win2_2.index ⟨(i 0).val * 25 + (i 1).val / 8000, hN⟩ (1 : Fin 3) * 8000 + 8000
    omega
  | ⟨2, _⟩ =>
    show win2_2.index ⟨(i 0).val * 25 + (i 1).val / 8000, hN⟩ (2 : Fin 3) * 32 ≤ (i 2).val
      ∧ (i 2).val < win2_2.index ⟨(i 0).val * 25 + (i 1).val / 8000, hN⟩ (2 : Fin 3) * 32 + 32
    omega

/-- Region 2 (16 input channels, 32 output channels): the same. -/
theorem region2_value (c : Dev nD) :
    ((dat2 (F := Ideal) V c).arrAt 2 cfg2.N : S27x200000x32.Idx → EReal)
      = offsetMatmul (V c main_v21 : S27x200000x16.Idx → EReal) (V c main_arg6 : S27x16x32.Idx → EReal) :=
  (dat2 (F := Ideal) V c).arrAt_eq_of_cover 2
    (offsetMatmul (V c main_v21 : S27x200000x16.Idx → EReal) (V c main_arg6 : S27x16x32.Idx → EReal))
    (fun t _ => writtenTile2_eq V c t) tiles2_cover

end Cert.SparseConv.Kernel

end
-- ==== Proof.KRegionBnElu.lean ====
/-
  The two normalisation regions of the kernel's program, each read as one whole-array function.

  A region's grid is 80 row tiles of 5000 rows; the point t normalises rows 5000·t … 5000·t + 4999 of the
  activations with the channel parameters (rows of shape 1 × C, the same block at every point), applies ELU and writes
  that tile of the result. The tiles cover the result array, so after the region entry (n, c) of the result is
  ELU((h[n, c] − μ[c]) · (γ[c] · rsqrt(σ²[c] + ε)) + β[c]), whatever the arrays held when the region was entered.
-/
import proofs.«426714_j42949672960764_1_alg».proof.Proof.Gen.KernelIdeal.Frame
import proofs.«426714_j42949672960764_1_alg».proof.Proof.Spec
import Idealize.ShloMosaic.Lib.Pipeline.Value

set_option maxRecDepth 16384

noncomputable section

open scoped BigOperators

namespace Cert.SparseConv.Kernel

open Idealize.ShloMosaic Idealize.ShloMosaic.TcCoe Idealize.ShloMosaic.ValueIdx Idealize.SL.Sem
open Cert.KernelIdeal Cert.KernelIdeal.Gen Cert.SparseConv
variable (V : (c : Dev nD) → (b : Ref sig .tc) → Buf (Elt Ideal) ((c : Thread nD τ).loc b))

/-! ## Entry-wise facts shared by the two regions -/

/-- The f32 word of the literal one denotes the extended real 1. -/
theorem ofBits_one : Ideal.ofBits .f32 0x3F800000#32 = 1 := by
  simp [Ideal.ofBits, Ideal.ieee, -EReal.coe_mul]; norm_num

/-- The exponential of a vector, read at an index, is the exponential of the entry there. -/
theorem exp_at {s : Shape} {φ : FTy} (a : FVec Ideal s φ) (i : s.Idx) : exp a i = Ideal.exp (a i) := rfl

/-- The reciprocal square root of a vector, read at an index, is that of the entry there. -/
theorem rsqrt_at {s : Shape} {φ : FTy} (a : FVec Ideal s φ) (i : s.Idx) : rsqrt a i = Ideal.rsqrt (a i) := rfl

/-- The offsets (0, 0) of a whole-tile access are the zero offsets. -/
theorem zeroOffsets : (![0, 0] : Fin 2 → Nat) = fun _ => 0 := funext fun a => by fin_cases a <;> rfl

/-! ## Region 1: 16 channels -/

/-- A parameter row of shape 1 × 16 spread over the 5000 rows of a tile reads, at (r, ch), the row's entry of
    channel ch. -/
theorem rowBroadcast16_apply (x : S1x16.Idx → EReal) (r : Fin 5000) (ch : Fin 16) :
    broadcastTo S5000x16 x broadcasts_S1x16_S5000x16 (ix2 r ch) = x (ix2 (0 : Fin 1) ch) :=
  broadcastTo_apply x broadcasts_S1x16_S5000x16 (ix2 r ch) (ix2 (0 : Fin 1) ch) (fun a => by
    match a with
    | ⟨0, _⟩ => rfl
    | ⟨1, _⟩ => rfl)

/-- The body's arithmetic at entry (r, ch) of a tile: every operation is entry-wise, the parameter rows are read at
    channel ch, so the entry is ELU of the normalisation of the tile's entry by that channel's γ, β, μ, σ². -/
theorem bnElu16_payload_apply (g b mu v : Vec Ideal S1x16 .f32) (h : Vec Ideal S5000x16 .f32) (r : Fin 5000) (ch : Fin 16) :
    k1_pay1 (F := Ideal) g b mu v h (ix2 r ch)
      = elu (bnAt (h (ix2 r ch)) (g (ix2 (0 : Fin 1) ch)) (b (ix2 (0 : Fin 1) ch)) (mu (ix2 (0 : Fin 1) ch))
          (v (ix2 (0 : Fin 1) ch))) := by
  unfold k1_pay1 elu bnAt
  simp only [shapeCast_self]
  simp only [select_apply, cmpf_apply, addf_apply, mulf_apply, subf_apply, broadcast_apply, exp_at, rsqrt_at,
    rowBroadcast16_apply, Ideal.ofBits_def, ofBits_one]

/-- The windows' block indices at grid point t: the activations' and the result's tile is (t, 0), each parameter
    row's block is (0, 0). Decided over the 80 points. -/
theorem tileIndex1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The activations' tile at point t, entry x, is the array's entry (5000·t + x₀, x₁). -/
theorem activationTile1 (c : Dev nD) (t : Fin cfg1.N) (x : S5000x16.Idx) (k : S400000x16.Idx)
    (hk0 : (k 0).val = 5000 * t.val + (x 0).val) (hk1 : (k 1).val = (x 1).val) :
    (iblk1 (F := Ideal) V c 0 t : Vec Ideal S5000x16 .f32) x = (V c main_v13 : S400000x16.Idx → EReal) k := by
  obtain ⟨e0, e1, -⟩ := tileIndex1 t
  unfold iblk1
  rw [View.read_apply]
  show V c main_v13 _ = V c main_v13 _
  congr 1
  funext a
  apply Fin.ext
  match a with
  | ⟨0, _⟩ => show win1_0.index t 0 * 5000 + 1 * (x 0).val = (k 0).val; rw [e0, hk0]; omega
  | ⟨1, _⟩ => show win1_0.index t 1 * 16 + 1 * (x 1).val = (k 1).val; rw [e1, hk1]; omega

/-- The γ row's block at every point is the whole row. -/
theorem gammaRow1 (c : Dev nD) (t : Fin cfg1.N) :
    (iblk1 (F := Ideal) V c 1 t : Vec Ideal S1x16 .f32) = (V c main_v14 : S1x16.Idx → EReal) := by
  obtain ⟨-, -, e0, e1, -⟩ := tileIndex1 t
  funext x
  unfold iblk1
  rw [View.read_apply]
  show V c main_v14 _ = V c main_v14 _
  congr 1
  funext a
  apply Fin.ext
  match a with
  | ⟨0, _⟩ => show win1_1.index t 0 * 1 + 1 * (x 0).val = (x 0).val; rw [e0]; omega
  | ⟨1, _⟩ => show win1_1.index t 1 * 16 + 1 * (x 1).val = (x 1).val; rw [e1]; omega

/-- The β row's block at every point is the whole row. -/
theorem betaRow1 (c : Dev nD) (t : Fin cfg1.N) :
    (iblk1 (F := Ideal) V c 2 t : Vec Ideal S1x16 .f32) = (V c main_v15 : S1x16.Idx → EReal) := by
  obtain ⟨-, -, -, -, e0, e1, -⟩ := tileIndex1 t
  funext x
  unfold iblk1
  rw [View.read_apply]
  show V c main_v15 _ = V c main_v15 _
  congr 1
  funext a
  apply Fin.ext
  match a with
  | ⟨0, _⟩ => show win1_2.index t 0 * 1 + 1 * (x 0).val = (x 0).val; rw [e0]; omega
  | ⟨1, _⟩ => show win1_2.index t 1 * 16 + 1 * (x 1).val = (x 1).val; rw [e1]; omega

/-- The μ row's block at every point is the whole row. -/
theorem meanRow1 (c : Dev nD) (t : Fin cfg1.N) :
    (iblk1 (F := Ideal) V c 3 t : Vec Ideal S1x16 .f32) = (V c main_v16 : S1x16.Idx → EReal) := by
  obtain ⟨-, -, -, -, -, -, e0, e1, -⟩ := tileIndex1 t
  funext x
  unfold iblk1
  rw [View.read_apply]
  show V c main_v16 _ = V c main_v16 _
  congr 1
  funext a
  apply Fin.ext
  match a with
  | ⟨0, _⟩ => show win1_3.index t 0 * 1 + 1 * (x 0).val = (x 0).val; rw [e0]; omega
  | ⟨1, _⟩ => show win1_3.index t 1 * 16 + 1 * (x 1).val = (x 1).val; rw [e1]; omega

/-- The σ² row's block at every point is the whole row. -/
theorem varRow1 (c : Dev nD) (t : Fin cfg1.N) :
    (iblk1 (F := Ideal) V c 4 t : Vec Ideal S1x16 .f32) = (V c main_v17 : S1x16.Idx → EReal) := by
  obtain ⟨-, -, -, -, -, -, -, -, e0, e1, -⟩ := tileIndex1 t
  funext x
  unfold iblk1
  rw [View.read_apply]
  show V c main_v17 _ = V c main_v17 _
  congr 1
  funext a
  apply Fin.ext
  match a with
  | ⟨0, _⟩ => show win1_4.index t 0 * 1 + 1 * (x 0).val = (x 0).val; rw [e0]; omega
  | ⟨1, _⟩ => show win1_4.index t 1 * 16 + 1 * (x 1).val = (x 1).val; rw [e1]; omega

/-- What point t writes back is tile t of the normalised array: entry (r, ch) of the body's result is ELU of the
    normalisation of the activations' entry (5000·t + r, ch), which is where the result's tile puts it. -/
theorem tile1_writes (c : Dev nD) (t : Fin cfg1.N) :
    (dat1 (F := Ideal) V c).flushed 5 t = ((cfg1.win 5).blk t).view.read (Elt Ideal)
      (bnEluRow (V c main_v13 : S400000x16.Idx → EReal) (V c main_v14 : S1x16.Idx → EReal)
        (V c main_v15 : S1x16.Idx → EReal) (V c main_v16 : S1x16.Idx → EReal) (V c main_v17 : S1x16.Idx → EReal)) := by
  show (cfg1.win 5).cut (grid1.coords t) ((dat1 V c).after 5 t) = _
  rw [after1_5]
  unfold out1_5
  rw [View.canon_unit_zero zeroOffsets]
  simp only [View.ld_unit_zero (S := S5000x16) zeroOffsets, View.ld_unit_zero (S := S1x16) zeroOffsets]
  rw [gammaRow1, betaRow1, meanRow1, varRow1]
  funext j
  obtain ⟨r, ch, rfl⟩ : ∃ (r : Fin 5000) (ch : Fin 16), j = ix2 r ch := ⟨j 0, j 1, eq_ix2 j⟩
  show k1_pay1 (F := Ideal) (V c main_v14 : S1x16.Idx → EReal) (V c main_v15 : S1x16.Idx → EReal)
      (V c main_v16 : S1x16.Idx → EReal) (V c main_v17 : S1x16.Idx → EReal)
      (iblk1 V c 0 t : Vec Ideal S5000x16 .f32) (ix2 r ch)
    = bnEluRow (V c main_v13 : S400000x16.Idx → EReal) (V c main_v14 : S1x16.Idx → EReal)
        (V c main_v15 : S1x16.Idx → EReal) (V c main_v16 : S1x16.Idx → EReal) (V c main_v17 : S1x16.Idx → EReal)
        (((cfg1.win 5).blk t).view.emb (ix2 r ch))
  refine (bnElu16_payload_apply _ _ _ _ _ r ch).trans ?_
  obtain ⟨-, -, -, -, -, -, -, -, -, -, e0, e1⟩ := tileIndex1 t
  have h1 : ((((cfg1.win 5).blk t).view.emb (ix2 r ch) : S400000x16.Idx) 1) = ch := by
    apply Fin.ext
    show win1_5.index t 1 * 16 + 1 * ch.val = ch.val
    rw [e1]; omega
  have h0 : (iblk1 (F := Ideal) V c 0 t : Vec Ideal S5000x16 .f32) (ix2 r ch)
      = (V c main_v13 : S400000x16.Idx → EReal) (((cfg1.win 5).blk t).view.emb (ix2 r ch)) :=
    activationTile1 V c t (ix2 r ch) _
      (by show win1_5.index t 0 * 5000 + 1 * r.val = 5000 * t.val + r.val; rw [e0]; omega)
      (by show win1_5.index t 1 * 16 + 1 * ch.val = ch.val; rw [e1]; omega)
  unfold bnEluRow
  rw [h0, h1]

/-- An entry of the result array is in point t's tile iff each coordinate is in the tile's range on its axis. -/
theorem mem_tile1 (t : Fin cfg1.N) (i : S400000x16.Idx) :
    i ∈ ((cfg1.win 5).blk t).view.set ↔ ∀ a : Fin 2, win1_5.index t a * S5000x16.size a ≤ (i a).val
      ∧ (i a).val < win1_5.index t a * S5000x16.size a + S5000x16.size a := by
  show i ∈ ((View.whole main_v18).slice (win1_5.rect t)).set ↔ _
  rw [View.set_slice_whole, Rect.mem_set_unit]
  exact Iff.rfl

/-- The 80 tiles cover the result array: row n lies in the tile of point n / 5000, and every point writes back. -/
theorem tiles1_cover (i : S400000x16.Idx) :
    ∃ t : Fin cfg1.N, (cfg1.win 5).flush t = true ∧ i ∈ ((cfg1.win 5).blk t).view.set := by
  have hi0 : (i 0).val < 400000 := (i 0).isLt
  have hi1 : (i 1).val < 16 := (i 1).isLt
  have hq : (i 0).val / 5000 < 80 := by omega
  obtain ⟨-, -, -, -, -, -, -, -, -, -, e0, e1⟩ := tileIndex1 ⟨(i 0).val / 5000, hq⟩
  refine ⟨⟨(i 0).val / 5000, hq⟩, flush1_5 _, ?_⟩
  rw [mem_tile1]
  intro a
  match a with
  | ⟨0, _⟩ =>
    show win1_5.index ⟨(i 0).val / 5000, hq⟩ (0 : Fin 2) * 5000 ≤ (i 0).val
      ∧ (i 0).val < win1_5.index ⟨(i 0).val / 5000, hq⟩ (0 : Fin 2) * 5000 + 5000
    rw [e0]; show (i 0).val / 5000 * 5000 ≤ (i 0).val ∧ (i 0).val < (i 0).val / 5000 * 5000 + 5000; omega
  | ⟨1, _⟩ =>
    show win1_5.index ⟨(i 0).val / 5000, hq⟩ (1 : Fin 2) * 16 ≤ (i 1).val
      ∧ (i 1).val < win1_5.index ⟨(i 0).val / 5000, hq⟩ (1 : Fin 2) * 16 + 16
    rw [e1]; omega

/-- Region 1 (16 channels): the result array after the region is the normalisation and ELU of the region's first
    input array by its four parameter rows (γ, β, μ, σ² in the order of the windows), as it finds them. -/
theorem region1_value (c : Dev nD) :
    ((dat1 (F := Ideal) V c).arrAt 5 cfg1.N : S400000x16.Idx → EReal)
      = bnEluRow (V c main_v13 : S400000x16.Idx → EReal) (V c main_v14 : S1x16.Idx → EReal)
          (V c main_v15 : S1x16.Idx → EReal) (V c main_v16 : S1x16.Idx → EReal) (V c main_v17 : S1x16.Idx → EReal) :=
  (dat1 (F := Ideal) V c).arrAt_eq_of_cover 5 _ (fun t _ => tile1_writes V c t) tiles1_cover

/-! ## Region 3: 32 channels -/

/-- A parameter row of shape 1 × 32 spread over the 5000 rows of a tile reads, at (r, ch), the row's entry of
    channel ch. -/
theorem rowBroadcast32_apply (x : S1x32.Idx → EReal) (r : Fin 5000) (ch : Fin 32) :
    broadcastTo S5000x32 x broadcasts_S1x32_S5000x32 (ix2 r ch) = x (ix2 (0 : Fin 1) ch) :=
  broadcastTo_apply x broadcasts_S1x32_S5000x32 (ix2 r ch) (ix2 (0 : Fin 1) ch) (fun a => by
    match a with
    | ⟨0, _⟩ => rfl
    | ⟨1, _⟩ => rfl)

/-- The body's arithmetic at entry (r, ch) of a tile: every operation is entry-wise, the parameter rows are read at
    channel ch, so the entry is ELU of the normalisation of the tile's entry by that channel's γ, β, μ, σ². -/
theorem bnElu32_payload_apply (g b mu v : Vec Ideal S1x32 .f32) (h : Vec Ideal S5000x32 .f32) (r : Fin 5000) (ch : Fin 32) :
    k3_pay1 (F := Ideal) g b mu v h (ix2 r ch)
      = elu (bnAt (h (ix2 r ch)) (g (ix2 (0 : Fin 1) ch)) (b (ix2 (0 : Fin 1) ch)) (mu (ix2 (0 : Fin 1) ch))
          (v (ix2 (0 : Fin 1) ch))) := by
  unfold k3_pay1 elu bnAt
  simp only [shapeCast_self]
  simp only [select_apply, cmpf_apply, addf_apply, mulf_apply, subf_apply, broadcast_apply, exp_at, rsqrt_at,
    rowBroadcast32_apply, Ideal.ofBits_def, ofBits_one]

/-- The windows' block indices at grid point t: the activations' and the result's tile is (t, 0), each parameter
    row's block is (0, 0). Decided over the 80 points. -/
theorem tileIndex3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- The activations' tile at point t, entry x, is the array's entry (5000·t + x₀, x₁). -/
theorem activationTile3 (c : Dev nD) (t : Fin cfg3.N) (x : S5000x32.Idx) (k : S400000x32.Idx)
    (hk0 : (k 0).val = 5000 * t.val + (x 0).val) (hk1 : (k 1).val = (x 1).val) :
    (iblk3 (F := Ideal) V c 0 t : Vec Ideal S5000x32 .f32) x = (V c main_v32 : S400000x32.Idx → EReal) k := by
  obtain ⟨e0, e1, -⟩ := tileIndex3 t
  unfold iblk3
  rw [View.read_apply]
  show V c main_v32 _ = V c main_v32 _
  congr 1
  funext a
  apply Fin.ext
  match a with
  | ⟨0, _⟩ => show win3_0.index t 0 * 5000 + 1 * (x 0).val = (k 0).val; rw [e0, hk0]; omega
  | ⟨1, _⟩ => show win3_0.index t 1 * 32 + 1 * (x 1).val = (k 1).val; rw [e1, hk1]; omega

/-- The γ row's block at every point is the whole row. -/
theorem gammaRow3 (c : Dev nD) (t : Fin cfg3.N) :
    (iblk3 (F := Ideal) V c 1 t : Vec Ideal S1x32 .f32) = (V c main_v33 : S1x32.Idx → EReal) := by
  obtain ⟨-, -, e0, e1, -⟩ := tileIndex3 t
  funext x
  unfold iblk3
  rw [View.read_apply]
  show V c main_v33 _ = V c main_v33 _
  congr 1
  funext a
  apply Fin.ext
  match a with
  | ⟨0, _⟩ => show win3_1.index t 0 * 1 + 1 * (x 0).val = (x 0).val; rw [e0]; omega
  | ⟨1, _⟩ => show win3_1.index t 1 * 32 + 1 * (x 1).val = (x 1).val; rw [e1]; omega

/-- The β row's block at every point is the whole row. -/
theorem betaRow3 (c : Dev nD) (t : Fin cfg3.N) :
    (iblk3 (F := Ideal) V c 2 t : Vec Ideal S1x32 .f32) = (V c main_v34 : S1x32.Idx → EReal) := by
  obtain ⟨-, -, -, -, e0, e1, -⟩ := tileIndex3 t
  funext x
  unfold iblk3
  rw [View.read_apply]
  show V c main_v34 _ = V c main_v34 _
  congr 1
  funext a
  apply Fin.ext
  match a with
  | ⟨0, _⟩ => show win3_2.index t 0 * 1 + 1 * (x 0).val = (x 0).val; rw [e0]; omega
  | ⟨1, _⟩ => show win3_2.index t 1 * 32 + 1 * (x 1).val = (x 1).val; rw [e1]; omega

/-- The μ row's block at every point is the whole row. -/
theorem meanRow3 (c : Dev nD) (t : Fin cfg3.N) :
    (iblk3 (F := Ideal) V c 3 t : Vec Ideal S1x32 .f32) = (V c main_v35 : S1x32.Idx → EReal) := by
  obtain ⟨-, -, -, -, -, -, e0, e1, -⟩ := tileIndex3 t
  funext x
  unfold iblk3
  rw [View.read_apply]
  show V c main_v35 _ = V c main_v35 _
  congr 1
  funext a
  apply Fin.ext
  match a with
  | ⟨0, _⟩ => show win3_3.index t 0 * 1 + 1 * (x 0).val = (x 0).val; rw [e0]; omega
  | ⟨1, _⟩ => show win3_3.index t 1 * 32 + 1 * (x 1).val = (x 1).val; rw [e1]; omega

/-- The σ² row's block at every point is the whole row. -/
theorem varRow3 (c : Dev nD) (t : Fin cfg3.N) :
    (iblk3 (F := Ideal) V c 4 t : Vec Ideal S1x32 .f32) = (V c main_v36 : S1x32.Idx → EReal) := by
  obtain ⟨-, -, -, -, -, -, -, -, e0, e1, -⟩ := tileIndex3 t
  funext x
  unfold iblk3
  rw [View.read_apply]
  show V c main_v36 _ = V c main_v36 _
  congr 1
  funext a
  apply Fin.ext
  match a with
  | ⟨0, _⟩ => show win3_4.index t 0 * 1 + 1 * (x 0).val = (x 0).val; rw [e0]; omega
  | ⟨1, _⟩ => show win3_4.index t 1 * 32 + 1 * (x 1).val = (x 1).val; rw [e1]; omega

/-- What point t writes back is tile t of the normalised array: entry (r, ch) of the body's result is ELU of the
    normalisation of the activations' entry (5000·t + r, ch), which is where the result's tile puts it. -/
theorem tile3_writes (c : Dev nD) (t : Fin cfg3.N) :
    (dat3 (F := Ideal) V c).flushed 5 t = ((cfg3.win 5).blk t).view.read (Elt Ideal)
      (bnEluRow (V c main_v32 : S400000x32.Idx → EReal) (V c main_v33 : S1x32.Idx → EReal)
        (V c main_v34 : S1x32.Idx → EReal) (V c main_v35 : S1x32.Idx → EReal) (V c main_v36 : S1x32.Idx → EReal)) := by
  show (cfg3.win 5).cut (grid3.coords t) ((dat3 V c).after 5 t) = _
  rw [after3_5]
  unfold out3_5
  rw [View.canon_unit_zero zeroOffsets]
  simp only [View.ld_unit_zero (S := S5000x32) zeroOffsets, View.ld_unit_zero (S := S1x32) zeroOffsets]
  rw [gammaRow3, betaRow3, meanRow3, varRow3]
  funext j
  obtain ⟨r, ch, rfl⟩ : ∃ (r : Fin 5000) (ch : Fin 32), j = ix2 r ch := ⟨j 0, j 1, eq_ix2 j⟩
  show k3_pay1 (F := Ideal) (V c main_v33 : S1x32.Idx → EReal) (V c main_v34 : S1x32.Idx → EReal)
      (V c main_v35 : S1x32.Idx → EReal) (V c main_v36 : S1x32.Idx → EReal)
      (iblk3 V c 0 t : Vec Ideal S5000x32 .f32) (ix2 r ch)
    = bnEluRow (V c main_v32 : S400000x32.Idx → EReal) (V c main_v33 : S1x32.Idx → EReal)
        (V c main_v34 : S1x32.Idx → EReal) (V c main_v35 : S1x32.Idx → EReal) (V c main_v36 : S1x32.Idx → EReal)
        (((cfg3.win 5).blk t).view.emb (ix2 r ch))
  refine (bnElu32_payload_apply _ _ _ _ _ r ch).trans ?_
  obtain ⟨-, -, -, -, -, -, -, -, -, -, e0, e1⟩ := tileIndex3 t
  have h1 : ((((cfg3.win 5).blk t).view.emb (ix2 r ch) : S400000x32.Idx) 1) = ch := by
    apply Fin.ext
    show win3_5.index t 1 * 32 + 1 * ch.val = ch.val
    rw [e1]; omega
  have h0 : (iblk3 (F := Ideal) V c 0 t : Vec Ideal S5000x32 .f32) (ix2 r ch)
      = (V c main_v32 : S400000x32.Idx → EReal) (((cfg3.win 5).blk t).view.emb (ix2 r ch)) :=
    activationTile3 V c t (ix2 r ch) _
      (by show win3_5.index t 0 * 5000 + 1 * r.val = 5000 * t.val + r.val; rw [e0]; omega)
      (by show win3_5.index t 1 * 32 + 1 * ch.val = ch.val; rw [e1]; omega)
  unfold bnEluRow
  rw [h0, h1]

/-- An entry of the result array is in point t's tile iff each coordinate is in the tile's range on its axis. -/
theorem mem_tile3 (t : Fin cfg3.N) (i : S400000x32.Idx) :
    i ∈ ((cfg3.win 5).blk t).view.set ↔ ∀ a : Fin 2, win3_5.index t a * S5000x32.size a ≤ (i a).val
      ∧ (i a).val < win3_5.index t a * S5000x32.size a + S5000x32.size a := by
  show i ∈ ((View.whole main_v37).slice (win3_5.rect t)).set ↔ _
  rw [View.set_slice_whole, Rect.mem_set_unit]
  exact Iff.rfl

/-- The 80 tiles cover the result array: row n lies in the tile of point n / 5000, and every point writes back. -/
theorem tiles3_cover (i : S400000x32.Idx) :
    ∃ t : Fin cfg3.N, (cfg3.win 5).flush t = true ∧ i ∈ ((cfg3.win 5).blk t).view.set := by
  have hi0 : (i 0).val < 400000 := (i 0).isLt
  have hi1 : (i 1).val < 32 := (i 1).isLt
  have hq : (i 0).val / 5000 < 80 := by omega
  obtain ⟨-, -, -, -, -, -, -, -, -, -, e0, e1⟩ := tileIndex3 ⟨(i 0).val / 5000, hq⟩
  refine ⟨⟨(i 0).val / 5000, hq⟩, flush3_5 _, ?_⟩
  rw [mem_tile3]
  intro a
  match a with
  | ⟨0, _⟩ =>
    show win3_5.index ⟨(i 0).val / 5000, hq⟩ (0 : Fin 2) * 5000 ≤ (i 0).val
      ∧ (i 0).val < win3_5.index ⟨(i 0).val / 5000, hq⟩ (0 : Fin 2) * 5000 + 5000
    rw [e0]; show (i 0).val / 5000 * 5000 ≤ (i 0).val ∧ (i 0).val < (i 0).val / 5000 * 5000 + 5000; omega
  | ⟨1, _⟩ =>
    show win3_5.index ⟨(i 0).val / 5000, hq⟩ (1 : Fin 2) * 32 ≤ (i 1).val
      ∧ (i 1).val < win3_5.index ⟨(i 0).val / 5000, hq⟩ (1 : Fin 2) * 32 + 32
    rw [e1]; omega

/-- Region 3 (32 channels): the same. -/
theorem region3_value (c : Dev nD) :
    ((dat3 (F := Ideal) V c).arrAt 5 cfg3.N : S400000x32.Idx → EReal)
      = bnEluRow (V c main_v32 : S400000x32.Idx → EReal) (V c main_v33 : S1x32.Idx → EReal)
          (V c main_v34 : S1x32.Idx → EReal) (V c main_v35 : S1x32.Idx → EReal) (V c main_v36 : S1x32.Idx → EReal) :=
  (dat3 (F := Ideal) V c).arrAt_eq_of_cover 5 _ (fun t _ => tile3_writes V c t) tiles3_cover

end Cert.SparseConv.Kernel

end
-- ==== Proof.IndexWords.lean ====
/-
  The words of a valid row number. For a 32-bit word `w` with `-400000 ≤ w < 400000` read signed, the wrapped word
  (`w + 400000` when `w` is negative, else `w`) lies in `[0, 399999]`: both range tests a bounds-checked gather makes
  on it answer true.
-/
import proofs.«426714_j42949672960764_1_alg».proof.Proof.Spec

noncomputable section

namespace Cert.SparseConv

open Idealize.ShloMosaic

/-- The wrapped word read signed: `w + 400000` for a negative `w`, else `w`; the sum stays far inside the signed
    32-bit range, so it does not wrap. -/
theorem wrapWord_toInt (w : BitVec 32) (hlo : -400000 ≤ w.toInt) (hhi : w.toInt < 400000) :
    (wrapWord w).toInt = if w.toInt < 0 then w.toInt + 400000 else w.toInt := by
  have h0 : (0#32 : BitVec 32).toInt = 0 := by decide
  have h4 : (400000#32 : BitVec 32).toInt = 400000 := by decide
  unfold wrapWord Scalar.select IntOp.cmpi IntOp.addi
  by_cases h : w.toInt < 0
  · have hs : w.slt 0#32 = true := by
      unfold BitVec.slt
      rw [h0]
      exact decide_eq_true h
    simp only [hs, h, if_true, BitVec.ofBool_true]
    rw [BitVec.toInt_add, h4]
    exact Int.bmod_eq_of_le (by omega) (by omega)
  · have hs : w.slt 0#32 = false := by
      unfold BitVec.slt
      rw [h0]
      exact decide_eq_false h
    simp only [hs, h, if_false, BitVec.ofBool_false]
    rw [if_neg (by decide)]

/-- The wrapped word of a valid row number is a row number in `[0, 399999]`. -/
theorem wrapWord_range (w : BitVec 32) (hlo : -400000 ≤ w.toInt) (hhi : w.toInt < 400000) :
    0 ≤ (wrapWord w).toInt ∧ (wrapWord w).toInt ≤ 399999 := by
  rw [wrapWord_toInt w hlo hhi]
  split <;> omega

/-- The lower range test, `wrapped ≥ 0` signed, answers true. -/
theorem wrapWord_sge (w : BitVec 32) (hlo : -400000 ≤ w.toInt) (hhi : w.toInt < 400000) :
    IntOp.cmpi .sge (wrapWord w) 0#32 = 1#1 := by
  have h0 : (0#32 : BitVec 32).toInt = 0 := by decide
  have hr := (wrapWord_range w hlo hhi).1
  have hs : (0#32 : BitVec 32).sle (wrapWord w) = true := by
    unfold BitVec.sle
    rw [h0]
    exact decide_eq_true hr
  unfold IntOp.cmpi
  simp only [hs, BitVec.ofBool_true]
  rfl

/-- The upper range test, `wrapped ≤ 399999` signed, answers true. -/
theorem wrapWord_sle (w : BitVec 32) (hlo : -400000 ≤ w.toInt) (hhi : w.toInt < 400000) :
    IntOp.cmpi .sle (wrapWord w) 399999#32 = 1#1 := by
  have h9 : (399999#32 : BitVec 32).toInt = 399999 := by decide
  have hr := (wrapWord_range w hlo hhi).2
  have hs : (wrapWord w).sle 399999#32 = true := by
    unfold BitVec.sle
    rw [h9]
    exact decide_eq_true hr
  unfold IntOp.cmpi
  simp only [hs, BitVec.ofBool_true]
  rfl

/-- On a valid row number the clamp does nothing: the row named is the wrapped word itself. -/
theorem rowOf_wrapWord_val (w : BitVec 32) (hlo : -400000 ≤ w.toInt) (hhi : w.toInt < 400000) :
    (rowOf (wrapWord w)).val = (wrapWord w).toInt.toNat := by
  have hr := wrapWord_range w hlo hhi
  unfold rowOf
  simp only
  omega

end Cert.SparseConv

end
-- ==== Proof.LibIndex.lean ====
/-
  Three host operations read at an index, and two facts of extended-real arithmetic.

  A gather of whole rows of a matrix (one start index per result row), a scatter that adds whole rows of an update
  matrix into the rows of an operand, and its rank-1 form that adds scalars into a vector: each is read at one
  element. The scatters are read at the ideal instance, where a float is an extended real and the accumulation is
  the exact sum over the updates that land on the element.
-/
import Idealize.ShloMosaic.PureOps.Ideal
import Idealize.ShloMosaic.Lib.ValueIdx
import Mathlib.Data.EReal.Operations
import Mathlib.Algebra.BigOperators.Group.Finset.Basic
import Mathlib.Algebra.BigOperators.Group.Finset.Piecewise

noncomputable section

open scoped BigOperators

namespace Cert.LibIndex

open Idealize.ShloMosaic Idealize.ShloMosaic.ValueIdx

/-! ## A gather of rows -/

section RowGather
variable {α : Type}

/-- The dimension numbers of a gather of whole rows: operand `[N, C]`, start indices `[R, 1]` (one row number
    per result row), result `[R, C]`; axis 0 of the operand is collapsed and indexed, axis 1 is the offset axis,
    the slice is one whole row. The conditions `wf` are decided on a program's literal shapes. -/
abbrev rowGatherDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(k, c)`: column `c` of the operand's row whose number is the start index
    `idx[k, 0]`, read signed and clamped into `[0, N − 1]`. -/
theorem gather_row_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (k : Fin R) (c : Fin C) :
    Host.gather (rowGatherDims N C R wf) x idx (ix2 k c)
      = x (ix2 ⟨min (idx (ix2 k (0 : Fin 1))).toInt.toNat (N - 1), by omega⟩ c) := by
  -- the start on axis 0: the clamped start index; on axis 1 (not in the start index map): zero
  have hst0 : (rowGatherDims N C R wf).start (ix2 k c) idx (0 : Fin 2)
      = min (idx (ix2 k (0 : Fin 1))).toInt.toNat (N - 1) := by
    unfold GatherDims.start
    rw [dif_pos (show (0 : Fin 2) ∈ (rowGatherDims N C R wf).startIndexMap from List.mem_singleton.mpr rfl)]
    have hsi : (rowGatherDims N C R wf).siIdx (ix2 k c) ⟨List.idxOf (0 : Fin 2) (rowGatherDims N C R wf).startIndexMap,
        List.idxOf_lt_length_iff.2 (List.mem_singleton.mpr rfl)⟩ = ix2 k (0 : Fin 1) := by
      funext b; refine Fin.ext ?_
      match b with
      | ⟨0, _⟩ => rfl
      | ⟨1, _⟩ => rfl
    rw [hsi]
    rfl
  have hst1 : (rowGatherDims N C R wf).start (ix2 k c) idx (1 : Fin 2) = 0 := by
    unfold GatherDims.start
    exact dif_neg (show (1 : Fin 2) ∉ ([0] : List (Fin 2)) from by decide)
  -- the offset coordinate: zero on the collapsed axis 0, the result's column on axis 1
  have hoff0 : (rowGatherDims N C R wf).offCoord (ix2 k c) (0 : Fin 2) = 0 :=
    GatherDims.offCoord_eq_zero _ _ _ (fun h => ((GatherDims.mem_sKept _ _).mp h).1 (List.mem_singleton.mpr rfl))
  have hoff1 : (rowGatherDims N C R wf).offCoord (ix2 k c) (1 : Fin 2) = c.val := by
    unfold GatherDims.offCoord
    rw [dif_pos ((GatherDims.mem_sKept (rowGatherDims N C R wf) (1 : Fin 2)).mpr
      ⟨(show (1 : Fin 2) ∉ ([0] : List (Fin 2)) from by decide), List.not_mem_nil⟩)]
    rfl
  unfold Host.gather
  congr 1
  funext a
  refine Fin.ext ?_
  match a with
  | ⟨0, _⟩ =>
    show (rowGatherDims N C R wf).start (ix2 k c) idx (0 : Fin 2) + (rowGatherDims N C R wf).batchCoord (ix2 k c) (0 : Fin 2)
      + (rowGatherDims N C R wf).offCoord (ix2 k c) (0 : Fin 2) = min (idx (ix2 k (0 : Fin 1))).toInt.toNat (N - 1)
    rw [GatherDims.batchCoord_eq_zero _ _ _ List.not_mem_nil, hst0, hoff0]
    rfl
  | ⟨1, _⟩ =>
    show (rowGatherDims N C R wf).start (ix2 k c) idx (1 : Fin 2) + (rowGatherDims N C R wf).batchCoord (ix2 k c) (1 : Fin 2)
      + (rowGatherDims N C R wf).offCoord (ix2 k c) (1 : Fin 2) = c.val
    rw [GatherDims.batchCoord_eq_zero _ _ _ List.not_mem_nil, hst1, hoff1]
    omega

/-- The same for any dimension numbers whose fields are those of a gather of rows (a printed record's are, each by
    `rfl`). -/
theorem gather_row_apply_of {N C R w : Nat} (hN : 0 < N) (d : GatherDims ⟨2, ![N, C]⟩ ⟨2, ![R, 1]⟩ ⟨2, ![R, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![N, C]⟩ : Shape).Idx → α) (idx : IVec ⟨2, ![R, 1]⟩ w) (k : Fin R) (c : Fin C) :
    Host.gather d x idx (ix2 k c)
      = x (ix2 ⟨min (idx (ix2 k (0 : Fin 1))).toInt.toNat (N - 1), by omega⟩ c) := by
  obtain ⟨od, cd, ob, sb, sm, iv, ss, wf⟩ := d
  dsimp only at h1 h2 h3 h4 h5 h6 h7
  subst h1 h2 h3 h4 h5 h6 h7
  exact gather_row_apply hN wf x idx k c

end RowGather

/-! ## A scatter that adds rows -/

/-- An axis is among a shape's kept axes exactly when it is not among the removed ones. -/
theorem mem_kept {s : Shape} (axes : List (Fin s.rank)) (a : Fin s.rank) : a ∈ s.kept axes ↔ a ∉ axes := by
  simp [Shape.kept, List.mem_filter, List.mem_finRange]

/-- The dimension numbers of a scatter of whole rows: operand `[N, C]`, scatter indices `[R, 1]` (one row number
    per update row), updates `[R, C]`; axis 0 of the operand is the inserted, indexed axis, axis 1 of the updates
    is the window axis. -/
abbrev rowScatterDims (N C R : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- The window of update row `k` starts, on the operand's axis 0, at the scatter index `idx[k, 0]` read signed. -/
theorem rowScatter_start0 {N C R w : Nat}
    (wf : ScatterDims.WF ⟨2, ![N, C]⟩ ⟨2, ![R, 1]⟩ ⟨2, ![R, C]⟩ [1] [0] [0] 1)
    (idx : IVec ⟨2, ![R, 1]⟩ w) (k : Fin R) (c : Fin C) :
    (rowScatterDims N C R wf).start (ix2 k c) idx (0 : Fin 2) = (idx (ix2 k (0 : Fin 1))).toInt := by
  unfold ScatterDims.start
  rw [dif_pos (show (0 : Fin 2) ∈ (rowScatterDims N C R wf).scatterDimsToOperandDims from List.mem_singleton.mpr rfl)]
  have hsi : (rowScatterDims N C R wf).siIdx (ix2 k c) ⟨List.idxOf (0 : Fin 2) (rowScatterDims N C R wf).scatterDimsToOperandDims,
      List.idxOf_lt_length_iff.2 (List.mem_singleton.mpr rfl)⟩ = ix2 k (0 : Fin 1) := by
    funext b; refine Fin.ext ?_
    match b with
    | ⟨0, _⟩ => rfl
    | ⟨1, _⟩ => rfl
  rw [hsi]

/-- On the operand's axis 1, which the scatter indices do not address, the window starts at zero. -/
theorem rowScatter_start1 {N C R w : Nat}
    (wf : ScatterDims.WF ⟨2, ![N, C]⟩ ⟨2, ![R, 1]⟩ ⟨2, ![R, C]⟩ [1] [0] [0] 1)
    (idx : IVec ⟨2, ![R, 1]⟩ w) (j : (⟨2, ![R, C]⟩ : Shape).Idx) :
    (rowScatterDims N C R wf).start j idx (1 : Fin 2) = 0 := by
  unfold ScatterDims.start
  exact dif_neg (show (1 : Fin 2) ∉ ([0] : List (Fin 2)) from by decide)

/-- The window coordinate on the inserted axis 0 is zero. -/
theorem rowScatter_window0 {N C R : Nat}
    (wf : ScatterDims.WF ⟨2, ![N, C]⟩ ⟨2, ![R, 1]⟩ ⟨2, ![R, C]⟩ [1] [0] [0] 1)
    (j : (⟨2, ![R, C]⟩ : Shape).Idx) :
    (rowScatterDims N C R wf).window j (0 : Fin 2) = 0 := by
  unfold ScatterDims.window
  exact dif_neg (fun h => ((mem_kept _ _).mp h) (List.mem_singleton.mpr rfl))

/-- The window coordinate on axis 1 is the update's column. -/
theorem rowScatter_window1 {N C R : Nat}
    (wf : ScatterDims.WF ⟨2, ![N, C]⟩ ⟨2, ![R, 1]⟩ ⟨2, ![R, C]⟩ [1] [0] [0] 1)
    (j : (⟨2, ![R, C]⟩ : Shape).Idx) :
    (rowScatterDims N C R wf).window j (1 : Fin 2) = (j 1).val := by
  have h1k : (1 : Fin 2) ∈ (rowScatterDims N C R wf).sKept :=
    (mem_kept _ _).mpr (show (1 : Fin 2) ∉ ([0] : List (Fin 2)) from by decide)
  unfold ScatterDims.window
  rw [dif_pos h1k]
  rfl

/-- Update element `(k, c')` lands on operand element `(v, c)` exactly when row `k`'s scatter index, read signed, is
    `v` and the columns agree (an index that is not a row number lands nowhere). -/
theorem rowScatter_resultIdx?_eq_some {N C R w : Nat}
    (wf : ScatterDims.WF ⟨2, ![N, C]⟩ ⟨2, ![R, 1]⟩ ⟨2, ![R, C]⟩ [1] [0] [0] 1)
    (idx : IVec ⟨2, ![R, 1]⟩ w) (k : Fin R) (c' : Fin C) (v : Fin N) (c : Fin C) :
    (rowScatterDims N C R wf).resultIdx? (ix2 k c') idx = some (ix2 v c)
      ↔ (idx (ix2 k (0 : Fin 1))).toInt = (v.val : Int) ∧ c' = c := by
  have hs0 := rowScatter_start0 wf idx k c'
  have hs1 := rowScatter_start1 wf idx (ix2 k c')
  have hw0 := rowScatter_window0 wf (ix2 k c')
  have hw1 : (rowScatterDims N C R wf).window (ix2 k c') (1 : Fin 2) = c'.val := rowScatter_window1 wf (ix2 k c')
  have hv := v.isLt
  have hc' := c'.isLt
  unfold ScatterDims.resultIdx?
  split
  · rename_i h
    rw [Option.some.injEq]
    constructor
    · intro hf
      have h0 : ((rowScatterDims N C R wf).start (ix2 k c') idx (0 : Fin 2)
          + ((rowScatterDims N C R wf).window (ix2 k c') (0 : Fin 2) : Int)).toNat = v.val :=
        congrArg Fin.val (congrFun hf (0 : Fin 2))
      have h1 : ((rowScatterDims N C R wf).start (ix2 k c') idx (1 : Fin 2)
          + ((rowScatterDims N C R wf).window (ix2 k c') (1 : Fin 2) : Int)).toNat = c.val :=
        congrArg Fin.val (congrFun hf (1 : Fin 2))
      have hh := (h (0 : Fin 2)).1
      rw [hs0, hw0] at h0 hh
      rw [hs1, hw1] at h1
      exact ⟨by omega, Fin.ext (by omega)⟩
    · rintro ⟨hv', hcc⟩
      have hcv : c'.val = c.val := congrArg Fin.val hcc
      funext a
      refine Fin.ext ?_
      match a with
      | ⟨0, _⟩ =>
        show ((rowScatterDims N C R wf).start (ix2 k c') idx (0 : Fin 2)
          + ((rowScatterDims N C R wf).window (ix2 k c') (0 : Fin 2) : Int)).toNat = v.val
        rw [hs0, hw0, hv']; omega
      | ⟨1, _⟩ =>
        show ((rowScatterDims N C R wf).start (ix2 k c') idx (1 : Fin 2)
          + ((rowScatterDims N C R wf).window (ix2 k c') (1 : Fin 2) : Int)).toNat = c.val
        rw [hs1, hw1]; omega
  · rename_i h
    refine iff_of_false (by simp) ?_
    rintro ⟨hv', -⟩
    apply h
    intro a
    match a with
    | ⟨0, _⟩ =>
      show 0 ≤ (rowScatterDims N C R wf).start (ix2 k c') idx (0 : Fin 2)
          + ((rowScatterDims N C R wf).window (ix2 k c') (0 : Fin 2) : Int)
        ∧ (rowScatterDims N C R wf).start (ix2 k c') idx (0 : Fin 2)
          + ((rowScatterDims N C R wf).window (ix2 k c') (0 : Fin 2) : Int) < (N : Int)
      rw [hs0, hw0, hv']; omega
    | ⟨1, _⟩ =>
      show 0 ≤ (rowScatterDims N C R wf).start (ix2 k c') idx (1 : Fin 2)
          + ((rowScatterDims N C R wf).window (ix2 k c') (1 : Fin 2) : Int)
        ∧ (rowScatterDims N C R wf).start (ix2 k c') idx (1 : Fin 2)
          + ((rowScatterDims N C R wf).window (ix2 k c') (1 : Fin 2) : Int) < (C : Int)
      rw [hs1, hw1]; omega

/-- THE ROW SCATTER-ADD READ AT `(v, c)`, at the ideal instance: the operand's element plus column `c` of every
    update row whose scatter index, read signed, is `v`. -/
theorem scatterAdd_row_apply {N C R w : Nat}
    (wf : ScatterDims.WF ⟨2, ![N, C]⟩ ⟨2, ![R, 1]⟩ ⟨2, ![R, C]⟩ [1] [0] [0] 1) {φ : FTy}
    (x : FVec Ideal ⟨2, ![N, C]⟩ φ) (idx : IVec ⟨2, ![R, 1]⟩ w) (upd : FVec Ideal ⟨2, ![R, C]⟩ φ)
    (v : Fin N) (c : Fin C) :
    Host.scatterAdd (F := Ideal) (rowScatterDims N C R wf) x idx upd (ix2 v c)
      = x (ix2 v c) + ∑ k : Fin R, if (idx (ix2 k (0 : Fin 1))).toInt = (v.val : Int) then upd (ix2 k c) else 0 := by
  show Ideal.hostScatterAdd (rowScatterDims N C R wf) x idx upd (ix2 v c) = _
  unfold Ideal.hostScatterAdd
  congr 1
  rw [Finset.sum_filter, sum_idx2]
  refine Finset.sum_congr rfl fun k _ => ?_
  simp only [rowScatter_resultIdx?_eq_some]
  by_cases hk : (idx (ix2 k (0 : Fin 1))).toInt = (v.val : Int)
  · have hcg : ∀ b : Fin C, (if (idx (ix2 k (0 : Fin 1))).toInt = (v.val : Int) ∧ b = c then upd (ix2 k b) else 0)
        = if b = c then upd (ix2 k b) else 0 := fun b => if_congr (and_iff_right hk) rfl rfl
    rw [if_pos hk, Finset.sum_congr rfl (fun b _ => hcg b),
      Finset.sum_ite_eq' Finset.univ c (fun b => upd (ix2 k b)), if_pos (Finset.mem_univ c)]
  · rw [if_neg hk]
    exact Finset.sum_eq_zero fun b _ => if_neg (fun h => hk h.1)

/-- The same for any dimension numbers whose fields are those of a scatter of rows. -/
theorem scatterAdd_row_apply_of {N C R w : Nat} (d : ScatterDims ⟨2, ![N, C]⟩ ⟨2, ![R, 1]⟩ ⟨2, ![R, C]⟩)
    (h1 : d.updateWindowDims = [1]) (h2 : d.insertedWindowDims = [0]) (h3 : d.scatterDimsToOperandDims = [0])
    (h4 : d.indexVectorDim = 1) {φ : FTy}
    (x : FVec Ideal ⟨2, ![N, C]⟩ φ) (idx : IVec ⟨2, ![R, 1]⟩ w) (upd : FVec Ideal ⟨2, ![R, C]⟩ φ)
    (v : Fin N) (c : Fin C) :
    Host.scatterAdd (F := Ideal) d x idx upd (ix2 v c)
      = x (ix2 v c) + ∑ k : Fin R, if (idx (ix2 k (0 : Fin 1))).toInt = (v.val : Int) then upd (ix2 k c) else 0 := by
  obtain ⟨uw, iw, sd, iv, wf⟩ := d
  dsimp only at h1 h2 h3 h4
  subst h1 h2 h3 h4
  exact scatterAdd_row_apply wf x idx upd v c

/-! ## A scatter that adds scalars into a vector -/

/-- A rank-1 index set is its coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of a scatter of scalars into a vector: operand `[N]`, scatter indices `[R, 1]`, updates
    `[R]`; the operand's one axis is inserted and indexed, the updates have no window axis. -/
abbrev vecScatterDims (N R : Nat)
    (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

/-- Update `k`'s one-element window starts at the scatter index `idx[k, 0]` read signed. -/
theorem vecScatter_start {N R w : Nat}
    (wf : ScatterDims.WF ⟨1, ![N]⟩ ⟨2, ![R, 1]⟩ ⟨1, ![R]⟩ [] [0] [0] 1)
    (idx : IVec ⟨2, ![R, 1]⟩ w) (k : Fin R) :
    (vecScatterDims N R wf).start (ix1 k) idx (0 : Fin 1) = (idx (ix2 k (0 : Fin 1))).toInt := by
  unfold ScatterDims.start
  rw [dif_pos (show (0 : Fin 1) ∈ (vecScatterDims N R wf).scatterDimsToOperandDims from List.mem_singleton.mpr rfl)]
  have hsi : (vecScatterDims N R wf).siIdx (ix1 k) ⟨List.idxOf (0 : Fin 1) (vecScatterDims N R wf).scatterDimsToOperandDims,
      List.idxOf_lt_length_iff.2 (List.mem_singleton.mpr rfl)⟩ = ix2 k (0 : Fin 1) := by
    funext b; refine Fin.ext ?_
    match b with
    | ⟨0, _⟩ => rfl
    | ⟨1, _⟩ => rfl
  rw [hsi]

/-- The window coordinate on the operand's one, inserted axis is zero. -/
theorem vecScatter_window {N R : Nat}
    (wf : ScatterDims.WF ⟨1, ![N]⟩ ⟨2, ![R, 1]⟩ ⟨1, ![R]⟩ [] [0] [0] 1)
    (j : (⟨1, ![R]⟩ : Shape).Idx) :
    (vecScatterDims N R wf).window j (0 : Fin 1) = 0 := by
  unfold ScatterDims.window
  exact dif_neg (fun h => ((mem_kept _ _).mp h) (List.mem_singleton.mpr rfl))

/-- Update `k` lands on operand element `v` exactly when its scatter index, read signed, is `v`. -/
theorem vecScatter_resultIdx?_eq_some {N R w : Nat}
    (wf : ScatterDims.WF ⟨1, ![N]⟩ ⟨2, ![R, 1]⟩ ⟨1, ![R]⟩ [] [0] [0] 1)
    (idx : IVec ⟨2, ![R, 1]⟩ w) (k : Fin R) (v : Fin N) :
    (vecScatterDims N R wf).resultIdx? (ix1 k) idx = some (ix1 v)
      ↔ (idx (ix2 k (0 : Fin 1))).toInt = (v.val : Int) := by
  have hs0 := vecScatter_start wf idx k
  have hw0 := vecScatter_window wf (ix1 k)
  have hv := v.isLt
  unfold ScatterDims.resultIdx?
  split
  · rename_i h
    rw [Option.some.injEq]
    constructor
    · intro hf
      have h0 : ((vecScatterDims N R wf).start (ix1 k) idx (0 : Fin 1)
          + ((vecScatterDims N R wf).window (ix1 k) (0 : Fin 1) : Int)).toNat = v.val :=
        congrArg Fin.val (congrFun hf (0 : Fin 1))
      have hh := (h (0 : Fin 1)).1
      rw [hs0, hw0] at h0 hh
      omega
    · intro hv'
      funext a
      refine Fin.ext ?_
      match a with
      | ⟨0, _⟩ =>
        show ((vecScatterDims N R wf).start (ix1 k) idx (0 : Fin 1)
          + ((vecScatterDims N R wf).window (ix1 k) (0 : Fin 1) : Int)).toNat = v.val
        rw [hs0, hw0, hv']; omega
  · rename_i h
    refine iff_of_false (by simp) ?_
    intro hv'
    apply h
    intro a
    match a with
    | ⟨0, _⟩ =>
      show 0 ≤ (vecScatterDims N R wf).start (ix1 k) idx (0 : Fin 1)
          + ((vecScatterDims N R wf).window (ix1 k) (0 : Fin 1) : Int)
        ∧ (vecScatterDims N R wf).start (ix1 k) idx (0 : Fin 1)
          + ((vecScatterDims N R wf).window (ix1 k) (0 : Fin 1) : Int) < (N : Int)
      rw [hs0, hw0, hv']; omega

/-- THE SCALAR SCATTER-ADD READ AT `v`, at the ideal instance: the operand's element plus every update whose scatter
    index, read signed, is `v`. -/
theorem scatterAdd_vec_apply {N R w : Nat}
    (wf : ScatterDims.WF ⟨1, ![N]⟩ ⟨2, ![R, 1]⟩ ⟨1, ![R]⟩ [] [0] [0] 1) {φ : FTy}
    (x : FVec Ideal ⟨1, ![N]⟩ φ) (idx : IVec ⟨2, ![R, 1]⟩ w) (upd : FVec Ideal ⟨1, ![R]⟩ φ) (v : Fin N) :
    Host.scatterAdd (F := Ideal) (vecScatterDims N R wf) x idx upd (ix1 v)
      = x (ix1 v) + ∑ k : Fin R, if (idx (ix2 k (0 : Fin 1))).toInt = (v.val : Int) then upd (ix1 k) else 0 := by
  show Ideal.hostScatterAdd (vecScatterDims N R wf) x idx upd (ix1 v) = _
  unfold Ideal.hostScatterAdd
  congr 1
  rw [Finset.sum_filter, sum_idx1]
  refine Finset.sum_congr rfl fun k _ => ?_
  simp only [vecScatter_resultIdx?_eq_some]

/-- The same for any dimension numbers whose fields are those of a scatter of scalars into a vector. -/
theorem scatterAdd_vec_apply_of {N R w : Nat} (d : ScatterDims ⟨1, ![N]⟩ ⟨2, ![R, 1]⟩ ⟨1, ![R]⟩)
    (h1 : d.updateWindowDims = []) (h2 : d.insertedWindowDims = [0]) (h3 : d.scatterDimsToOperandDims = [0])
    (h4 : d.indexVectorDim = 1) {φ : FTy}
    (x : FVec Ideal ⟨1, ![N]⟩ φ) (idx : IVec ⟨2, ![R, 1]⟩ w) (upd : FVec Ideal ⟨1, ![R]⟩ φ) (v : Fin N) :
    Host.scatterAdd (F := Ideal) d x idx upd (ix1 v)
      = x (ix1 v) + ∑ k : Fin R, if (idx (ix2 k (0 : Fin 1))).toInt = (v.val : Int) then upd (ix1 k) else 0 := by
  obtain ⟨uw, iw, sd, iv, wf⟩ := d
  dsimp only at h1 h2 h3 h4
  subst h1 h2 h3 h4
  exact scatterAdd_vec_apply wf x idx upd v

/-! ## Extended-real arithmetic -/

/-- A natural number times an extended real is the repeated sum. -/
theorem natCast_mul_eq_nsmul (n : ℕ) (x : EReal) : ((n : ℝ) : EReal) * x = n • x := by
  induction n with
  | zero => simp
  | succ n ih =>
    have hn : (0 : EReal) ≤ ((n : ℝ) : EReal) := EReal.coe_nonneg.mpr (Nat.cast_nonneg n)
    rw [Nat.cast_succ, EReal.coe_add, EReal.coe_one,
      EReal.right_distrib_of_nonneg (a := ((n : ℝ) : EReal)) (b := 1) (c := x) hn zero_le_one, ih, one_mul, succ_nsmul]

/-- A sum over the indices that satisfy `p` of `A k + x` is the sum of the `A k` plus their number times `x`
    (the count is a sum of ones, so it is nonnegative and multiplication distributes over it). -/
theorem sum_ite_add_const {K : Type*} [Fintype K] (p : K → Prop) [DecidablePred p] (A : K → EReal) (x : EReal) :
    ∑ k, (if p k then A k + x else 0) = (∑ k, if p k then A k else 0) + (∑ k, if p k then (1 : EReal) else 0) * x := by
  classical
  have key : ∀ s : Finset K, ∑ k ∈ s, (if p k then A k + x else 0)
      = (∑ k ∈ s, if p k then A k else 0) + (∑ k ∈ s, if p k then (1 : EReal) else 0) * x := by
    intro s
    induction s using Finset.induction_on with
    | empty => simp
    | insert a s ha ih =>
      rw [Finset.sum_insert ha, Finset.sum_insert ha, Finset.sum_insert ha, ih]
      have hnn : (0 : EReal) ≤ ∑ k ∈ s, if p k then (1 : EReal) else 0 :=
        Finset.sum_nonneg fun k _ => by split <;> simp
      by_cases hp : p a
      · rw [if_pos hp, if_pos hp, if_pos hp, EReal.right_distrib_of_nonneg zero_le_one hnn, one_mul]
        exact add_add_add_comm _ _ _ _
      · rw [if_neg hp, if_neg hp, if_neg hp, zero_add, zero_add, zero_add]
  exact key Finset.univ

end Cert.LibIndex

end
-- ==== Proof.KHostTake.lean ====
/-
  The host operations before each matrix-product region of the kernel's program: the bounds-checked gather.

  The index table is flattened to 5400000 row numbers, a negative one has 400000 added, the rows are gathered, a row
  whose wrapped number falls outside [0, 399999] is replaced by a fill value, and the result is laid out again as
  27 × 200000 × C. On a table of valid row numbers no row is replaced: the region is entered with the gathered rows
  of the specification.
-/
import proofs.«426714_j42949672960764_1_alg».proof.Proof.Gen.KernelIdeal.Frame
import proofs.«426714_j42949672960764_1_alg».proof.Proof.Spec
import proofs.«426714_j42949672960764_1_alg».proof.Proof.IndexWords
import proofs.«426714_j42949672960764_1_alg».proof.Proof.LibIndex
import Idealize.ShloMosaic.Lib.Pipeline.Value
import Idealize.ShloMosaic.PureOps.Reduce

set_option maxRecDepth 16384

noncomputable section

open scoped BigOperators

namespace Cert.SparseConv.Kernel

open Idealize.ShloMosaic Idealize.ShloMosaic.TcCoe Idealize.ShloMosaic.ValueIdx Idealize.SL.Sem
open Cert.KernelIdeal Cert.KernelIdeal.Gen Cert.SparseConv
variable (m : (ℓ : Loc nD τ sig) → Buf (Elt Ideal) ℓ) (ρ : Dev nD → PrngReg)

/-- A line of host operations leaves a buffer that none of them writes as it was. -/
local macro "unwritten" l:ident : tactic =>
  `(tactic| exact StableHlo.after_of_forall_not_mem _ _ (List.forall_iff_forall_mem.mp (by
      simp only [$l:ident, List.take_succ_cons, List.take_zero, List.drop_succ_cons, List.drop_zero,
        List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

section Take

/-- A conjunction of bits that starts at 1 and meets only 1s is 1. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a]
    exact foldl_andi_one f hf l

/-- The index table flattened to 5400000 row numbers: row number `k · 200000 + r` is the table's entry `(k, r)`. -/
def flatTable (idx : S27x200000.Idx → BitVec 32) : IVec S5400000 32 :=
  shapeCast S5400000 idx shapeCasts_S27x200000_S5400000

theorem flatTable_apply (idx : S27x200000.Idx → BitVec 32) (k : Fin 27) (r : Fin 200000) (j : Fin 5400000)
    (hj : j.val = k.val * 200000 + r.val) : flatTable idx (ix1 j) = idx (ix2 k r) := by
  unfold flatTable
  refine shapeCast_apply idx _ (ix1 j) (ix2 k r) ?_
  rw [Shape.rowMajor_val_two, Shape.rowMajor_val_one]
  show k.val * 200000 + r.val = j.val
  omega

/-- Every flattened row number is an entry of the table, so it is valid when the table's entries are. -/
theorem flatTable_range (idx : S27x200000.Idx → BitVec 32) (hin : InRange idx) (j : S5400000.Idx) :
    -400000 ≤ (flatTable idx j).toInt ∧ (flatTable idx j).toInt < 400000 := by
  unfold flatTable shapeCast
  generalize Shape.reshapeEquiv shapeCasts_S27x200000_S5400000 j = i
  rw [eq_ix2 i]
  exact hin _ _

/-- The wrapped row numbers as a column: a negative number has 400000 added. -/
def wrapCol (w : IVec S5400000 32) : IVec S5400000x1 32 :=
  broadcastInDim S5400000x1 ![0] bcast_S5400000_S5400000x1_0
    (select (cmpi .slt w (broadcastInDim S5400000 ![] bcast_S_S5400000 (constantI S_ 32 0#32)))
      (addi w (broadcastInDim S5400000 ![] bcast_S_S5400000 (constantI S_ 32 400000#32))) w)

theorem wrapCol_apply (w : IVec S5400000 32) (j : Fin 5400000) (z : Fin 1) :
    wrapCol w (ix2 j z) = wrapWord (w (ix1 j)) := by
  unfold wrapCol
  refine (broadcastInDim_apply _ _ _ (ix2 j z) (ix1 j) ?_).trans rfl
  intro a
  match a with
  | ⟨0, _⟩ => rfl

/-- The range test of a column of row numbers: the comparisons with 0 and with 399999 conjoined, and the
    conjunction reduced over the column axis (one element per row). -/
def rangeMask (col : IVec S5400000x1 32) : IVec S5400000 1 :=
  Host.reduce IntOp.andi
    (andi (cmpi .sge col (broadcastInDim S5400000x1 ![] bcast_S_S5400000x1 (constantI S_ 32 0#32)))
      (cmpi .sle col (broadcastInDim S5400000x1 ![0, 1] bcast_S1x1_S5400000x1_0_1
        (broadcastInDim S1x1 ![1] bcast_S1_S1x1_1 (constantI S1 32 399999#32)))))
    (constantI S_ 1 1#1) reducesTo_S5400000x1_S5400000_d1 h_S_

/-- The range test of every wrapped row number. -/
def maskRow (w : IVec S5400000 32) : IVec S5400000 1 := rangeMask (wrapCol w)

/-- On valid row numbers every range test answers true. -/
theorem maskRow_apply (w : IVec S5400000 32)
    (hw : ∀ j, -400000 ≤ (w j).toInt ∧ (w j).toInt < 400000) (j : S5400000.Idx) : maskRow w j = 1#1 := by
  unfold maskRow rangeMask
  rw [Host.reduce_eq_foldl]
  refine foldl_andi_one _ (fun i => ?_) _
  obtain ⟨a, z, rfl⟩ : ∃ (a : Fin 5400000) (z : Fin 1), i = ix2 a z := ⟨i 0, i 1, eq_ix2 i⟩
  show IntOp.andi (IntOp.cmpi .sge (wrapCol w (ix2 a z)) 0#32) (IntOp.cmpi .sle (wrapCol w (ix2 a z)) 399999#32) = 1#1
  rw [wrapCol_apply, wrapWord_sge _ (hw _).1 (hw _).2, wrapWord_sle _ (hw _).1 (hw _).2]
  rfl

end Take

section Cut

/-- A line of operations run in three pieces: the first `n`, those from `n` to `k`, the rest. -/
theorem after_cut {Val : EltTy → Type} (n k : Nat) (h : n ≤ k) (l : List (HloOp τ sig Val)) (V : Valuation τ sig Val) :
    StableHlo.after l V
      = StableHlo.after (l.drop k) (StableHlo.after ((l.take k).drop n) (StableHlo.after (l.take n) V)) := by
  have after_append : ∀ (l₁ l₂ : List (HloOp τ sig Val)) (V : Valuation τ sig Val),
      StableHlo.after (l₁ ++ l₂) V = StableHlo.after l₂ (StableHlo.after l₁ V) := by
    intro l₁
    induction l₁ with
    | nil => intro l₂ V; rfl
    | cons a l ih => intro l₂ V; exact ih l₂ _
  rw [← after_append, ← after_append]
  congr 1
  have h1 : (l.take k).take n = l.take n := by rw [List.take_take, Nat.min_eq_left h]
  rw [← h1, ← List.append_assoc, List.take_append_drop, List.take_append_drop]

end Cut

section Casts

/-- Contents moved to a typed reference's buffer type and back are unchanged. -/
theorem ofBuf_toBuf {T : BufTy} {Val : EltTy → Type} (x : StableHlo.TRef sig T) (v : T.Contents Val) :
    x.ofBuf (x.toBuf v) = v := by
  obtain ⟨r, h, a, b⟩ := x
  subst h
  rfl

end Casts

section Pieces0
variable {F : FTy → Type} [FloatOps F]

/-- The gathered rows with the rows that fail the range test replaced by the fill value, one column. -/
def fillSel1 (x : FVec F S400000x1 .f32) (col : IVec S5400000x1 32) (msk : IVec S5400000 1) : FVec F S5400000x1 .f32 :=
  select (broadcastInDim S5400000x1 ![0] bcast_S5400000_S5400000x1_0 msk)
    (Host.gather gather_S400000x1_S5400000x1_S5400000x1_1_0_n_n_0_1_11 x col)
    (broadcastInDim S5400000x1 ![] bcast_S_S5400000x1 (constant (F := F) S_ .f32 0x7FC00000#32))

/-- The buffers the first gather's pieces hand to one another, with the types of the values they hold. -/
abbrev t0_x : StableHlo.TRef sig ⟨S400000x1, .f32⟩ := .of main_arg0
abbrev t0_w : StableHlo.TRef sig ⟨S5400000, .i32⟩ := .of main_v0
abbrev t0_col : StableHlo.TRef sig ⟨S5400000x1, .i32⟩ := .of main_call0_v5
abbrev t0_msk : StableHlo.TRef sig ⟨S5400000, .i1⟩ := .of main_call0_v12
abbrev t0_out : StableHlo.TRef sig ⟨S5400000x1, .f32⟩ := .of main_v1

set_option maxHeartbeats 4000000 in
/-- The first eight operations of the gather leave the wrapped row numbers, as a column. -/
theorem take0_wrap (W : Valuation τ sig (Elt F)) :
    StableHlo.after ((hostOps0_1 : List (HloOp τ sig (Elt F))).take 8) W (Proc.devRef .tc main_call0_v5)
      = t0_col.toBuf (wrapCol (t0_w.ofBuf (W (Proc.devRef .tc main_v0)))) := by
  simp only [hostOps0_1, List.take_succ_cons, List.take_zero]
  after_results_simp
  simp only [ofBuf_toBuf]
  rfl

set_option maxHeartbeats 4000000 in
/-- The next ten leave the range test of that column. -/
theorem take0_mask (W : Valuation τ sig (Elt F)) :
    StableHlo.after (((hostOps0_1 : List (HloOp τ sig (Elt F))).take 18).drop 8) W (Proc.devRef .tc main_call0_v12)
      = t0_msk.toBuf (rangeMask (t0_col.ofBuf (W (Proc.devRef .tc main_call0_v5)))) := by
  simp only [hostOps0_1, List.take_succ_cons, List.take_zero, List.drop_succ_cons, List.drop_zero]
  after_results_simp
  simp only [ofBuf_toBuf]
  rfl

set_option maxHeartbeats 4000000 in
/-- The last five gather the rows and replace those that fail the test. -/
theorem take0_sel (W : Valuation τ sig (Elt F)) :
    StableHlo.after ((hostOps0_1 : List (HloOp τ sig (Elt F))).drop 18) W (Proc.devRef .tc main_v1)
      = t0_out.toBuf (fillSel1 (t0_x.ofBuf (W (Proc.devRef .tc main_arg0)))
          (t0_col.ofBuf (W (Proc.devRef .tc main_call0_v5))) (t0_msk.ofBuf (W (Proc.devRef .tc main_call0_v12)))) := by
  simp only [hostOps0_1, List.drop_succ_cons, List.drop_zero]
  after_results_simp
  simp only [ofBuf_toBuf]
  rfl

/-- The twenty-three operations of the gather, from any contents `W`. -/
theorem take0_flat (W : Valuation τ sig (Elt F)) :
    StableHlo.after hostOps0_1 W (Proc.devRef .tc main_v1)
      = t0_out.toBuf (fillSel1 (t0_x.ofBuf (W (Proc.devRef .tc main_arg0)))
          (wrapCol (t0_w.ofBuf (W (Proc.devRef .tc main_v0)))) (maskRow (t0_w.ofBuf (W (Proc.devRef .tc main_v0))))) := by
  have h5 : StableHlo.after (((hostOps0_1 : List (HloOp τ sig (Elt F))).take 18).drop 8)
      (StableHlo.after ((hostOps0_1 : List (HloOp τ sig (Elt F))).take 8) W) (Proc.devRef .tc main_call0_v5)
      = StableHlo.after ((hostOps0_1 : List (HloOp τ sig (Elt F))).take 8) W (Proc.devRef .tc main_call0_v5) := by
    unwritten hostOps0_1
  have h0 : StableHlo.after (((hostOps0_1 : List (HloOp τ sig (Elt F))).take 18).drop 8)
      (StableHlo.after ((hostOps0_1 : List (HloOp τ sig (Elt F))).take 8) W) (Proc.devRef .tc main_arg0)
      = W (Proc.devRef .tc main_arg0) := by
    refine Eq.trans ?_ (?_ : StableHlo.after ((hostOps0_1 : List (HloOp τ sig (Elt F))).take 8) W
      (Proc.devRef .tc main_arg0) = _)
    · unwritten hostOps0_1
    · unwritten hostOps0_1
  rw [after_cut 8 18 (by decide) hostOps0_1 W, take0_sel, take0_mask, h5, h0, take0_wrap]
  simp only [ofBuf_toBuf]
  rfl

end Pieces0

section Chain0
variable {F : FTy → Type} [FloatOps F]

/-- The bounds-checked gather of rows of a one-column array by the table's row numbers, laid out as
    27 × 200000 × 1 (at any float instance). -/
def takeTerm1 (x : FVec F S400000x1 .f32) (idx : IVec S27x200000 32) : FVec F S27x200000x1 .f32 :=
  shapeCast S27x200000x1 (fillSel1 x (wrapCol (flatTable idx)) (maskRow (flatTable idx)))
    shapeCasts_S5400000x1_S27x200000x1

/-- The reshape before the gather leaves the flattened table. -/
theorem take0_in (X : Valuation τ sig (Elt F)) :
    t0_w.ofBuf (StableHlo.after hostOps0 X (Proc.devRef .tc main_v0)) = flatTable (X (Proc.devRef .tc main_arg11)) := by
  simp only [hostOps0]
  after_results_simp
  rfl

/-- The input array read at its own type. -/
theorem take0_x (y : (main_arg0 : Ref sig .tc).ty.Contents (Elt F)) : t0_x.ofBuf y = y := rfl

/-- The reshape after the gather lays its result out as 27 × 200000 × 1. -/
theorem take0_out (Z : Valuation τ sig (Elt F)) (t : FVec F S5400000x1 .f32)
    (hZ : Z (Proc.devRef .tc main_v1) = t0_out.toBuf t) :
    (StableHlo.after hostOps0_2 Z (Proc.devRef .tc main_v2) : (⟨S27x200000x1, .f32⟩ : BufTy).Contents (Elt F))
      = shapeCast S27x200000x1 t shapeCasts_S5400000x1_S27x200000x1 := by
  simp only [hostOps0_2]
  after_results_simp
  rw [hZ]
  rfl

/-- The three stretches of host operations before region 0, from any contents `X`: what they leave in the
    region's operand is the bounds-checked gather of `X`'s input rows by `X`'s index table. -/
theorem take_term0 (X : Valuation τ sig (Elt F)) :
    (StableHlo.after hostOps0_2 (StableHlo.after hostOps0_1 (StableHlo.after hostOps0 X)) (Proc.devRef .tc main_v2)
        : (⟨S27x200000x1, .f32⟩ : BufTy).Contents (Elt F))
      = takeTerm1 (X (Proc.devRef .tc main_arg0)) (X (Proc.devRef .tc main_arg11)) := by
  refine (take0_out _ _ (take0_flat _)).trans ?_
  have h0 : StableHlo.after hostOps0 X (Proc.devRef .tc main_arg0) = X (Proc.devRef .tc main_arg0) := by
    unwritten hostOps0
  rw [take0_in, h0, take0_x]
  rfl

end Chain0

/-- On a table of valid row numbers no row is replaced, and entry `(k, r, ch)` is column `ch` of the row that the
    table's entry `(k, r)` names. -/
theorem takeTerm1_eq (x : S400000x1.Idx → EReal) (idx : S27x200000.Idx → BitVec 32) (hin : InRange idx) :
    takeTerm1 (F := Ideal) x idx = takeRows x idx := by
  funext i
  obtain ⟨k, r, z, rfl⟩ : ∃ (k : Fin 27) (r : Fin 200000) (z : Fin 1), i = ix3 k r z := ⟨i 0, i 1, i 2, eq_ix3 i⟩
  have hj : k.val * 200000 + r.val < 5400000 := by omega
  unfold takeTerm1 fillSel1
  refine (shapeCast_apply _ _ (ix3 k r z) (ix2 (⟨k.val * 200000 + r.val, hj⟩ : Fin 5400000) z) ?_).trans ?_
  · rw [Shape.rowMajor_val_two, Shape.rowMajor_val_three]
    rfl
  rw [select_apply]
  have hm : broadcastInDim S5400000x1 ![0] bcast_S5400000_S5400000x1_0 (maskRow (flatTable idx))
      (ix2 (⟨k.val * 200000 + r.val, hj⟩ : Fin 5400000) z) = 1#1 := by
    refine (broadcastInDim_apply _ _ _ _ (ix1 (⟨k.val * 200000 + r.val, hj⟩ : Fin 5400000)) ?_).trans
      (maskRow_apply _ (flatTable_range idx hin) _)
    intro a
    match a with
    | ⟨0, _⟩ => rfl
  rw [hm, select_one]
  refine (LibIndex.gather_row_apply_of (N := 400000) (C := 1) (R := 5400000) (by decide)
    gather_S400000x1_S5400000x1_S5400000x1_1_0_n_n_0_1_11 rfl rfl rfl rfl rfl rfl rfl x (wrapCol (flatTable idx))
    ⟨k.val * 200000 + r.val, hj⟩ z).trans ?_
  have e : wrapCol (flatTable idx) (ix2 (⟨k.val * 200000 + r.val, hj⟩ : Fin 5400000) (0 : Fin 1))
      = wrapWord (idx (ix2 k r)) := by
    rw [wrapCol_apply, flatTable_apply idx k r ⟨k.val * 200000 + r.val, hj⟩ rfl]
  refine congrArg (fun q : Fin 400000 => x (ix2 q z)) (Fin.ext ?_)
  show min (wrapCol (flatTable idx) (ix2 (⟨k.val * 200000 + r.val, hj⟩ : Fin 5400000) (0 : Fin 1))).toInt.toNat
    (400000 - 1) = min (wrapWord (idx (ix2 k r))).toInt.toNat 399999
  rw [e]

section Pieces2
variable {F : FTy → Type} [FloatOps F]

/-- The gathered rows with the rows that fail the range test replaced by the fill value, sixteen columns. -/
def fillSel16 (x : FVec F S400000x16 .f32) (col : IVec S5400000x1 32) (msk : IVec S5400000 1) : FVec F S5400000x16 .f32 :=
  select (broadcastInDim S5400000x16 ![0] bcast_S5400000_S5400000x16_0 msk)
    (Host.gather gather_S400000x16_S5400000x1_S5400000x16_1_0_n_n_0_1_116 x col)
    (broadcastInDim S5400000x16 ![] bcast_S_S5400000x16 (constant (F := F) S_ .f32 0x7FC00000#32))

/-- The buffers the second gather's pieces hand to one another, with the types of the values they hold. -/
abbrev t2_x : StableHlo.TRef sig ⟨S400000x16, .f32⟩ := .of main_v18
abbrev t2_w : StableHlo.TRef sig ⟨S5400000, .i32⟩ := .of main_v19
abbrev t2_col : StableHlo.TRef sig ⟨S5400000x1, .i32⟩ := .of main_call1_v5
abbrev t2_msk : StableHlo.TRef sig ⟨S5400000, .i1⟩ := .of main_call1_v12
abbrev t2_out : StableHlo.TRef sig ⟨S5400000x16, .f32⟩ := .of main_v20

set_option maxHeartbeats 4000000 in
/-- The first eight operations of the gather leave the wrapped row numbers, as a column. -/
theorem take2_wrap (W : Valuation τ sig (Elt F)) :
    StableHlo.after ((hostOps2_1 : List (HloOp τ sig (Elt F))).take 8) W (Proc.devRef .tc main_call1_v5)
      = t2_col.toBuf (wrapCol (t2_w.ofBuf (W (Proc.devRef .tc main_v19)))) := by
  simp only [hostOps2_1, List.take_succ_cons, List.take_zero]
  after_results_simp
  simp only [ofBuf_toBuf]
  rfl

set_option maxHeartbeats 4000000 in
/-- The next ten leave the range test of that column. -/
theorem take2_mask (W : Valuation τ sig (Elt F)) :
    StableHlo.after (((hostOps2_1 : List (HloOp τ sig (Elt F))).take 18).drop 8) W (Proc.devRef .tc main_call1_v12)
      = t2_msk.toBuf (rangeMask (t2_col.ofBuf (W (Proc.devRef .tc main_call1_v5)))) := by
  simp only [hostOps2_1, List.take_succ_cons, List.take_zero, List.drop_succ_cons, List.drop_zero]
  after_results_simp
  simp only [ofBuf_toBuf]
  rfl

set_option maxHeartbeats 4000000 in
/-- The last five gather the rows and replace those that fail the test. -/
theorem take2_sel (W : Valuation τ sig (Elt F)) :
    StableHlo.after ((hostOps2_1 : List (HloOp τ sig (Elt F))).drop 18) W (Proc.devRef .tc main_v20)
      = t2_out.toBuf (fillSel16 (t2_x.ofBuf (W (Proc.devRef .tc main_v18)))
          (t2_col.ofBuf (W (Proc.devRef .tc main_call1_v5))) (t2_msk.ofBuf (W (Proc.devRef .tc main_call1_v12)))) := by
  simp only [hostOps2_1, List.drop_succ_cons, List.drop_zero]
  after_results_simp
  simp only [ofBuf_toBuf]
  rfl

/-- The twenty-three operations of the gather, from any contents `W`. -/
theorem take2_flat (W : Valuation τ sig (Elt F)) :
    StableHlo.after hostOps2_1 W (Proc.devRef .tc main_v20)
      = t2_out.toBuf (fillSel16 (t2_x.ofBuf (W (Proc.devRef .tc main_v18)))
          (wrapCol (t2_w.ofBuf (W (Proc.devRef .tc main_v19)))) (maskRow (t2_w.ofBuf (W (Proc.devRef .tc main_v19))))) := by
  have h5 : StableHlo.after (((hostOps2_1 : List (HloOp τ sig (Elt F))).take 18).drop 8)
      (StableHlo.after ((hostOps2_1 : List (HloOp τ sig (Elt F))).take 8) W) (Proc.devRef .tc main_call1_v5)
      = StableHlo.after ((hostOps2_1 : List (HloOp τ sig (Elt F))).take 8) W (Proc.devRef .tc main_call1_v5) := by
    unwritten hostOps2_1
  have h0 : StableHlo.after (((hostOps2_1 : List (HloOp τ sig (Elt F))).take 18).drop 8)
      (StableHlo.after ((hostOps2_1 : List (HloOp τ sig (Elt F))).take 8) W) (Proc.devRef .tc main_v18)
      = W (Proc.devRef .tc main_v18) := by
    refine Eq.trans ?_ (?_ : StableHlo.after ((hostOps2_1 : List (HloOp τ sig (Elt F))).take 8) W
      (Proc.devRef .tc main_v18) = _)
    · unwritten hostOps2_1
    · unwritten hostOps2_1
  rw [after_cut 8 18 (by decide) hostOps2_1 W, take2_sel, take2_mask, h5, h0, take2_wrap]
  simp only [ofBuf_toBuf]
  rfl

end Pieces2

section Chain2
variable {F : FTy → Type} [FloatOps F]

/-- The bounds-checked gather of rows of a sixteen-column array by the table's row numbers, laid out as
    27 × 200000 × 16 (at any float instance). -/
def takeTerm16 (x : FVec F S400000x16 .f32) (idx : IVec S27x200000 32) : FVec F S27x200000x16 .f32 :=
  shapeCast S27x200000x16 (fillSel16 x (wrapCol (flatTable idx)) (maskRow (flatTable idx)))
    shapeCasts_S5400000x16_S27x200000x16

/-- The reshape before the gather leaves the flattened table. -/
theorem take2_in (X : Valuation τ sig (Elt F)) :
    t2_w.ofBuf (StableHlo.after hostOps2 X (Proc.devRef .tc main_v19)) = flatTable (X (Proc.devRef .tc main_arg11)) := by
  simp only [hostOps2]
  after_results_simp
  rfl

/-- The gathered array read at its own type. -/
theorem take2_x (y : (main_v18 : Ref sig .tc).ty.Contents (Elt F)) : t2_x.ofBuf y = y := rfl

/-- The reshape after the gather lays its result out as 27 × 200000 × 16. -/
theorem take2_out (Z : Valuation τ sig (Elt F)) (t : FVec F S5400000x16 .f32)
    (hZ : Z (Proc.devRef .tc main_v20) = t2_out.toBuf t) :
    (StableHlo.after hostOps2_2 Z (Proc.devRef .tc main_v21) : (⟨S27x200000x16, .f32⟩ : BufTy).Contents (Elt F))
      = shapeCast S27x200000x16 t shapeCasts_S5400000x16_S27x200000x16 := by
  simp only [hostOps2_2]
  after_results_simp
  rw [hZ]
  rfl

/-- The three stretches of host operations before region 2, from any contents `X`: what they leave in the
    region's operand is the bounds-checked gather of `X`'s input rows by `X`'s index table. -/
theorem take_term2 (X : Valuation τ sig (Elt F)) :
    (StableHlo.after hostOps2_2 (StableHlo.after hostOps2_1 (StableHlo.after hostOps2 X)) (Proc.devRef .tc main_v21)
        : (⟨S27x200000x16, .f32⟩ : BufTy).Contents (Elt F))
      = takeTerm16 (X (Proc.devRef .tc main_v18)) (X (Proc.devRef .tc main_arg11)) := by
  refine (take2_out _ _ (take2_flat _)).trans ?_
  have h0 : StableHlo.after hostOps2 X (Proc.devRef .tc main_v18) = X (Proc.devRef .tc main_v18) := by
    unwritten hostOps2
  rw [take2_in, h0, take2_x]
  rfl

end Chain2

/-- On a table of valid row numbers no row is replaced, and entry `(k, r, ch)` is column `ch` of the row that the
    table's entry `(k, r)` names. -/
theorem takeTerm16_eq (x : S400000x16.Idx → EReal) (idx : S27x200000.Idx → BitVec 32) (hin : InRange idx) :
    takeTerm16 (F := Ideal) x idx = takeRows x idx := by
  funext i
  obtain ⟨k, r, z, rfl⟩ : ∃ (k : Fin 27) (r : Fin 200000) (z : Fin 16), i = ix3 k r z := ⟨i 0, i 1, i 2, eq_ix3 i⟩
  have hj : k.val * 200000 + r.val < 5400000 := by omega
  unfold takeTerm16 fillSel16
  refine (shapeCast_apply _ _ (ix3 k r z) (ix2 (⟨k.val * 200000 + r.val, hj⟩ : Fin 5400000) z) ?_).trans ?_
  · rw [Shape.rowMajor_val_two, Shape.rowMajor_val_three]
    rfl
  rw [select_apply]
  have hm : broadcastInDim S5400000x16 ![0] bcast_S5400000_S5400000x16_0 (maskRow (flatTable idx))
      (ix2 (⟨k.val * 200000 + r.val, hj⟩ : Fin 5400000) z) = 1#1 := by
    refine (broadcastInDim_apply _ _ _ _ (ix1 (⟨k.val * 200000 + r.val, hj⟩ : Fin 5400000)) ?_).trans
      (maskRow_apply _ (flatTable_range idx hin) _)
    intro a
    match a with
    | ⟨0, _⟩ => rfl
  rw [hm, select_one]
  refine (LibIndex.gather_row_apply_of (N := 400000) (C := 16) (R := 5400000) (by decide)
    gather_S400000x16_S5400000x1_S5400000x16_1_0_n_n_0_1_116 rfl rfl rfl rfl rfl rfl rfl x (wrapCol (flatTable idx))
    ⟨k.val * 200000 + r.val, hj⟩ z).trans ?_
  have e : wrapCol (flatTable idx) (ix2 (⟨k.val * 200000 + r.val, hj⟩ : Fin 5400000) (0 : Fin 1))
      = wrapWord (idx (ix2 k r)) := by
    rw [wrapCol_apply, flatTable_apply idx k r ⟨k.val * 200000 + r.val, hj⟩ rfl]
  refine congrArg (fun q : Fin 400000 => x (ix2 q z)) (Fin.ext ?_)
  show min (wrapCol (flatTable idx) (ix2 (⟨k.val * 200000 + r.val, hj⟩ : Fin 5400000) (0 : Fin 1))).toInt.toNat
    (400000 - 1) = min (wrapWord (idx (ix2 k r))).toInt.toNat 399999
  rw [e]

/-- The index table is written by no host operation and is no region's output: at region 1's exit it is as
    launched. -/
theorem W6_main_arg11 (c : Dev nD) :
    W6 m ρ c (Proc.devRef .tc main_arg11) = m ((c.tc : Thread nD τ).loc main_arg11) :=
  calc W6 m ρ c (Proc.devRef .tc main_arg11)
    _ = W5 m ρ c (Proc.devRef .tc main_arg11) := W6_of_ne m ρ c main_arg11 (by decide)
    _ = W4 m ρ c (Proc.devRef .tc main_arg11) := by unwritten hostOps1
    _ = W3 m ρ c (Proc.devRef .tc main_arg11) := W4_of_ne m ρ c main_arg11 (by decide)
    _ = W2 m ρ c (Proc.devRef .tc main_arg11) := by unwritten hostOps0_2
    _ = W1 m ρ c (Proc.devRef .tc main_arg11) := by unwritten hostOps0_1
    _ = W0 m ρ c (Proc.devRef .tc main_arg11) := by unwritten hostOps0
    _ = m ((c.tc : Thread nD τ).loc main_arg11) := rfl

/-- Likewise the second weight array. -/
theorem W6_main_arg6 (c : Dev nD) :
    W6 m ρ c (Proc.devRef .tc main_arg6) = m ((c.tc : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := by unwritten hostOps1
    _ = W3 m ρ c (Proc.devRef .tc main_arg6) := W4_of_ne m ρ c main_arg6 (by decide)
    _ = W2 m ρ c (Proc.devRef .tc main_arg6) := by unwritten hostOps0_2
    _ = W1 m ρ c (Proc.devRef .tc main_arg6) := by unwritten hostOps0_1
    _ = W0 m ρ c (Proc.devRef .tc main_arg6) := by unwritten hostOps0
    _ = m ((c.tc : Thread nD τ).loc main_arg6) := rfl

/-- Region 0 is entered with the gathered rows of the input `x`. -/
theorem host0_take (c : Dev nD) (hin : InRange (m ((c.tc : Thread nD τ).loc main_arg11))) :
    (V3 m ρ c main_v2 : S27x200000x1.Idx → EReal)
      = takeRows (m ((c.tc : Thread nD τ).loc main_arg0)) (m ((c.tc : Thread nD τ).loc main_arg11)) :=
  (take_term0 (W0 m ρ c)).trans (takeTerm1_eq _ _ hin)

/-- Region 0 is entered with the first weight array as launched. -/
theorem host0_w (c : Dev nD) : V3 m ρ c main_arg1 = m ((c.tc : Thread nD τ).loc main_arg1) :=
  calc W3 m ρ c (Proc.devRef .tc main_arg1)
    _ = W2 m ρ c (Proc.devRef .tc main_arg1) := by unwritten hostOps0_2
    _ = W1 m ρ c (Proc.devRef .tc main_arg1) := by unwritten hostOps0_1
    _ = W0 m ρ c (Proc.devRef .tc main_arg1) := by unwritten hostOps0
    _ = m ((c.tc : Thread nD τ).loc main_arg1) := rfl

/-- Region 2 is entered with the gathered rows of region 1's result. -/
theorem host2_take (c : Dev nD) (hin : InRange (m ((c.tc : Thread nD τ).loc main_arg11))) :
    (V9 m ρ c main_v21 : S27x200000x16.Idx → EReal)
      = takeRows (V6 m ρ c main_v18 : S400000x16.Idx → EReal) (m ((c.tc : Thread nD τ).loc main_arg11)) :=
  ((take_term2 (W6 m ρ c)).trans (congrArg (takeTerm16 (F := Ideal) _) (W6_main_arg11 m ρ c))).trans
    (takeTerm16_eq _ _ hin)

/-- Region 2 is entered with the second weight array as launched. -/
theorem host2_w (c : Dev nD) : V9 m ρ c main_arg6 = m ((c.tc : Thread nD τ).loc main_arg6) :=
  calc W9 m ρ c (Proc.devRef .tc main_arg6)
    _ = W8 m ρ c (Proc.devRef .tc main_arg6) := by unwritten hostOps2_2
    _ = W7 m ρ c (Proc.devRef .tc main_arg6) := by unwritten hostOps2_1
    _ = W6 m ρ c (Proc.devRef .tc main_arg6) := by unwritten hostOps2
    _ = m ((c.tc : Thread nD τ).loc main_arg6) := W6_main_arg6 m ρ c

end Cert.SparseConv.Kernel

end
-- ==== Proof.KHostScatter.lean ====
/-
  The host operations before each normalisation region of the kernel's program: the scatter-add of the products'
  rows into a zero array by the output index table (negative row numbers wrapped), and the four parameter vectors
  laid out as 1 × C rows.
-/
import proofs.«426714_j42949672960764_1_alg».proof.Proof.Gen.KernelIdeal.Frame
import proofs.«426714_j42949672960764_1_alg».proof.Proof.Spec
import Idealize.ShloMosaic.Lib.ValueLayout

set_option maxRecDepth 16384

noncomputable section

open scoped BigOperators

namespace Cert.SparseConv.Kernel

open Idealize.ShloMosaic Idealize.ShloMosaic.TcCoe Idealize.ShloMosaic.ValueIdx Idealize.SL.Sem
open Cert.KernelIdeal Cert.KernelIdeal.Gen Cert.SparseConv

/-- The scatter-add of the 16-channel products: the host operations' own term, as a function of the output index
    table and the products. -/
def scatter16 (oidx : IVec S27x200000 32) (y : S27x200000x16.Idx → EReal) : S400000x16.Idx → EReal :=
  Host.scatterAdd scatter_S400000x16_S5400000x1_S5400000x16_1_0_0_1
    (broadcastInDim S400000x16 ![] bcast_S_S400000x16 (constant (F := Ideal) S_ .f32 0x00000000#32))
    (broadcastInDim S5400000x1 ![0] bcast_S5400000_S5400000x1_0
      (select
        (cmpi .slt (shapeCast S5400000 oidx shapeCasts_S27x200000_S5400000)
          (broadcastInDim S5400000 ![] bcast_S_S5400000 (constantI S_ 32 0#32)))
        (addi (shapeCast S5400000 oidx shapeCasts_S27x200000_S5400000)
          (broadcastInDim S5400000 ![] bcast_S_S5400000 (constantI S_ 32 400000#32)))
        (shapeCast S5400000 oidx shapeCasts_S27x200000_S5400000)))
    (shapeCast S5400000x16 y shapeCasts_S27x200000x16_S5400000x16)

/-- The scatter-add of the 32-channel products. -/
def scatter32 (oidx : IVec S27x200000 32) (y : S27x200000x32.Idx → EReal) : S400000x32.Idx → EReal :=
  Host.scatterAdd scatter_S400000x32_S5400000x1_S5400000x32_1_0_0_1
    (broadcastInDim S400000x32 ![] bcast_S_S400000x32 (constant (F := Ideal) S_ .f32 0x00000000#32))
    (broadcastInDim S5400000x1 ![0] bcast_S5400000_S5400000x1_0
      (select
        (cmpi .slt (shapeCast S5400000 oidx shapeCasts_S27x200000_S5400000)
          (broadcastInDim S5400000 ![] bcast_S_S5400000 (constantI S_ 32 0#32)))
        (addi (shapeCast S5400000 oidx shapeCasts_S27x200000_S5400000)
          (broadcastInDim S5400000 ![] bcast_S_S5400000 (constantI S_ 32 400000#32)))
        (shapeCast S5400000 oidx shapeCasts_S27x200000_S5400000)))
    (shapeCast S5400000x32 y shapeCasts_S27x200000x32_S5400000x32)

variable (m : (ℓ : Loc nD τ sig) → Buf (Elt Ideal) ℓ) (ρ : Dev nD → PrngReg)

/-- One host stretch peeled off a reading of a buffer that none of its operations writes: the operations' written
    references are listed and each is a different reference. -/
local macro "peel_host" : tactic =>
  `(tactic| refine Eq.trans (StableHlo.after_of_forall_not_mem _ _ (List.forall_iff_forall_mem.mp (by
      simp only [hostOps0, hostOps0_1, hostOps0_2, hostOps1, hostOps2, hostOps2_1, hostOps2_2, hostOps3,
        List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide)))) ?_)

/-- A launched argument read at region 0's exit: region 0 does not write it, nor do the three stretches before. -/
local macro "launched_at_4" : tactic =>
  `(tactic| (refine (W4_of_ne _ _ _ _ (by decide)).trans ?_
             peel_host; peel_host; peel_host
             rfl))

/-- A launched argument read at region 2's exit: nothing from the launch to there writes it. -/
local macro "launched_at_10" : tactic =>
  `(tactic| (refine (W10_of_ne _ _ _ _ (by decide)).trans ?_
             peel_host; peel_host; peel_host
             refine (W6_of_ne _ _ _ _ (by decide)).trans ?_
             peel_host
             launched_at_4))

theorem W4_main_arg12 (c : Dev nD) :
    W4 m ρ c (Proc.devRef .tc main_arg12) = m ((c.tc : Thread nD τ).loc main_arg12) := by launched_at_4
theorem W4_main_arg2 (c : Dev nD) :
    W4 m ρ c (Proc.devRef .tc main_arg2) = m ((c.tc : Thread nD τ).loc main_arg2) := by launched_at_4
theorem W4_main_arg3 (c : Dev nD) :
    W4 m ρ c (Proc.devRef .tc main_arg3) = m ((c.tc : Thread nD τ).loc main_arg3) := by launched_at_4
theorem W4_main_arg4 (c : Dev nD) :
    W4 m ρ c (Proc.devRef .tc main_arg4) = m ((c.tc : Thread nD τ).loc main_arg4) := by launched_at_4
theorem W4_main_arg5 (c : Dev nD) :
    W4 m ρ c (Proc.devRef .tc main_arg5) = m ((c.tc : Thread nD τ).loc main_arg5) := by launched_at_4

theorem W10_main_arg12 (c : Dev nD) :
    W10 m ρ c (Proc.devRef .tc main_arg12) = m ((c.tc : Thread nD τ).loc main_arg12) := by launched_at_10
theorem W10_main_arg7 (c : Dev nD) :
    W10 m ρ c (Proc.devRef .tc main_arg7) = m ((c.tc : Thread nD τ).loc main_arg7) := by launched_at_10
theorem W10_main_arg8 (c : Dev nD) :
    W10 m ρ c (Proc.devRef .tc main_arg8) = m ((c.tc : Thread nD τ).loc main_arg8) := by launched_at_10
theorem W10_main_arg9 (c : Dev nD) :
    W10 m ρ c (Proc.devRef .tc main_arg9) = m ((c.tc : Thread nD τ).loc main_arg9) := by launched_at_10
theorem W10_main_arg10 (c : Dev nD) :
    W10 m ρ c (Proc.devRef .tc main_arg10) = m ((c.tc : Thread nD τ).loc main_arg10) := by launched_at_10

/-- Normalising by parameter rows that are the parameter vectors with a leading unit axis added is normalising by
    the vectors: the row's entry `(0, ch)` is the vector's entry `ch`. -/
theorem bnEluRow_shapeCast {C : Nat} (h : (⟨2, ![400000, C]⟩ : Shape).Idx → EReal)
    (g b mu v : (⟨1, ![C]⟩ : Shape).Idx → EReal) (hc : (⟨1, ![C]⟩ : Shape).ShapeCasts ⟨2, ![1, C]⟩) :
    bnEluRow h (shapeCast ⟨2, ![1, C]⟩ g hc) (shapeCast ⟨2, ![1, C]⟩ b hc) (shapeCast ⟨2, ![1, C]⟩ mu hc)
        (shapeCast ⟨2, ![1, C]⟩ v hc)
      = bnElu h g b mu v := by
  funext i
  have e (x : (⟨1, ![C]⟩ : Shape).Idx → EReal) :
      shapeCast ⟨2, ![1, C]⟩ x hc (ix2 (0 : Fin 1) (i 1)) = x (ix1 (i 1)) := shapeCast_a_1a_apply x hc 0 (i 1)
  show elu (bnAt (h i) _ _ _ _) = elu (bnAt (h i) _ _ _ _)
  rw [e g, e b, e mu, e v]

/-- What the host stretch before region 1 leaves in the scatter-add's result, from any contents `W`. -/
theorem hostOps1_main_v13 (W : Valuation τ sig (Elt Ideal)) :
    StableHlo.after hostOps1 W (Proc.devRef .tc main_v13)
      = scatter16 (W (Proc.devRef .tc main_arg12)) (W (Proc.devRef .tc main_v3)) := by
  unfold hostOps1
  after_results_simp
  rfl

/-- The four parameter rows the stretch leaves: each launched vector with a leading unit axis. -/
theorem hostOps1_main_v14 (W : Valuation τ sig (Elt Ideal)) :
    StableHlo.after hostOps1 W (Proc.devRef .tc main_v14)
      = shapeCast S1x16 (W (Proc.devRef .tc main_arg2)) shapeCasts_S16_S1x16 := by
  unfold hostOps1
  after_results_simp
  rfl
theorem hostOps1_main_v15 (W : Valuation τ sig (Elt Ideal)) :
    StableHlo.after hostOps1 W (Proc.devRef .tc main_v15)
      = shapeCast S1x16 (W (Proc.devRef .tc main_arg3)) shapeCasts_S16_S1x16 := by
  unfold hostOps1
  after_results_simp
  rfl
theorem hostOps1_main_v16 (W : Valuation τ sig (Elt Ideal)) :
    StableHlo.after hostOps1 W (Proc.devRef .tc main_v16)
      = shapeCast S1x16 (W (Proc.devRef .tc main_arg4)) shapeCasts_S16_S1x16 := by
  unfold hostOps1
  after_results_simp
  rfl
theorem hostOps1_main_v17 (W : Valuation τ sig (Elt Ideal)) :
    StableHlo.after hostOps1 W (Proc.devRef .tc main_v17)
      = shapeCast S1x16 (W (Proc.devRef .tc main_arg5)) shapeCasts_S16_S1x16 := by
  unfold hostOps1
  after_results_simp
  rfl

/-- Region 1 is entered with the scatter-add of region 0's result. -/
theorem host1_scatter (c : Dev nD) :
    (V5 m ρ c main_v13 : S400000x16.Idx → EReal)
      = scatter16 (m ((c.tc : Thread nD τ).loc main_arg12)) (V4 m ρ c main_v3 : S27x200000x16.Idx → EReal) := by
  refine (hostOps1_main_v13 (W4 m ρ c)).trans ?_
  rw [W4_main_arg12 m ρ c]

/-- Region 1's parameter rows are the launched parameter vectors: normalising by the rows is normalising by the
    vectors. -/
theorem host1_params (c : Dev nD) (h : S400000x16.Idx → EReal) :
    bnEluRow h (V5 m ρ c main_v14 : S1x16.Idx → EReal) (V5 m ρ c main_v15 : S1x16.Idx → EReal)
        (V5 m ρ c main_v16 : S1x16.Idx → EReal) (V5 m ρ c main_v17 : S1x16.Idx → EReal)
      = bnElu h (m ((c.tc : Thread nD τ).loc main_arg2)) (m ((c.tc : Thread nD τ).loc main_arg3))
          (m ((c.tc : Thread nD τ).loc main_arg4)) (m ((c.tc : Thread nD τ).loc main_arg5)) := by
  have e14 : (V5 m ρ c main_v14 : S1x16.Idx → EReal)
      = shapeCast S1x16 (m ((c.tc : Thread nD τ).loc main_arg2)) shapeCasts_S16_S1x16 :=
    (hostOps1_main_v14 (W4 m ρ c)).trans (by rw [W4_main_arg2 m ρ c])
  have e15 : (V5 m ρ c main_v15 : S1x16.Idx → EReal)
      = shapeCast S1x16 (m ((c.tc : Thread nD τ).loc main_arg3)) shapeCasts_S16_S1x16 :=
    (hostOps1_main_v15 (W4 m ρ c)).trans (by rw [W4_main_arg3 m ρ c])
  have e16 : (V5 m ρ c main_v16 : S1x16.Idx → EReal)
      = shapeCast S1x16 (m ((c.tc : Thread nD τ).loc main_arg4)) shapeCasts_S16_S1x16 :=
    (hostOps1_main_v16 (W4 m ρ c)).trans (by rw [W4_main_arg4 m ρ c])
  have e17 : (V5 m ρ c main_v17 : S1x16.Idx → EReal)
      = shapeCast S1x16 (m ((c.tc : Thread nD τ).loc main_arg5)) shapeCasts_S16_S1x16 :=
    (hostOps1_main_v17 (W4 m ρ c)).trans (by rw [W4_main_arg5 m ρ c])
  rw [e14, e15, e16, e17]
  exact bnEluRow_shapeCast h _ _ _ _ shapeCasts_S16_S1x16

/-- What the host stretch before region 3 leaves in the scatter-add's result, from any contents `W`. -/
theorem hostOps3_main_v32 (W : Valuation τ sig (Elt Ideal)) :
    StableHlo.after hostOps3 W (Proc.devRef .tc main_v32)
      = scatter32 (W (Proc.devRef .tc main_arg12)) (W (Proc.devRef .tc main_v22)) := by
  unfold hostOps3
  after_results_simp
  rfl

/-- The four parameter rows the stretch leaves: each launched vector with a leading unit axis. -/
theorem hostOps3_main_v33 (W : Valuation τ sig (Elt Ideal)) :
    StableHlo.after hostOps3 W (Proc.devRef .tc main_v33)
      = shapeCast S1x32 (W (Proc.devRef .tc main_arg7)) shapeCasts_S32_S1x32 := by
  unfold hostOps3
  after_results_simp
  rfl
theorem hostOps3_main_v34 (W : Valuation τ sig (Elt Ideal)) :
    StableHlo.after hostOps3 W (Proc.devRef .tc main_v34)
      = shapeCast S1x32 (W (Proc.devRef .tc main_arg8)) shapeCasts_S32_S1x32 := by
  unfold hostOps3
  after_results_simp
  rfl
theorem hostOps3_main_v35 (W : Valuation τ sig (Elt Ideal)) :
    StableHlo.after hostOps3 W (Proc.devRef .tc main_v35)
      = shapeCast S1x32 (W (Proc.devRef .tc main_arg9)) shapeCasts_S32_S1x32 := by
  unfold hostOps3
  after_results_simp
  rfl
theorem hostOps3_main_v36 (W : Valuation τ sig (Elt Ideal)) :
    StableHlo.after hostOps3 W (Proc.devRef .tc main_v36)
      = shapeCast S1x32 (W (Proc.devRef .tc main_arg10)) shapeCasts_S32_S1x32 := by
  unfold hostOps3
  after_results_simp
  rfl

/-- Region 3 is entered with the scatter-add of region 2's result. -/
theorem host3_scatter (c : Dev nD) :
    (V11 m ρ c main_v32 : S400000x32.Idx → EReal)
      = scatter32 (m ((c.tc : Thread nD τ).loc main_arg12)) (V10 m ρ c main_v22 : S27x200000x32.Idx → EReal) := by
  refine (hostOps3_main_v32 (W10 m ρ c)).trans ?_
  rw [W10_main_arg12 m ρ c]

/-- Region 3's parameter rows are the launched parameter vectors. -/
theorem host3_params (c : Dev nD) (h : S400000x32.Idx → EReal) :
    bnEluRow h (V11 m ρ c main_v33 : S1x32.Idx → EReal) (V11 m ρ c main_v34 : S1x32.Idx → EReal)
        (V11 m ρ c main_v35 : S1x32.Idx → EReal) (V11 m ρ c main_v36 : S1x32.Idx → EReal)
      = bnElu h (m ((c.tc : Thread nD τ).loc main_arg7)) (m ((c.tc : Thread nD τ).loc main_arg8))
          (m ((c.tc : Thread nD τ).loc main_arg9)) (m ((c.tc : Thread nD τ).loc main_arg10)) := by
  have e33 : (V11 m ρ c main_v33 : S1x32.Idx → EReal)
      = shapeCast S1x32 (m ((c.tc : Thread nD τ).loc main_arg7)) shapeCasts_S32_S1x32 :=
    (hostOps3_main_v33 (W10 m ρ c)).trans (by rw [W10_main_arg7 m ρ c])
  have e34 : (V11 m ρ c main_v34 : S1x32.Idx → EReal)
      = shapeCast S1x32 (m ((c.tc : Thread nD τ).loc main_arg8)) shapeCasts_S32_S1x32 :=
    (hostOps3_main_v34 (W10 m ρ c)).trans (by rw [W10_main_arg8 m ρ c])
  have e35 : (V11 m ρ c main_v35 : S1x32.Idx → EReal)
      = shapeCast S1x32 (m ((c.tc : Thread nD τ).loc main_arg9)) shapeCasts_S32_S1x32 :=
    (hostOps3_main_v35 (W10 m ρ c)).trans (by rw [W10_main_arg9 m ρ c])
  have e36 : (V11 m ρ c main_v36 : S1x32.Idx → EReal)
      = shapeCast S1x32 (m ((c.tc : Thread nD τ).loc main_arg10)) shapeCasts_S32_S1x32 :=
    (hostOps3_main_v36 (W10 m ρ c)).trans (by rw [W10_main_arg10 m ρ c])
  rw [e33, e34, e35, e36]
  exact bnEluRow_shapeCast h _ _ _ _ shapeCasts_S32_S1x32

end Cert.SparseConv.Kernel

end
-- ==== Proof.KernelValue.lean ====
/-
  The kernel program's result array, read as the specification's network of the launched arguments.

  The program runs twelve segments: the bounds-checked gather (three host stretches), the matrix-product region,
  the scatter-add and the parameter rows (one host stretch), the normalisation region, and the same four again on
  the first stage's result. Each segment's array is one whole-array function of the arrays the segment finds; the
  ten equations compose to the two-stage network of the specification, on a table of valid row numbers.
-/
import proofs.«426714_j42949672960764_1_alg».proof.Proof.KRegionMatmul
import proofs.«426714_j42949672960764_1_alg».proof.Proof.KRegionBnElu
import proofs.«426714_j42949672960764_1_alg».proof.Proof.KHostTake
import proofs.«426714_j42949672960764_1_alg».proof.Proof.KHostScatter

set_option maxRecDepth 16384

noncomputable section

open scoped BigOperators

namespace Cert.SparseConv.Kernel

open Idealize.ShloMosaic Idealize.ShloMosaic.TcCoe Idealize.ShloMosaic.ValueIdx Idealize.SL.Sem
open Cert.KernelIdeal Cert.KernelIdeal.Gen Cert.SparseConv

/-- The network assembled from its ten stage equations, over plain arrays: the second stage's normalisation of the
    scatter-add of the products of the rows gathered from the first stage's result, which is the same of the input. -/
theorem net_of_stages
    {Sc16 : (S27x200000x16.Idx → EReal) → (S400000x16.Idx → EReal)} {Sc32 : (S27x200000x32.Idx → EReal) → (S400000x32.Idx → EReal)}
    {x : S400000x1.Idx → EReal} {w1 : S27x1x16.Idx → EReal} {g1 b1 m1 v1 : S16.Idx → EReal} {w2 : S27x16x32.Idx → EReal}
    {g2 b2 m2 v2 : S32.Idx → EReal} {idx : IVec S27x200000 32}
    {A37 A32 : S400000x32.Idx → EReal} {A22 : S27x200000x32.Idx → EReal} {A21 : S27x200000x16.Idx → EReal}
    {B2 : S27x16x32.Idx → EReal} {A18 A13 : S400000x16.Idx → EReal} {A3 : S27x200000x16.Idx → EReal}
    {A2 : S27x200000x1.Idx → EReal} {B1 : S27x1x16.Idx → EReal}
    (e37 : A37 = bnElu A32 g2 b2 m2 v2) (e32 : A32 = Sc32 A22) (e22 : A22 = offsetMatmul A21 B2)
    (e21 : A21 = takeRows A18 idx) (eB2 : B2 = w2) (e18 : A18 = bnElu A13 g1 b1 m1 v1) (e13 : A13 = Sc16 A3)
    (e3 : A3 = offsetMatmul A2 B1) (e2 : A2 = takeRows x idx) (eB1 : B1 = w1) :
    A37 = net Sc16 Sc32 x w1 g1 b1 m1 v1 w2 g2 b2 m2 v2 idx := by
  subst eB1 e2 e3 e13 e18 eB2 e21 e22 e32 e37
  rfl

variable (m : (ℓ : Loc nD τ sig) → Buf (Elt Ideal) ℓ) (ρ : Dev nD → PrngReg)

/-- The result array at the last segment boundary is the specification's network of the launched arguments, when
    the input index table holds valid row numbers. Each region's result is what its write-backs leave (the frame's
    boundary contents), read by the region's whole-array function at the entry contents the host stretch before it
    leaves. -/
theorem kernel_value (c : Dev nD) (hin : InRange (m ((c.tc : Thread nD τ).loc main_arg11))) :
    (W12 m ρ c (Proc.devRef .tc main_v37) : S400000x32.Idx → EReal)
      = net (scatter16 (m ((c.tc : Thread nD τ).loc main_arg12))) (scatter32 (m ((c.tc : Thread nD τ).loc main_arg12))) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) :=
  net_of_stages
    (((hF3 m ρ c 5).symm.trans (region3_value (V11 m ρ) c)).trans (host3_params m ρ c _))
    (host3_scatter m ρ c)
    ((hF2 m ρ c 2).symm.trans (region2_value (V9 m ρ) c))
    (host2_take m ρ c hin) (host2_w m ρ c)
    (((hF1 m ρ c 5).symm.trans (region1_value (V5 m ρ) c)).trans (host1_params m ρ c _))
    (host1_scatter m ρ c)
    ((hF0 m ρ c 2).symm.trans (region0_value (V3 m ρ) c))
    (host0_take m ρ c hin) (host0_w m ρ c)

end Cert.SparseConv.Kernel

end
-- ==== Proof.RefTerm.lean ====
/-
  The reference program's own term, stage by stage, over the extended reals.

  Each definition is the literal composition of the host operations the reference prints for one stage of the
  sparse convolution: the wrapped index table and its gather of rows, the product per offset, the scatter-add of
  the products' rows, the batch normalisation, and the ELU the program outlines. `refOut` is their composition in
  the thirteen arguments: what the result array holds after the run.
-/
import proofs.«426714_j42949672960764_1_alg».proof.Proof.Gen.ReferenceIdeal
import Idealize.ShloMosaic.PureOps.Ideal

noncomputable section

namespace Cert.SparseConv.Reference

open Idealize.ShloMosaic Cert.ReferenceIdeal
open Cert.ReferenceIdeal.Facts₀

/-! ## The index tables -/

/-- The gather's index table with NumPy's wrap: a negative entry has 400000 added (compare with the zero table,
    add the table of 400000, select). -/
def wrapTable (idx : IVec S27x200000 32) : IVec S27x200000 32 :=
  select (cmpi .slt idx (broadcastInDim S27x200000 ![] bcast_S_S27x200000 (constantI S_ 32 0#32)))
    (addi idx (broadcastInDim S27x200000 ![] bcast_S_S27x200000 (constantI S_ 32 400000#32))) idx

/-- The gather's start indices: the wrapped table with a trailing axis of one. -/
def startIdx (idx : IVec S27x200000 32) : IVec S27x200000x1 32 :=
  broadcastInDim S27x200000x1 ![0, 1] bcast_S27x200000_S27x200000x1_0_1 (wrapTable idx)

/-- The scatter's index table flattened to 5400000 entries, with the same wrap. -/
def wrapFlat (oidx : IVec S27x200000 32) : IVec S5400000 32 :=
  select
    (cmpi .slt (shapeCast S5400000 oidx shapeCasts_S27x200000_S5400000)
      (broadcastInDim S5400000 ![] bcast_S_S5400000 (constantI S_ 32 0#32)))
    (addi (shapeCast S5400000 oidx shapeCasts_S27x200000_S5400000)
      (broadcastInDim S5400000 ![] bcast_S_S5400000 (constantI S_ 32 400000#32)))
    (shapeCast S5400000 oidx shapeCasts_S27x200000_S5400000)

/-- The scatter's indices: the wrapped flat table with a trailing axis of one. -/
def scatterIdx (oidx : IVec S27x200000 32) : IVec S5400000x1 32 :=
  broadcastInDim S5400000x1 ![0] bcast_S5400000_S5400000x1_0 (wrapFlat oidx)

/-! ## The first stage: one channel in, sixteen out -/

/-- The rows of `x` the start indices name. -/
def gather1 (x : S400000x1.Idx → EReal) (idx : IVec S27x200000 32) : S27x200000x1.Idx → EReal :=
  Host.gather gather_S400000x1_S27x200000x1_S27x200000x1_2_0_n_n_0_2_11 x (startIdx idx)

/-- The gathered rows times the weight matrix of their offset. -/
def dot1 (xg : S27x200000x1.Idx → EReal) (w1 : S27x1x16.Idx → EReal) : S27x200000x16.Idx → EReal :=
  Host.dotGeneral (F := Ideal) (φ₁ := .f32) (φ₂ := .f32) dot_S27x200000x1_S27x1x16_S27x200000x16_2_1_1_2_0_0 none xg w1

/-- The scatter-add of the products' rows into a zero array of 400000 rows of sixteen: the zero array, the wrapped
    flat index table, the products flattened to 5400000 rows. -/
def scatter16 (oidx : IVec S27x200000 32) (y : S27x200000x16.Idx → EReal) : S400000x16.Idx → EReal :=
  Host.scatterAdd (F := Ideal) (φ := .f32) scatter_S400000x16_S5400000x1_S5400000x16_1_0_0_1
    (broadcastInDim S400000x16 ![] bcast_S_S400000x16 (constant (F := Ideal) S_ .f32 0x00000000#32))
    (scatterIdx oidx)
    (shapeCast S5400000x16 y shapeCasts_S27x200000x16_S5400000x16)

/-- The scale of the normalisation per channel: `γ · rsqrt(σ² + ε)`. -/
def scale16 (g v : S16.Idx → EReal) : S16.Idx → EReal :=
  mulf (F := Ideal) (φ := .f32) g (Host.rsqrt (F := Ideal) (φ := .f32)
    (addf (F := Ideal) (φ := .f32) v (broadcastInDim S16 ![] bcast_S_S16 (constant (F := Ideal) S_ .f32 0x3727C5AC#32))))

/-- A vector of sixteen channel parameters laid over the 400000 rows. -/
def rows16 (p : S16.Idx → EReal) : S400000x16.Idx → EReal :=
  broadcastInDim S400000x16 ![0, 1] bcast_S1x16_S400000x16_0_1 (broadcastInDim S1x16 ![1] bcast_S16_S1x16_1 p)

/-- The normalisation: `(h − μ) · scale + β`, entry by entry. -/
def bn16 (h : S400000x16.Idx → EReal) (g b mu v : S16.Idx → EReal) : S400000x16.Idx → EReal :=
  addf (F := Ideal) (φ := .f32) (mulf (F := Ideal) (φ := .f32) (subf (F := Ideal) (φ := .f32) h (rows16 mu)) (rows16 (scale16 g v))) (rows16 b)

/-- The outlined ELU: where `z > 0` it is `z`, elsewhere one times `expm1` of `z` with its positive entries
    replaced by zero. -/
def elu16 (z : S400000x16.Idx → EReal) : S400000x16.Idx → EReal :=
  select
    (cmpf (F := Ideal) (φ := .f32) .ogt z (broadcastInDim S400000x16 ![] bcast_S_S400000x16 (constant (F := Ideal) S_ .f32 0x00000000#32)))
    z
    (mulf (F := Ideal) (φ := .f32)
      (broadcastInDim S400000x16 ![] bcast_S_S400000x16 (constant (F := Ideal) S_ .f32 0x3F800000#32))
      (Host.expm1 (F := Ideal) (φ := .f32)
        (select
          (cmpf (F := Ideal) (φ := .f32) .ogt z
            (broadcastInDim S400000x16 ![] bcast_S_S400000x16 (constant (F := Ideal) S_ .f32 0x00000000#32)))
          (broadcastInDim S400000x16 ![] bcast_S_S400000x16 (id (constant (F := Ideal) S_ .f32 0x00000000#32)))
          z)))

/-- The first stage: gather, product, scatter-add, normalisation, ELU. -/
def stage1 (x : S400000x1.Idx → EReal) (w1 : S27x1x16.Idx → EReal) (g1 b1 m1 v1 : S16.Idx → EReal)
    (idx oidx : IVec S27x200000 32) : S400000x16.Idx → EReal :=
  elu16 (bn16 (scatter16 oidx (dot1 (gather1 x idx) w1)) g1 b1 m1 v1)

/-! ## The second stage: sixteen channels in, thirty-two out -/

/-- The rows of the first stage's result the start indices name. -/
def gather2 (h : S400000x16.Idx → EReal) (idx : IVec S27x200000 32) : S27x200000x16.Idx → EReal :=
  Host.gather gather_S400000x16_S27x200000x1_S27x200000x16_2_0_n_n_0_2_116 h (startIdx idx)

/-- The gathered rows times the weight matrix of their offset. -/
def dot2 (hg : S27x200000x16.Idx → EReal) (w2 : S27x16x32.Idx → EReal) : S27x200000x32.Idx → EReal :=
  Host.dotGeneral (F := Ideal) (φ₁ := .f32) (φ₂ := .f32) dot_S27x200000x16_S27x16x32_S27x200000x32_2_1_1_2_0_0 none hg w2

/-- The scatter-add of the products' rows into a zero array of 400000 rows of thirty-two. -/
def scatter32 (oidx : IVec S27x200000 32) (y : S27x200000x32.Idx → EReal) : S400000x32.Idx → EReal :=
  Host.scatterAdd (F := Ideal) (φ := .f32) scatter_S400000x32_S5400000x1_S5400000x32_1_0_0_1
    (broadcastInDim S400000x32 ![] bcast_S_S400000x32 (constant (F := Ideal) S_ .f32 0x00000000#32))
    (scatterIdx oidx)
    (shapeCast S5400000x32 y shapeCasts_S27x200000x32_S5400000x32)

/-- The scale of the normalisation per channel. -/
def scale32 (g v : S32.Idx → EReal) : S32.Idx → EReal :=
  mulf (F := Ideal) (φ := .f32) g (Host.rsqrt (F := Ideal) (φ := .f32)
    (addf (F := Ideal) (φ := .f32) v (broadcastInDim S32 ![] bcast_S_S32 (constant (F := Ideal) S_ .f32 0x3727C5AC#32))))

/-- A vector of thirty-two channel parameters laid over the 400000 rows. -/
def rows32 (p : S32.Idx → EReal) : S400000x32.Idx → EReal :=
  broadcastInDim S400000x32 ![0, 1] bcast_S1x32_S400000x32_0_1 (broadcastInDim S1x32 ![1] bcast_S32_S1x32_1 p)

/-- The normalisation: `(h − μ) · scale + β`, entry by entry. -/
def bn32 (h : S400000x32.Idx → EReal) (g b mu v : S32.Idx → EReal) : S400000x32.Idx → EReal :=
  addf (F := Ideal) (φ := .f32) (mulf (F := Ideal) (φ := .f32) (subf (F := Ideal) (φ := .f32) h (rows32 mu)) (rows32 (scale32 g v))) (rows32 b)

/-- The outlined ELU at thirty-two channels. -/
def elu32 (z : S400000x32.Idx → EReal) : S400000x32.Idx → EReal :=
  select
    (cmpf (F := Ideal) (φ := .f32) .ogt z (broadcastInDim S400000x32 ![] bcast_S_S400000x32 (constant (F := Ideal) S_ .f32 0x00000000#32)))
    z
    (mulf (F := Ideal) (φ := .f32)
      (broadcastInDim S400000x32 ![] bcast_S_S400000x32 (constant (F := Ideal) S_ .f32 0x3F800000#32))
      (Host.expm1 (F := Ideal) (φ := .f32)
        (select
          (cmpf (F := Ideal) (φ := .f32) .ogt z
            (broadcastInDim S400000x32 ![] bcast_S_S400000x32 (constant (F := Ideal) S_ .f32 0x00000000#32)))
          (broadcastInDim S400000x32 ![] bcast_S_S400000x32 (id (constant (F := Ideal) S_ .f32 0x00000000#32)))
          z)))

/-- The second stage on the first stage's result. -/
def stage2 (h : S400000x16.Idx → EReal) (w2 : S27x16x32.Idx → EReal) (g2 b2 m2 v2 : S32.Idx → EReal)
    (idx oidx : IVec S27x200000 32) : S400000x32.Idx → EReal :=
  elu32 (bn32 (scatter32 oidx (dot2 (gather2 h idx) w2)) g2 b2 m2 v2)

/-! ## The whole program -/

/-- What the reference's result array holds, in its thirteen arguments. -/
def refOut (x : S400000x1.Idx → EReal) (w1 : S27x1x16.Idx → EReal) (g1 b1 m1 v1 : S16.Idx → EReal)
    (w2 : S27x16x32.Idx → EReal) (g2 b2 m2 v2 : S32.Idx → EReal) (idx oidx : IVec S27x200000 32) :
    S400000x32.Idx → EReal :=
  stage2 (stage1 x w1 g1 b1 m1 v1 idx oidx) w2 g2 b2 m2 v2 idx oidx

end Cert.SparseConv.Reference

end
-- ==== Proof.RefRun.lean ====
/-
  The reference program's run.

  The program's @main, with the outlined ELU and the two selects it calls unfolded at their call sites, is one
  straight line of 104 host operations. Run from any memory with zero counters, every weakly fair execution
  terminates; the result array then holds the operations' composed term of the thirteen arguments, which is
  `refOut`, and the arguments are as launched. The line is read in eight pieces, one per stage of the term
  (gather and product, scatter-add, normalisation, ELU, twice): each piece leaves its stage's function of what it
  reads in its result array and keeps the thirteen arguments.
-/
import proofs.«426714_j42949672960764_1_alg».proof.Proof.RefTerm
import Idealize.ShloMosaic.Lib.StableHlo.Run

noncomputable section

namespace Cert.SparseConv.Reference

open Idealize.ShloMosaic Idealize.ShloMosaic.TcCoe Idealize.SL.Sem Idealize.ShloMosaic.StableHlo
open Cert.ReferenceIdeal
open Cert.ReferenceIdeal.Facts₀

section Line

variable {F : FTy → Type} [FloatOps F]

/-- @main's 104 operations in order, the calls unfolded: the first stage's 37, the ELU's 15 (its two compares with
    zero, the inner select of zero against the argument, `expm1`, the product with one, the outer select), the second
    stage's 37 and its ELU's 15. -/
abbrev ops : List (HloOp τ sig (Elt F)) :=
  [ nullary main_c (constantI S_ 32 0#32),
    unary main_c main_v0 (broadcastInDim S27x200000 ![] bcast_S_S27x200000 : (⟨S_, .i32⟩ : BufTy).Contents (Elt F) → (⟨S27x200000, .i32⟩ : BufTy).Contents (Elt F)),
    binary main_arg11 main_v0 main_v1 (cmpi .slt : (⟨S27x200000, .i32⟩ : BufTy).Contents (Elt F) → (⟨S27x200000, .i32⟩ : BufTy).Contents (Elt F) → (⟨S27x200000, .i1⟩ : BufTy).Contents (Elt F)),
    nullary main_c_0 (constantI S_ 32 400000#32),
    unary main_c_0 main_v2 (broadcastInDim S27x200000 ![] bcast_S_S27x200000 : (⟨S_, .i32⟩ : BufTy).Contents (Elt F) → (⟨S27x200000, .i32⟩ : BufTy).Contents (Elt F)),
    binary main_arg11 main_v2 main_v3 (addi : (⟨S27x200000, .i32⟩ : BufTy).Contents (Elt F) → (⟨S27x200000, .i32⟩ : BufTy).Contents (Elt F) → (⟨S27x200000, .i32⟩ : BufTy).Contents (Elt F)),
    ternary main_v1 main_v3 main_arg11 main_v4 (select : (⟨S27x200000, .i1⟩ : BufTy).Contents (Elt F) → (⟨S27x200000, .i32⟩ : BufTy).Contents (Elt F) → (⟨S27x200000, .i32⟩ : BufTy).Contents (Elt F) → (⟨S27x200000, .i32⟩ : BufTy).Contents (Elt F)),
    unary main_v4 main_v5 (broadcastInDim S27x200000x1 ![0, 1] bcast_S27x200000_S27x200000x1_0_1 : (⟨S27x200000, .i32⟩ : BufTy).Contents (Elt F) → (⟨S27x200000x1, .i32⟩ : BufTy).Contents (Elt F)),
    binary main_arg0 main_v5 main_v6 ((fun x i => Host.gather gather_S400000x1_S27x200000x1_S27x200000x1_2_0_n_n_0_2_11 x i) : (⟨S400000x1, .f32⟩ : BufTy).Contents (Elt F) → (⟨S27x200000x1, .i32⟩ : BufTy).Contents (Elt F) → (⟨S27x200000x1, .f32⟩ : BufTy).Contents (Elt F)),
    binary main_v6 main_arg1 main_v7 ((fun l r => Host.dotGeneral dot_S27x200000x1_S27x1x16_S27x200000x16_2_1_1_2_0_0 none l r) : (⟨S27x200000x1, .f32⟩ : BufTy).Contents (Elt F) → (⟨S27x1x16, .f32⟩ : BufTy).Contents (Elt F) → (⟨S27x200000x16, .f32⟩ : BufTy).Contents (Elt F)),
    nullary main_cst (constant S_ .f32 0x00000000#32),
    unary main_cst main_v8 (broadcastInDim S400000x16 ![] bcast_S_S400000x16 : (⟨S_, .f32⟩ : BufTy).Contents (Elt F) → (⟨S400000x16, .f32⟩ : BufTy).Contents (Elt F)),
    reshape main_arg12 main_v9 rfl shapeCasts_S27x200000_S5400000,
    reshape main_v7 main_v10 rfl shapeCasts_S27x200000x16_S5400000x16,
    nullary main_c_1 (constantI S_ 32 0#32),
    unary main_c_1 main_v11 (broadcastInDim S5400000 ![] bcast_S_S5400000 : (⟨S_, .i32⟩ : BufTy).Contents (Elt F) → (⟨S5400000, .i32⟩ : BufTy).Contents (Elt F)),
    binary main_v9 main_v11 main_v12 (cmpi .slt : (⟨S5400000, .i32⟩ : BufTy).Contents (Elt F) → (⟨S5400000, .i32⟩ : BufTy).Contents (Elt F) → (⟨S5400000, .i1⟩ : BufTy).Contents (Elt F)),
    nullary main_c_2 (constantI S_ 32 400000#32),
    unary main_c_2 main_v13 (broadcastInDim S5400000 ![] bcast_S_S5400000 : (⟨S_, .i32⟩ : BufTy).Contents (Elt F) → (⟨S5400000, .i32⟩ : BufTy).Contents (Elt F)),
    binary main_v9 main_v13 main_v14 (addi : (⟨S5400000, .i32⟩ : BufTy).Contents (Elt F) → (⟨S5400000, .i32⟩ : BufTy).Contents (Elt F) → (⟨S5400000, .i32⟩ : BufTy).Contents (Elt F)),
    ternary main_v12 main_v14 main_v9 main_v15 (select : (⟨S5400000, .i1⟩ : BufTy).Contents (Elt F) → (⟨S5400000, .i32⟩ : BufTy).Contents (Elt F) → (⟨S5400000, .i32⟩ : BufTy).Contents (Elt F) → (⟨S5400000, .i32⟩ : BufTy).Contents (Elt F)),
    unary main_v15 main_v16 (broadcastInDim S5400000x1 ![0] bcast_S5400000_S5400000x1_0 : (⟨S5400000, .i32⟩ : BufTy).Contents (Elt F) → (⟨S5400000x1, .i32⟩ : BufTy).Contents (Elt F)),
    ternary main_v8 main_v16 main_v10 main_v17 ((fun x i u => Host.scatterAdd scatter_S400000x16_S5400000x1_S5400000x16_1_0_0_1 x i u) : (⟨S400000x16, .f32⟩ : BufTy).Contents (Elt F) → (⟨S5400000x1, .i32⟩ : BufTy).Contents (Elt F) → (⟨S5400000x16, .f32⟩ : BufTy).Contents (Elt F) → (⟨S400000x16, .f32⟩ : BufTy).Contents (Elt F)),
    nullary main_cst_3 (constant S_ .f32 0x3727C5AC#32),
    unary main_cst_3 main_v18 (broadcastInDim S16 ![] bcast_S_S16 : (⟨S_, .f32⟩ : BufTy).Contents (Elt F) → (⟨S16, .f32⟩ : BufTy).Contents (Elt F)),
    binary main_arg5 main_v18 main_v19 (addf : (⟨S16, .f32⟩ : BufTy).Contents (Elt F) → (⟨S16, .f32⟩ : BufTy).Contents (Elt F) → (⟨S16, .f32⟩ : BufTy).Contents (Elt F)),
    unary main_v19 main_v20 (Host.rsqrt : (⟨S16, .f32⟩ : BufTy).Contents (Elt F) → (⟨S16, .f32⟩ : BufTy).Contents (Elt F)),
    binary main_arg2 main_v20 main_v21 (mulf : (⟨S16, .f32⟩ : BufTy).Contents (Elt F) → (⟨S16, .f32⟩ : BufTy).Contents (Elt F) → (⟨S16, .f32⟩ : BufTy).Contents (Elt F)),
    unary main_arg4 main_v22 (broadcastInDim S1x16 ![1] bcast_S16_S1x16_1 : (⟨S16, .f32⟩ : BufTy).Contents (Elt F) → (⟨S1x16, .f32⟩ : BufTy).Contents (Elt F)),
    unary main_v22 main_v23 (broadcastInDim S400000x16 ![0, 1] bcast_S1x16_S400000x16_0_1 : (⟨S1x16, .f32⟩ : BufTy).Contents (Elt F) → (⟨S400000x16, .f32⟩ : BufTy).Contents (Elt F)),
    binary main_v17 main_v23 main_v24 (subf : (⟨S400000x16, .f32⟩ : BufTy).Contents (Elt F) → (⟨S400000x16, .f32⟩ : BufTy).Contents (Elt F) → (⟨S400000x16, .f32⟩ : BufTy).Contents (Elt F)),
    unary main_v21 main_v25 (broadcastInDim S1x16 ![1] bcast_S16_S1x16_1 : (⟨S16, .f32⟩ : BufTy).Contents (Elt F) → (⟨S1x16, .f32⟩ : BufTy).Contents (Elt F)),
    unary main_v25 main_v26 (broadcastInDim S400000x16 ![0, 1] bcast_S1x16_S400000x16_0_1 : (⟨S1x16, .f32⟩ : BufTy).Contents (Elt F) → (⟨S400000x16, .f32⟩ : BufTy).Contents (Elt F)),
    binary main_v24 main_v26 main_v27 (mulf : (⟨S400000x16, .f32⟩ : BufTy).Contents (Elt F) → (⟨S400000x16, .f32⟩ : BufTy).Contents (Elt F) → (⟨S400000x16, .f32⟩ : BufTy).Contents (Elt F)),
    unary main_arg3 main_v28 (broadcastInDim S1x16 ![1] bcast_S16_S1x16_1 : (⟨S16, .f32⟩ : BufTy).Contents (Elt F) → (⟨S1x16, .f32⟩ : BufTy).Contents (Elt F)),
    unary main_v28 main_v29 (broadcastInDim S400000x16 ![0, 1] bcast_S1x16_S400000x16_0_1 : (⟨S1x16, .f32⟩ : BufTy).Contents (Elt F) → (⟨S400000x16, .f32⟩ : BufTy).Contents (Elt F)),
    binary main_v27 main_v29 main_v30 (addf : (⟨S400000x16, .f32⟩ : BufTy).Contents (Elt F) → (⟨S400000x16, .f32⟩ : BufTy).Contents (Elt F) → (⟨S400000x16, .f32⟩ : BufTy).Contents (Elt F)),
    TRef.nullary main_call0.cst (constant S_ .f32 0x00000000#32),
    TRef.unary main_call0.cst main_call0.v0 (broadcastInDim S400000x16 ![] bcast_S_S400000x16),
    TRef.binary (.of main_v30 : TRef sig ⟨S400000x16, .f32⟩) main_call0.v0 main_call0.v1 (cmpf .ogt),
    TRef.nullary main_call0.cst_0 (constant S_ .f32 0x00000000#32),
    TRef.unary main_call0.cst_0 main_call0.v2 (broadcastInDim S400000x16 ![] bcast_S_S400000x16),
    TRef.binary (.of main_v30 : TRef sig ⟨S400000x16, .f32⟩) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S400000x16 ![] bcast_S_S400000x16),
    TRef.ternary main_call0.v3 main_call0.call0.v1 (.of main_v30 : TRef sig ⟨S400000x16, .f32⟩) main_call0.call0.v2 select,
    TRef.unary main_call0.call0.v2 main_call0.v5 Host.expm1,
    TRef.nullary main_call0.cst_2 (constant S_ .f32 0x3F800000#32),
    TRef.unary main_call0.cst_2 main_call0.v6 (broadcastInDim S400000x16 ![] bcast_S_S400000x16),
    TRef.binary main_call0.v6 main_call0.v5 main_call0.v7 mulf,
    TRef.ternary main_call0.v1 (.of main_v30 : TRef sig ⟨S400000x16, .f32⟩) main_call0.v7 main_call0.call1.v0 select,
    nullary main_c_4 (constantI S_ 32 0#32),
    unary main_c_4 main_v32 (broadcastInDim S27x200000 ![] bcast_S_S27x200000 : (⟨S_, .i32⟩ : BufTy).Contents (Elt F) → (⟨S27x200000, .i32⟩ : BufTy).Contents (Elt F)),
    binary main_arg11 main_v32 main_v33 (cmpi .slt : (⟨S27x200000, .i32⟩ : BufTy).Contents (Elt F) → (⟨S27x200000, .i32⟩ : BufTy).Contents (Elt F) → (⟨S27x200000, .i1⟩ : BufTy).Contents (Elt F)),
    nullary main_c_5 (constantI S_ 32 400000#32),
    unary main_c_5 main_v34 (broadcastInDim S27x200000 ![] bcast_S_S27x200000 : (⟨S_, .i32⟩ : BufTy).Contents (Elt F) → (⟨S27x200000, .i32⟩ : BufTy).Contents (Elt F)),
    binary main_arg11 main_v34 main_v35 (addi : (⟨S27x200000, .i32⟩ : BufTy).Contents (Elt F) → (⟨S27x200000, .i32⟩ : BufTy).Contents (Elt F) → (⟨S27x200000, .i32⟩ : BufTy).Contents (Elt F)),
    ternary main_v33 main_v35 main_arg11 main_v36 (select : (⟨S27x200000, .i1⟩ : BufTy).Contents (Elt F) → (⟨S27x200000, .i32⟩ : BufTy).Contents (Elt F) → (⟨S27x200000, .i32⟩ : BufTy).Contents (Elt F) → (⟨S27x200000, .i32⟩ : BufTy).Contents (Elt F)),
    unary main_v36 main_v37 (broadcastInDim S27x200000x1 ![0, 1] bcast_S27x200000_S27x200000x1_0_1 : (⟨S27x200000, .i32⟩ : BufTy).Contents (Elt F) → (⟨S27x200000x1, .i32⟩ : BufTy).Contents (Elt F)),
    binary main_v31 main_v37 main_v38 ((fun x i => Host.gather gather_S400000x16_S27x200000x1_S27x200000x16_2_0_n_n_0_2_116 x i) : (⟨S400000x16, .f32⟩ : BufTy).Contents (Elt F) → (⟨S27x200000x1, .i32⟩ : BufTy).Contents (Elt F) → (⟨S27x200000x16, .f32⟩ : BufTy).Contents (Elt F)),
    binary main_v38 main_arg6 main_v39 ((fun l r => Host.dotGeneral dot_S27x200000x16_S27x16x32_S27x200000x32_2_1_1_2_0_0 none l r) : (⟨S27x200000x16, .f32⟩ : BufTy).Contents (Elt F) → (⟨S27x16x32, .f32⟩ : BufTy).Contents (Elt F) → (⟨S27x200000x32, .f32⟩ : BufTy).Contents (Elt F)),
    nullary main_cst_6 (constant S_ .f32 0x00000000#32),
    unary main_cst_6 main_v40 (broadcastInDim S400000x32 ![] bcast_S_S400000x32 : (⟨S_, .f32⟩ : BufTy).Contents (Elt F) → (⟨S400000x32, .f32⟩ : BufTy).Contents (Elt F)),
    reshape main_arg12 main_v41 rfl shapeCasts_S27x200000_S5400000,
    reshape main_v39 main_v42 rfl shapeCasts_S27x200000x32_S5400000x32,
    nullary main_c_7 (constantI S_ 32 0#32),
    unary main_c_7 main_v43 (broadcastInDim S5400000 ![] bcast_S_S5400000 : (⟨S_, .i32⟩ : BufTy).Contents (Elt F) → (⟨S5400000, .i32⟩ : BufTy).Contents (Elt F)),
    binary main_v41 main_v43 main_v44 (cmpi .slt : (⟨S5400000, .i32⟩ : BufTy).Contents (Elt F) → (⟨S5400000, .i32⟩ : BufTy).Contents (Elt F) → (⟨S5400000, .i1⟩ : BufTy).Contents (Elt F)),
    nullary main_c_8 (constantI S_ 32 400000#32),
    unary main_c_8 main_v45 (broadcastInDim S5400000 ![] bcast_S_S5400000 : (⟨S_, .i32⟩ : BufTy).Contents (Elt F) → (⟨S5400000, .i32⟩ : BufTy).Contents (Elt F)),
    binary main_v41 main_v45 main_v46 (addi : (⟨S5400000, .i32⟩ : BufTy).Contents (Elt F) → (⟨S5400000, .i32⟩ : BufTy).Contents (Elt F) → (⟨S5400000, .i32⟩ : BufTy).Contents (Elt F)),
    ternary main_v44 main_v46 main_v41 main_v47 (select : (⟨S5400000, .i1⟩ : BufTy).Contents (Elt F) → (⟨S5400000, .i32⟩ : BufTy).Contents (Elt F) → (⟨S5400000, .i32⟩ : BufTy).Contents (Elt F) → (⟨S5400000, .i32⟩ : BufTy).Contents (Elt F)),
    unary main_v47 main_v48 (broadcastInDim S5400000x1 ![0] bcast_S5400000_S5400000x1_0 : (⟨S5400000, .i32⟩ : BufTy).Contents (Elt F) → (⟨S5400000x1, .i32⟩ : BufTy).Contents (Elt F)),
    ternary main_v40 main_v48 main_v42 main_v49 ((fun x i u => Host.scatterAdd scatter_S400000x32_S5400000x1_S5400000x32_1_0_0_1 x i u) : (⟨S400000x32, .f32⟩ : BufTy).Contents (Elt F) → (⟨S5400000x1, .i32⟩ : BufTy).Contents (Elt F) → (⟨S5400000x32, .f32⟩ : BufTy).Contents (Elt F) → (⟨S400000x32, .f32⟩ : BufTy).Contents (Elt F)),
    nullary main_cst_9 (constant S_ .f32 0x3727C5AC#32),
    unary main_cst_9 main_v50 (broadcastInDim S32 ![] bcast_S_S32 : (⟨S_, .f32⟩ : BufTy).Contents (Elt F) → (⟨S32, .f32⟩ : BufTy).Contents (Elt F)),
    binary main_arg10 main_v50 main_v51 (addf : (⟨S32, .f32⟩ : BufTy).Contents (Elt F) → (⟨S32, .f32⟩ : BufTy).Contents (Elt F) → (⟨S32, .f32⟩ : BufTy).Contents (Elt F)),
    unary main_v51 main_v52 (Host.rsqrt : (⟨S32, .f32⟩ : BufTy).Contents (Elt F) → (⟨S32, .f32⟩ : BufTy).Contents (Elt F)),
    binary main_arg7 main_v52 main_v53 (mulf : (⟨S32, .f32⟩ : BufTy).Contents (Elt F) → (⟨S32, .f32⟩ : BufTy).Contents (Elt F) → (⟨S32, .f32⟩ : BufTy).Contents (Elt F)),
    unary main_arg9 main_v54 (broadcastInDim S1x32 ![1] bcast_S32_S1x32_1 : (⟨S32, .f32⟩ : BufTy).Contents (Elt F) → (⟨S1x32, .f32⟩ : BufTy).Contents (Elt F)),
    unary main_v54 main_v55 (broadcastInDim S400000x32 ![0, 1] bcast_S1x32_S400000x32_0_1 : (⟨S1x32, .f32⟩ : BufTy).Contents (Elt F) → (⟨S400000x32, .f32⟩ : BufTy).Contents (Elt F)),
    binary main_v49 main_v55 main_v56 (subf : (⟨S400000x32, .f32⟩ : BufTy).Contents (Elt F) → (⟨S400000x32, .f32⟩ : BufTy).Contents (Elt F) → (⟨S400000x32, .f32⟩ : BufTy).Contents (Elt F)),
    unary main_v53 main_v57 (broadcastInDim S1x32 ![1] bcast_S32_S1x32_1 : (⟨S32, .f32⟩ : BufTy).Contents (Elt F) → (⟨S1x32, .f32⟩ : BufTy).Contents (Elt F)),
    unary main_v57 main_v58 (broadcastInDim S400000x32 ![0, 1] bcast_S1x32_S400000x32_0_1 : (⟨S1x32, .f32⟩ : BufTy).Contents (Elt F) → (⟨S400000x32, .f32⟩ : BufTy).Contents (Elt F)),
    binary main_v56 main_v58 main_v59 (mulf : (⟨S400000x32, .f32⟩ : BufTy).Contents (Elt F) → (⟨S400000x32, .f32⟩ : BufTy).Contents (Elt F) → (⟨S400000x32, .f32⟩ : BufTy).Contents (Elt F)),
    unary main_arg8 main_v60 (broadcastInDim S1x32 ![1] bcast_S32_S1x32_1 : (⟨S32, .f32⟩ : BufTy).Contents (Elt F) → (⟨S1x32, .f32⟩ : BufTy).Contents (Elt F)),
    unary main_v60 main_v61 (broadcastInDim S400000x32 ![0, 1] bcast_S1x32_S400000x32_0_1 : (⟨S1x32, .f32⟩ : BufTy).Contents (Elt F) → (⟨S400000x32, .f32⟩ : BufTy).Contents (Elt F)),
    binary main_v59 main_v61 main_v62 (addf : (⟨S400000x32, .f32⟩ : BufTy).Contents (Elt F) → (⟨S400000x32, .f32⟩ : BufTy).Contents (Elt F) → (⟨S400000x32, .f32⟩ : BufTy).Contents (Elt F)),
    TRef.nullary main_call1.cst (constant S_ .f32 0x00000000#32),
    TRef.unary main_call1.cst main_call1.v0 (broadcastInDim S400000x32 ![] bcast_S_S400000x32),
    TRef.binary (.of main_v62 : TRef sig ⟨S400000x32, .f32⟩) main_call1.v0 main_call1.v1 (cmpf .ogt),
    TRef.nullary main_call1.cst_0 (constant S_ .f32 0x00000000#32),
    TRef.unary main_call1.cst_0 main_call1.v2 (broadcastInDim S400000x32 ![] bcast_S_S400000x32),
    TRef.binary (.of main_v62 : TRef sig ⟨S400000x32, .f32⟩) main_call1.v2 main_call1.v3 (cmpf .ogt),
    TRef.nullary main_call1.cst_1 (constant S_ .f32 0x00000000#32),
    TRef.unary main_call1.cst_1 main_call1.call0.v0 id,
    TRef.unary main_call1.call0.v0 main_call1.call0.v1 (broadcastInDim S400000x32 ![] bcast_S_S400000x32),
    TRef.ternary main_call1.v3 main_call1.call0.v1 (.of main_v62 : TRef sig ⟨S400000x32, .f32⟩) main_call1.call0.v2 select,
    TRef.unary main_call1.call0.v2 main_call1.v5 Host.expm1,
    TRef.nullary main_call1.cst_2 (constant S_ .f32 0x3F800000#32),
    TRef.unary main_call1.cst_2 main_call1.v6 (broadcastInDim S400000x32 ![] bcast_S_S400000x32),
    TRef.binary main_call1.v6 main_call1.v5 main_call1.v7 mulf,
    TRef.ternary main_call1.v1 (.of main_v62 : TRef sig ⟨S400000x32, .f32⟩) main_call1.v7 main_call1.call1.v0 select ]

-- 104 binds re-associated: the rewrite under the chain recurses once per statement
set_option maxRecDepth 8192 in
set_option maxHeartbeats 4000000 in
/-- @main is that straight line: the two windows, the functions' definitions unfolded at their calls and the records
    at their fields; both sides are one chain of steps once sequencing is reassociated. -/
theorem main_eq (c : Dev nD) : main (F := F) c = seq ops := by
  simp only [main, main_part0, main_part1, fn_elu.body, fn_where.body, fn_where_0.body, fn_elu_1.body, fn_where_2.body,
    fn_where_3.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., binary_bufs_sub .., nullary_bufs_sub .., unary_bufs_sub ..,
    reshape_bufs_sub .., reshape_bufs_sub .., nullary_bufs_sub .., unary_bufs_sub .., binary_bufs_sub .., nullary_bufs_sub ..,
    unary_bufs_sub .., binary_bufs_sub .., ternary_bufs_sub .., unary_bufs_sub .., ternary_bufs_sub .., nullary_bufs_sub ..,
    unary_bufs_sub .., binary_bufs_sub .., unary_bufs_sub .., binary_bufs_sub .., unary_bufs_sub .., unary_bufs_sub ..,
    binary_bufs_sub .., unary_bufs_sub .., unary_bufs_sub .., binary_bufs_sub .., unary_bufs_sub .., unary_bufs_sub ..,
    binary_bufs_sub .., nullary_bufs_sub .., unary_bufs_sub .., binary_bufs_sub .., nullary_bufs_sub .., unary_bufs_sub ..,
    binary_bufs_sub .., nullary_bufs_sub .., unary_bufs_sub .., unary_bufs_sub .., ternary_bufs_sub .., unary_bufs_sub ..,
    nullary_bufs_sub .., unary_bufs_sub .., binary_bufs_sub .., ternary_bufs_sub .., nullary_bufs_sub .., unary_bufs_sub ..,
    binary_bufs_sub .., nullary_bufs_sub .., unary_bufs_sub .., binary_bufs_sub .., ternary_bufs_sub .., unary_bufs_sub ..,
    binary_bufs_sub .., binary_bufs_sub .., nullary_bufs_sub .., unary_bufs_sub .., reshape_bufs_sub .., reshape_bufs_sub ..,
    nullary_bufs_sub .., unary_bufs_sub .., binary_bufs_sub .., nullary_bufs_sub .., unary_bufs_sub .., binary_bufs_sub ..,
    ternary_bufs_sub .., unary_bufs_sub .., ternary_bufs_sub .., nullary_bufs_sub .., unary_bufs_sub .., binary_bufs_sub ..,
    unary_bufs_sub .., binary_bufs_sub .., unary_bufs_sub .., unary_bufs_sub .., binary_bufs_sub .., unary_bufs_sub ..,
    unary_bufs_sub .., binary_bufs_sub .., unary_bufs_sub .., unary_bufs_sub .., binary_bufs_sub .., nullary_bufs_sub ..,
    unary_bufs_sub .., binary_bufs_sub .., nullary_bufs_sub .., unary_bufs_sub .., binary_bufs_sub .., nullary_bufs_sub ..,
    unary_bufs_sub .., unary_bufs_sub .., ternary_bufs_sub .., unary_bufs_sub .., nullary_bufs_sub .., unary_bufs_sub ..,
    binary_bufs_sub .., ternary_bufs_sub ..⟩

/-! ## The line in eight pieces -/

/-- The first stage's index wrap, gather of rows and product per offset. -/
def seg1 : List (HloOp τ sig (Elt F)) :=
  [ nullary main_c (constantI S_ 32 0#32),
    unary main_c main_v0 (broadcastInDim S27x200000 ![] bcast_S_S27x200000 : (⟨S_, .i32⟩ : BufTy).Contents (Elt F) → (⟨S27x200000, .i32⟩ : BufTy).Contents (Elt F)),
    binary main_arg11 main_v0 main_v1 (cmpi .slt : (⟨S27x200000, .i32⟩ : BufTy).Contents (Elt F) → (⟨S27x200000, .i32⟩ : BufTy).Contents (Elt F) → (⟨S27x200000, .i1⟩ : BufTy).Contents (Elt F)),
    nullary main_c_0 (constantI S_ 32 400000#32),
    unary main_c_0 main_v2 (broadcastInDim S27x200000 ![] bcast_S_S27x200000 : (⟨S_, .i32⟩ : BufTy).Contents (Elt F) → (⟨S27x200000, .i32⟩ : BufTy).Contents (Elt F)),
    binary main_arg11 main_v2 main_v3 (addi : (⟨S27x200000, .i32⟩ : BufTy).Contents (Elt F) → (⟨S27x200000, .i32⟩ : BufTy).Contents (Elt F) → (⟨S27x200000, .i32⟩ : BufTy).Contents (Elt F)),
    ternary main_v1 main_v3 main_arg11 main_v4 (select : (⟨S27x200000, .i1⟩ : BufTy).Contents (Elt F) → (⟨S27x200000, .i32⟩ : BufTy).Contents (Elt F) → (⟨S27x200000, .i32⟩ : BufTy).Contents (Elt F) → (⟨S27x200000, .i32⟩ : BufTy).Contents (Elt F)),
    unary main_v4 main_v5 (broadcastInDim S27x200000x1 ![0, 1] bcast_S27x200000_S27x200000x1_0_1 : (⟨S27x200000, .i32⟩ : BufTy).Contents (Elt F) → (⟨S27x200000x1, .i32⟩ : BufTy).Contents (Elt F)),
    binary main_arg0 main_v5 main_v6 ((fun x i => Host.gather gather_S400000x1_S27x200000x1_S27x200000x1_2_0_n_n_0_2_11 x i) : (⟨S400000x1, .f32⟩ : BufTy).Contents (Elt F) → (⟨S27x200000x1, .i32⟩ : BufTy).Contents (Elt F) → (⟨S27x200000x1, .f32⟩ : BufTy).Contents (Elt F)),
    binary main_v6 main_arg1 main_v7 ((fun l r => Host.dotGeneral dot_S27x200000x1_S27x1x16_S27x200000x16_2_1_1_2_0_0 none l r) : (⟨S27x200000x1, .f32⟩ : BufTy).Contents (Elt F) → (⟨S27x1x16, .f32⟩ : BufTy).Contents (Elt F) → (⟨S27x200000x16, .f32⟩ : BufTy).Contents (Elt F)) ]

/-- The first stage's scatter-add: the zero array, the flat wrapped index table, the products flattened. -/
def seg2 : List (HloOp τ sig (Elt F)) :=
  [ nullary main_cst (constant S_ .f32 0x00000000#32),
    unary main_cst main_v8 (broadcastInDim S400000x16 ![] bcast_S_S400000x16 : (⟨S_, .f32⟩ : BufTy).Contents (Elt F) → (⟨S400000x16, .f32⟩ : BufTy).Contents (Elt F)),
    reshape main_arg12 main_v9 rfl shapeCasts_S27x200000_S5400000,
    reshape main_v7 main_v10 rfl shapeCasts_S27x200000x16_S5400000x16,
    nullary main_c_1 (constantI S_ 32 0#32),
    unary main_c_1 main_v11 (broadcastInDim S5400000 ![] bcast_S_S5400000 : (⟨S_, .i32⟩ : BufTy).Contents (Elt F) → (⟨S5400000, .i32⟩ : BufTy).Contents (Elt F)),
    binary main_v9 main_v11 main_v12 (cmpi .slt : (⟨S5400000, .i32⟩ : BufTy).Contents (Elt F) → (⟨S5400000, .i32⟩ : BufTy).Contents (Elt F) → (⟨S5400000, .i1⟩ : BufTy).Contents (Elt F)),
    nullary main_c_2 (constantI S_ 32 400000#32),
    unary main_c_2 main_v13 (broadcastInDim S5400000 ![] bcast_S_S5400000 : (⟨S_, .i32⟩ : BufTy).Contents (Elt F) → (⟨S5400000, .i32⟩ : BufTy).Contents (Elt F)),
    binary main_v9 main_v13 main_v14 (addi : (⟨S5400000, .i32⟩ : BufTy).Contents (Elt F) → (⟨S5400000, .i32⟩ : BufTy).Contents (Elt F) → (⟨S5400000, .i32⟩ : BufTy).Contents (Elt F)),
    ternary main_v12 main_v14 main_v9 main_v15 (select : (⟨S5400000, .i1⟩ : BufTy).Contents (Elt F) → (⟨S5400000, .i32⟩ : BufTy).Contents (Elt F) → (⟨S5400000, .i32⟩ : BufTy).Contents (Elt F) → (⟨S5400000, .i32⟩ : BufTy).Contents (Elt F)),
    unary main_v15 main_v16 (broadcastInDim S5400000x1 ![0] bcast_S5400000_S5400000x1_0 : (⟨S5400000, .i32⟩ : BufTy).Contents (Elt F) → (⟨S5400000x1, .i32⟩ : BufTy).Contents (Elt F)),
    ternary main_v8 main_v16 main_v10 main_v17 ((fun x i u => Host.scatterAdd scatter_S400000x16_S5400000x1_S5400000x16_1_0_0_1 x i u) : (⟨S400000x16, .f32⟩ : BufTy).Contents (Elt F) → (⟨S5400000x1, .i32⟩ : BufTy).Contents (Elt F) → (⟨S5400000x16, .f32⟩ : BufTy).Contents (Elt F) → (⟨S400000x16, .f32⟩ : BufTy).Contents (Elt F)) ]

/-- The first stage's normalisation. -/
def seg3 : List (HloOp τ sig (Elt F)) :=
  [ nullary main_cst_3 (constant S_ .f32 0x3727C5AC#32),
    unary main_cst_3 main_v18 (broadcastInDim S16 ![] bcast_S_S16 : (⟨S_, .f32⟩ : BufTy).Contents (Elt F) → (⟨S16, .f32⟩ : BufTy).Contents (Elt F)),
    binary main_arg5 main_v18 main_v19 (addf : (⟨S16, .f32⟩ : BufTy).Contents (Elt F) → (⟨S16, .f32⟩ : BufTy).Contents (Elt F) → (⟨S16, .f32⟩ : BufTy).Contents (Elt F)),
    unary main_v19 main_v20 (Host.rsqrt : (⟨S16, .f32⟩ : BufTy).Contents (Elt F) → (⟨S16, .f32⟩ : BufTy).Contents (Elt F)),
    binary main_arg2 main_v20 main_v21 (mulf : (⟨S16, .f32⟩ : BufTy).Contents (Elt F) → (⟨S16, .f32⟩ : BufTy).Contents (Elt F) → (⟨S16, .f32⟩ : BufTy).Contents (Elt F)),
    unary main_arg4 main_v22 (broadcastInDim S1x16 ![1] bcast_S16_S1x16_1 : (⟨S16, .f32⟩ : BufTy).Contents (Elt F) → (⟨S1x16, .f32⟩ : BufTy).Contents (Elt F)),
    unary main_v22 main_v23 (broadcastInDim S400000x16 ![0, 1] bcast_S1x16_S400000x16_0_1 : (⟨S1x16, .f32⟩ : BufTy).Contents (Elt F) → (⟨S400000x16, .f32⟩ : BufTy).Contents (Elt F)),
    binary main_v17 main_v23 main_v24 (subf : (⟨S400000x16, .f32⟩ : BufTy).Contents (Elt F) → (⟨S400000x16, .f32⟩ : BufTy).Contents (Elt F) → (⟨S400000x16, .f32⟩ : BufTy).Contents (Elt F)),
    unary main_v21 main_v25 (broadcastInDim S1x16 ![1] bcast_S16_S1x16_1 : (⟨S16, .f32⟩ : BufTy).Contents (Elt F) → (⟨S1x16, .f32⟩ : BufTy).Contents (Elt F)),
    unary main_v25 main_v26 (broadcastInDim S400000x16 ![0, 1] bcast_S1x16_S400000x16_0_1 : (⟨S1x16, .f32⟩ : BufTy).Contents (Elt F) → (⟨S400000x16, .f32⟩ : BufTy).Contents (Elt F)),
    binary main_v24 main_v26 main_v27 (mulf : (⟨S400000x16, .f32⟩ : BufTy).Contents (Elt F) → (⟨S400000x16, .f32⟩ : BufTy).Contents (Elt F) → (⟨S400000x16, .f32⟩ : BufTy).Contents (Elt F)),
    unary main_arg3 main_v28 (broadcastInDim S1x16 ![1] bcast_S16_S1x16_1 : (⟨S16, .f32⟩ : BufTy).Contents (Elt F) → (⟨S1x16, .f32⟩ : BufTy).Contents (Elt F)),
    unary main_v28 main_v29 (broadcastInDim S400000x16 ![0, 1] bcast_S1x16_S400000x16_0_1 : (⟨S1x16, .f32⟩ : BufTy).Contents (Elt F) → (⟨S400000x16, .f32⟩ : BufTy).Contents (Elt F)),
    binary main_v27 main_v29 main_v30 (addf : (⟨S400000x16, .f32⟩ : BufTy).Contents (Elt F) → (⟨S400000x16, .f32⟩ : BufTy).Contents (Elt F) → (⟨S400000x16, .f32⟩ : BufTy).Contents (Elt F)) ]

/-- The first stage's ELU, the outlined function and its two selects unfolded. -/
def seg4 : List (HloOp τ sig (Elt F)) :=
  [ TRef.nullary main_call0.cst (constant S_ .f32 0x00000000#32),
    TRef.unary main_call0.cst main_call0.v0 (broadcastInDim S400000x16 ![] bcast_S_S400000x16),
    TRef.binary (.of main_v30 : TRef sig ⟨S400000x16, .f32⟩) main_call0.v0 main_call0.v1 (cmpf .ogt),
    TRef.nullary main_call0.cst_0 (constant S_ .f32 0x00000000#32),
    TRef.unary main_call0.cst_0 main_call0.v2 (broadcastInDim S400000x16 ![] bcast_S_S400000x16),
    TRef.binary (.of main_v30 : TRef sig ⟨S400000x16, .f32⟩) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S400000x16 ![] bcast_S_S400000x16),
    TRef.ternary main_call0.v3 main_call0.call0.v1 (.of main_v30 : TRef sig ⟨S400000x16, .f32⟩) main_call0.call0.v2 select,
    TRef.unary main_call0.call0.v2 main_call0.v5 Host.expm1,
    TRef.nullary main_call0.cst_2 (constant S_ .f32 0x3F800000#32),
    TRef.unary main_call0.cst_2 main_call0.v6 (broadcastInDim S400000x16 ![] bcast_S_S400000x16),
    TRef.binary main_call0.v6 main_call0.v5 main_call0.v7 mulf,
    TRef.ternary main_call0.v1 (.of main_v30 : TRef sig ⟨S400000x16, .f32⟩) main_call0.v7 main_call0.call1.v0 select ]

/-- The second stage's index wrap, gather of rows and product per offset. -/
def seg5 : List (HloOp τ sig (Elt F)) :=
  [ nullary main_c_4 (constantI S_ 32 0#32),
    unary main_c_4 main_v32 (broadcastInDim S27x200000 ![] bcast_S_S27x200000 : (⟨S_, .i32⟩ : BufTy).Contents (Elt F) → (⟨S27x200000, .i32⟩ : BufTy).Contents (Elt F)),
    binary main_arg11 main_v32 main_v33 (cmpi .slt : (⟨S27x200000, .i32⟩ : BufTy).Contents (Elt F) → (⟨S27x200000, .i32⟩ : BufTy).Contents (Elt F) → (⟨S27x200000, .i1⟩ : BufTy).Contents (Elt F)),
    nullary main_c_5 (constantI S_ 32 400000#32),
    unary main_c_5 main_v34 (broadcastInDim S27x200000 ![] bcast_S_S27x200000 : (⟨S_, .i32⟩ : BufTy).Contents (Elt F) → (⟨S27x200000, .i32⟩ : BufTy).Contents (Elt F)),
    binary main_arg11 main_v34 main_v35 (addi : (⟨S27x200000, .i32⟩ : BufTy).Contents (Elt F) → (⟨S27x200000, .i32⟩ : BufTy).Contents (Elt F) → (⟨S27x200000, .i32⟩ : BufTy).Contents (Elt F)),
    ternary main_v33 main_v35 main_arg11 main_v36 (select : (⟨S27x200000, .i1⟩ : BufTy).Contents (Elt F) → (⟨S27x200000, .i32⟩ : BufTy).Contents (Elt F) → (⟨S27x200000, .i32⟩ : BufTy).Contents (Elt F) → (⟨S27x200000, .i32⟩ : BufTy).Contents (Elt F)),
    unary main_v36 main_v37 (broadcastInDim S27x200000x1 ![0, 1] bcast_S27x200000_S27x200000x1_0_1 : (⟨S27x200000, .i32⟩ : BufTy).Contents (Elt F) → (⟨S27x200000x1, .i32⟩ : BufTy).Contents (Elt F)),
    binary main_v31 main_v37 main_v38 ((fun x i => Host.gather gather_S400000x16_S27x200000x1_S27x200000x16_2_0_n_n_0_2_116 x i) : (⟨S400000x16, .f32⟩ : BufTy).Contents (Elt F) → (⟨S27x200000x1, .i32⟩ : BufTy).Contents (Elt F) → (⟨S27x200000x16, .f32⟩ : BufTy).Contents (Elt F)),
    binary main_v38 main_arg6 main_v39 ((fun l r => Host.dotGeneral dot_S27x200000x16_S27x16x32_S27x200000x32_2_1_1_2_0_0 none l r) : (⟨S27x200000x16, .f32⟩ : BufTy).Contents (Elt F) → (⟨S27x16x32, .f32⟩ : BufTy).Contents (Elt F) → (⟨S27x200000x32, .f32⟩ : BufTy).Contents (Elt F)) ]

/-- The second stage's scatter-add. -/
def seg6 : List (HloOp τ sig (Elt F)) :=
  [ nullary main_cst_6 (constant S_ .f32 0x00000000#32),
    unary main_cst_6 main_v40 (broadcastInDim S400000x32 ![] bcast_S_S400000x32 : (⟨S_, .f32⟩ : BufTy).Contents (Elt F) → (⟨S400000x32, .f32⟩ : BufTy).Contents (Elt F)),
    reshape main_arg12 main_v41 rfl shapeCasts_S27x200000_S5400000,
    reshape main_v39 main_v42 rfl shapeCasts_S27x200000x32_S5400000x32,
    nullary main_c_7 (constantI S_ 32 0#32),
    unary main_c_7 main_v43 (broadcastInDim S5400000 ![] bcast_S_S5400000 : (⟨S_, .i32⟩ : BufTy).Contents (Elt F) → (⟨S5400000, .i32⟩ : BufTy).Contents (Elt F)),
    binary main_v41 main_v43 main_v44 (cmpi .slt : (⟨S5400000, .i32⟩ : BufTy).Contents (Elt F) → (⟨S5400000, .i32⟩ : BufTy).Contents (Elt F) → (⟨S5400000, .i1⟩ : BufTy).Contents (Elt F)),
    nullary main_c_8 (constantI S_ 32 400000#32),
    unary main_c_8 main_v45 (broadcastInDim S5400000 ![] bcast_S_S5400000 : (⟨S_, .i32⟩ : BufTy).Contents (Elt F) → (⟨S5400000, .i32⟩ : BufTy).Contents (Elt F)),
    binary main_v41 main_v45 main_v46 (addi : (⟨S5400000, .i32⟩ : BufTy).Contents (Elt F) → (⟨S5400000, .i32⟩ : BufTy).Contents (Elt F) → (⟨S5400000, .i32⟩ : BufTy).Contents (Elt F)),
    ternary main_v44 main_v46 main_v41 main_v47 (select : (⟨S5400000, .i1⟩ : BufTy).Contents (Elt F) → (⟨S5400000, .i32⟩ : BufTy).Contents (Elt F) → (⟨S5400000, .i32⟩ : BufTy).Contents (Elt F) → (⟨S5400000, .i32⟩ : BufTy).Contents (Elt F)),
    unary main_v47 main_v48 (broadcastInDim S5400000x1 ![0] bcast_S5400000_S5400000x1_0 : (⟨S5400000, .i32⟩ : BufTy).Contents (Elt F) → (⟨S5400000x1, .i32⟩ : BufTy).Contents (Elt F)),
    ternary main_v40 main_v48 main_v42 main_v49 ((fun x i u => Host.scatterAdd scatter_S400000x32_S5400000x1_S5400000x32_1_0_0_1 x i u) : (⟨S400000x32, .f32⟩ : BufTy).Contents (Elt F) → (⟨S5400000x1, .i32⟩ : BufTy).Contents (Elt F) → (⟨S5400000x32, .f32⟩ : BufTy).Contents (Elt F) → (⟨S400000x32, .f32⟩ : BufTy).Contents (Elt F)) ]

/-- The second stage's normalisation. -/
def seg7 : List (HloOp τ sig (Elt F)) :=
  [ nullary main_cst_9 (constant S_ .f32 0x3727C5AC#32),
    unary main_cst_9 main_v50 (broadcastInDim S32 ![] bcast_S_S32 : (⟨S_, .f32⟩ : BufTy).Contents (Elt F) → (⟨S32, .f32⟩ : BufTy).Contents (Elt F)),
    binary main_arg10 main_v50 main_v51 (addf : (⟨S32, .f32⟩ : BufTy).Contents (Elt F) → (⟨S32, .f32⟩ : BufTy).Contents (Elt F) → (⟨S32, .f32⟩ : BufTy).Contents (Elt F)),
    unary main_v51 main_v52 (Host.rsqrt : (⟨S32, .f32⟩ : BufTy).Contents (Elt F) → (⟨S32, .f32⟩ : BufTy).Contents (Elt F)),
    binary main_arg7 main_v52 main_v53 (mulf : (⟨S32, .f32⟩ : BufTy).Contents (Elt F) → (⟨S32, .f32⟩ : BufTy).Contents (Elt F) → (⟨S32, .f32⟩ : BufTy).Contents (Elt F)),
    unary main_arg9 main_v54 (broadcastInDim S1x32 ![1] bcast_S32_S1x32_1 : (⟨S32, .f32⟩ : BufTy).Contents (Elt F) → (⟨S1x32, .f32⟩ : BufTy).Contents (Elt F)),
    unary main_v54 main_v55 (broadcastInDim S400000x32 ![0, 1] bcast_S1x32_S400000x32_0_1 : (⟨S1x32, .f32⟩ : BufTy).Contents (Elt F) → (⟨S400000x32, .f32⟩ : BufTy).Contents (Elt F)),
    binary main_v49 main_v55 main_v56 (subf : (⟨S400000x32, .f32⟩ : BufTy).Contents (Elt F) → (⟨S400000x32, .f32⟩ : BufTy).Contents (Elt F) → (⟨S400000x32, .f32⟩ : BufTy).Contents (Elt F)),
    unary main_v53 main_v57 (broadcastInDim S1x32 ![1] bcast_S32_S1x32_1 : (⟨S32, .f32⟩ : BufTy).Contents (Elt F) → (⟨S1x32, .f32⟩ : BufTy).Contents (Elt F)),
    unary main_v57 main_v58 (broadcastInDim S400000x32 ![0, 1] bcast_S1x32_S400000x32_0_1 : (⟨S1x32, .f32⟩ : BufTy).Contents (Elt F) → (⟨S400000x32, .f32⟩ : BufTy).Contents (Elt F)),
    binary main_v56 main_v58 main_v59 (mulf : (⟨S400000x32, .f32⟩ : BufTy).Contents (Elt F) → (⟨S400000x32, .f32⟩ : BufTy).Contents (Elt F) → (⟨S400000x32, .f32⟩ : BufTy).Contents (Elt F)),
    unary main_arg8 main_v60 (broadcastInDim S1x32 ![1] bcast_S32_S1x32_1 : (⟨S32, .f32⟩ : BufTy).Contents (Elt F) → (⟨S1x32, .f32⟩ : BufTy).Contents (Elt F)),
    unary main_v60 main_v61 (broadcastInDim S400000x32 ![0, 1] bcast_S1x32_S400000x32_0_1 : (⟨S1x32, .f32⟩ : BufTy).Contents (Elt F) → (⟨S400000x32, .f32⟩ : BufTy).Contents (Elt F)),
    binary main_v59 main_v61 main_v62 (addf : (⟨S400000x32, .f32⟩ : BufTy).Contents (Elt F) → (⟨S400000x32, .f32⟩ : BufTy).Contents (Elt F) → (⟨S400000x32, .f32⟩ : BufTy).Contents (Elt F)) ]

/-- The second stage's ELU. -/
def seg8 : List (HloOp τ sig (Elt F)) :=
  [ TRef.nullary main_call1.cst (constant S_ .f32 0x00000000#32),
    TRef.unary main_call1.cst main_call1.v0 (broadcastInDim S400000x32 ![] bcast_S_S400000x32),
    TRef.binary (.of main_v62 : TRef sig ⟨S400000x32, .f32⟩) main_call1.v0 main_call1.v1 (cmpf .ogt),
    TRef.nullary main_call1.cst_0 (constant S_ .f32 0x00000000#32),
    TRef.unary main_call1.cst_0 main_call1.v2 (broadcastInDim S400000x32 ![] bcast_S_S400000x32),
    TRef.binary (.of main_v62 : TRef sig ⟨S400000x32, .f32⟩) main_call1.v2 main_call1.v3 (cmpf .ogt),
    TRef.nullary main_call1.cst_1 (constant S_ .f32 0x00000000#32),
    TRef.unary main_call1.cst_1 main_call1.call0.v0 id,
    TRef.unary main_call1.call0.v0 main_call1.call0.v1 (broadcastInDim S400000x32 ![] bcast_S_S400000x32),
    TRef.ternary main_call1.v3 main_call1.call0.v1 (.of main_v62 : TRef sig ⟨S400000x32, .f32⟩) main_call1.call0.v2 select,
    TRef.unary main_call1.call0.v2 main_call1.v5 Host.expm1,
    TRef.nullary main_call1.cst_2 (constant S_ .f32 0x3F800000#32),
    TRef.unary main_call1.cst_2 main_call1.v6 (broadcastInDim S400000x32 ![] bcast_S_S400000x32),
    TRef.binary main_call1.v6 main_call1.v5 main_call1.v7 mulf,
    TRef.ternary main_call1.v1 (.of main_v62 : TRef sig ⟨S400000x32, .f32⟩) main_call1.v7 main_call1.call1.v0 select ]

/-- The line is its eight pieces in order. -/
theorem ops_eq_segs : (ops : List (HloOp τ sig (Elt F)))
    = seg1 ++ (seg2 ++ (seg3 ++ (seg4 ++ (seg5 ++ (seg6 ++ (seg7 ++ seg8)))))) := rfl

/-- The contents after two lines run one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

end Line

/-! ## What each piece leaves -/

/-- Two contents of the device's buffers agree at the thirteen argument arrays. -/
structure ArgsEq (W V : Valuation τ sig (Elt Ideal)) : Prop where
  a0 : W (main_arg0 : DevRef τ sig) = V (main_arg0 : DevRef τ sig)
  a1 : W (main_arg1 : DevRef τ sig) = V (main_arg1 : DevRef τ sig)
  a2 : W (main_arg2 : DevRef τ sig) = V (main_arg2 : DevRef τ sig)
  a3 : W (main_arg3 : DevRef τ sig) = V (main_arg3 : DevRef τ sig)
  a4 : W (main_arg4 : DevRef τ sig) = V (main_arg4 : DevRef τ sig)
  a5 : W (main_arg5 : DevRef τ sig) = V (main_arg5 : DevRef τ sig)
  a6 : W (main_arg6 : DevRef τ sig) = V (main_arg6 : DevRef τ sig)
  a7 : W (main_arg7 : DevRef τ sig) = V (main_arg7 : DevRef τ sig)
  a8 : W (main_arg8 : DevRef τ sig) = V (main_arg8 : DevRef τ sig)
  a9 : W (main_arg9 : DevRef τ sig) = V (main_arg9 : DevRef τ sig)
  a10 : W (main_arg10 : DevRef τ sig) = V (main_arg10 : DevRef τ sig)
  a11 : W (main_arg11 : DevRef τ sig) = V (main_arg11 : DevRef τ sig)
  a12 : W (main_arg12 : DevRef τ sig) = V (main_arg12 : DevRef τ sig)

theorem ArgsEq.trans {A B C : Valuation τ sig (Elt Ideal)} (h : ArgsEq A B) (g : ArgsEq B C) : ArgsEq A C :=
  ⟨h.a0.trans g.a0, h.a1.trans g.a1, h.a2.trans g.a2, h.a3.trans g.a3, h.a4.trans g.a4, h.a5.trans g.a5, h.a6.trans g.a6, h.a7.trans g.a7, h.a8.trans g.a8, h.a9.trans g.a9, h.a10.trans g.a10, h.a11.trans g.a11, h.a12.trans g.a12⟩

set_option maxRecDepth 8192 in
set_option maxHeartbeats 4000000 in
theorem seg1_out (W : Valuation τ sig (Elt Ideal)) :
    after (seg1 (F := Ideal)) W (main_v7 : DevRef τ sig) = dot1 (gather1 (W (main_arg0 : DevRef τ sig)) (W (main_arg11 : DevRef τ sig))) (W (main_arg1 : DevRef τ sig)) := by
  unfold seg1
  after_results_simp
  rfl

set_option maxRecDepth 8192 in
set_option maxHeartbeats 4000000 in
theorem seg1_args (W : Valuation τ sig (Elt Ideal)) : ArgsEq (after (seg1 (F := Ideal)) W) W := by
  unfold seg1
  constructor <;> after_results_simp

set_option maxRecDepth 8192 in
set_option maxHeartbeats 4000000 in
theorem seg2_out (W : Valuation τ sig (Elt Ideal)) :
    after (seg2 (F := Ideal)) W (main_v17 : DevRef τ sig) = scatter16 (W (main_arg12 : DevRef τ sig)) (W (main_v7 : DevRef τ sig)) := by
  unfold seg2
  after_results_simp
  rfl

set_option maxRecDepth 8192 in
set_option maxHeartbeats 4000000 in
theorem seg2_args (W : Valuation τ sig (Elt Ideal)) : ArgsEq (after (seg2 (F := Ideal)) W) W := by
  unfold seg2
  constructor <;> after_results_simp

set_option maxRecDepth 8192 in
set_option maxHeartbeats 4000000 in
theorem seg3_out (W : Valuation τ sig (Elt Ideal)) :
    after (seg3 (F := Ideal)) W (main_v30 : DevRef τ sig) = bn16 (W (main_v17 : DevRef τ sig)) (W (main_arg2 : DevRef τ sig)) (W (main_arg3 : DevRef τ sig)) (W (main_arg4 : DevRef τ sig)) (W (main_arg5 : DevRef τ sig)) := by
  unfold seg3
  after_results_simp
  rfl

set_option maxRecDepth 8192 in
set_option maxHeartbeats 4000000 in
theorem seg3_args (W : Valuation τ sig (Elt Ideal)) : ArgsEq (after (seg3 (F := Ideal)) W) W := by
  unfold seg3
  constructor <;> after_results_simp

set_option maxRecDepth 8192 in
set_option maxHeartbeats 4000000 in
theorem seg4_out (W : Valuation τ sig (Elt Ideal)) :
    after (seg4 (F := Ideal)) W (main_v31 : DevRef τ sig) = elu16 (W (main_v30 : DevRef τ sig)) := by
  unfold seg4
  after_results_simp
  rfl

set_option maxRecDepth 8192 in
set_option maxHeartbeats 4000000 in
theorem seg4_args (W : Valuation τ sig (Elt Ideal)) : ArgsEq (after (seg4 (F := Ideal)) W) W := by
  unfold seg4
  constructor <;> after_results_simp

set_option maxRecDepth 8192 in
set_option maxHeartbeats 4000000 in
theorem seg5_out (W : Valuation τ sig (Elt Ideal)) :
    after (seg5 (F := Ideal)) W (main_v39 : DevRef τ sig) = dot2 (gather2 (W (main_v31 : DevRef τ sig)) (W (main_arg11 : DevRef τ sig))) (W (main_arg6 : DevRef τ sig)) := by
  unfold seg5
  after_results_simp
  rfl

set_option maxRecDepth 8192 in
set_option maxHeartbeats 4000000 in
theorem seg5_args (W : Valuation τ sig (Elt Ideal)) : ArgsEq (after (seg5 (F := Ideal)) W) W := by
  unfold seg5
  constructor <;> after_results_simp

set_option maxRecDepth 8192 in
set_option maxHeartbeats 4000000 in
theorem seg6_out (W : Valuation τ sig (Elt Ideal)) :
    after (seg6 (F := Ideal)) W (main_v49 : DevRef τ sig) = scatter32 (W (main_arg12 : DevRef τ sig)) (W (main_v39 : DevRef τ sig)) := by
  unfold seg6
  after_results_simp
  rfl

set_option maxRecDepth 8192 in
set_option maxHeartbeats 4000000 in
theorem seg6_args (W : Valuation τ sig (Elt Ideal)) : ArgsEq (after (seg6 (F := Ideal)) W) W := by
  unfold seg6
  constructor <;> after_results_simp

set_option maxRecDepth 8192 in
set_option maxHeartbeats 4000000 in
theorem seg7_out (W : Valuation τ sig (Elt Ideal)) :
    after (seg7 (F := Ideal)) W (main_v62 : DevRef τ sig) = bn32 (W (main_v49 : DevRef τ sig)) (W (main_arg7 : DevRef τ sig)) (W (main_arg8 : DevRef τ sig)) (W (main_arg9 : DevRef τ sig)) (W (main_arg10 : DevRef τ sig)) := by
  unfold seg7
  after_results_simp
  rfl

set_option maxRecDepth 8192 in
set_option maxHeartbeats 4000000 in
theorem seg7_args (W : Valuation τ sig (Elt Ideal)) : ArgsEq (after (seg7 (F := Ideal)) W) W := by
  unfold seg7
  constructor <;> after_results_simp

set_option maxRecDepth 8192 in
set_option maxHeartbeats 4000000 in
theorem seg8_out (W : Valuation τ sig (Elt Ideal)) :
    after (seg8 (F := Ideal)) W (main_v63 : DevRef τ sig) = elu32 (W (main_v62 : DevRef τ sig)) := by
  unfold seg8
  after_results_simp
  rfl

/-! ## What the line leaves in the result and in the arguments -/

/-- The fold at the result array is `refOut` of the arguments' contents: piece by piece, each result array holds its
    stage's function of the arrays it reads, and the arguments it reads are the launch's. -/
theorem out_eq (V : Valuation τ sig (Elt Ideal)) :
    after (ops (F := Ideal)) V (main_v63 : DevRef τ sig)
      = refOut (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) := by
  have k1 : ArgsEq (after (seg1 (F := Ideal)) V) V := seg1_args V
  have k2 : ArgsEq (after (seg2 (F := Ideal)) (after (seg1 (F := Ideal)) V)) V := (seg2_args (after (seg1 (F := Ideal)) V)).trans k1
  have k3 : ArgsEq (after (seg3 (F := Ideal)) (after (seg2 (F := Ideal)) (after (seg1 (F := Ideal)) V))) V := (seg3_args (after (seg2 (F := Ideal)) (after (seg1 (F := Ideal)) V))).trans k2
  have k4 : ArgsEq (after (seg4 (F := Ideal)) (after (seg3 (F := Ideal)) (after (seg2 (F := Ideal)) (after (seg1 (F := Ideal)) V)))) V := (seg4_args (after (seg3 (F := Ideal)) (after (seg2 (F := Ideal)) (after (seg1 (F := Ideal)) V)))).trans k3
  have k5 : ArgsEq (after (seg5 (F := Ideal)) (after (seg4 (F := Ideal)) (after (seg3 (F := Ideal)) (after (seg2 (F := Ideal)) (after (seg1 (F := Ideal)) V))))) V := (seg5_args (after (seg4 (F := Ideal)) (after (seg3 (F := Ideal)) (after (seg2 (F := Ideal)) (after (seg1 (F := Ideal)) V))))).trans k4
  have k6 : ArgsEq (after (seg6 (F := Ideal)) (after (seg5 (F := Ideal)) (after (seg4 (F := Ideal)) (after (seg3 (F := Ideal)) (after (seg2 (F := Ideal)) (after (seg1 (F := Ideal)) V)))))) V := (seg6_args (after (seg5 (F := Ideal)) (after (seg4 (F := Ideal)) (after (seg3 (F := Ideal)) (after (seg2 (F := Ideal)) (after (seg1 (F := Ideal)) V)))))).trans k5
  rw [ops_eq_segs]
  simp only [after_append]
  rw [seg8_out, seg7_out, k6.a7, k6.a8, k6.a9, k6.a10, seg6_out, k5.a12, seg5_out, k4.a11, k4.a6, seg4_out, seg3_out,
    k2.a2, k2.a3, k2.a4, k2.a5, seg2_out, k1.a12, seg1_out]
  rfl

set_option maxRecDepth 8192 in
set_option maxHeartbeats 4000000 in
theorem arg0_eq (V : Valuation τ sig (Elt Ideal)) :
    after (ops (F := Ideal)) V (main_arg0 : DevRef τ sig) = V (main_arg0 : DevRef τ sig) := by
  after_results_simp

set_option maxRecDepth 8192 in
set_option maxHeartbeats 4000000 in
theorem arg1_eq (V : Valuation τ sig (Elt Ideal)) :
    after (ops (F := Ideal)) V (main_arg1 : DevRef τ sig) = V (main_arg1 : DevRef τ sig) := by
  after_results_simp

set_option maxRecDepth 8192 in
set_option maxHeartbeats 4000000 in
theorem arg2_eq (V : Valuation τ sig (Elt Ideal)) :
    after (ops (F := Ideal)) V (main_arg2 : DevRef τ sig) = V (main_arg2 : DevRef τ sig) := by
  after_results_simp

set_option maxRecDepth 8192 in
set_option maxHeartbeats 4000000 in
theorem arg3_eq (V : Valuation τ sig (Elt Ideal)) :
    after (ops (F := Ideal)) V (main_arg3 : DevRef τ sig) = V (main_arg3 : DevRef τ sig) := by
  after_results_simp

set_option maxRecDepth 8192 in
set_option maxHeartbeats 4000000 in
theorem arg4_eq (V : Valuation τ sig (Elt Ideal)) :
    after (ops (F := Ideal)) V (main_arg4 : DevRef τ sig) = V (main_arg4 : DevRef τ sig) := by
  after_results_simp

set_option maxRecDepth 8192 in
set_option maxHeartbeats 4000000 in
theorem arg5_eq (V : Valuation τ sig (Elt Ideal)) :
    after (ops (F := Ideal)) V (main_arg5 : DevRef τ sig) = V (main_arg5 : DevRef τ sig) := by
  after_results_simp

set_option maxRecDepth 8192 in
set_option maxHeartbeats 4000000 in
theorem arg6_eq (V : Valuation τ sig (Elt Ideal)) :
    after (ops (F := Ideal)) V (main_arg6 : DevRef τ sig) = V (main_arg6 : DevRef τ sig) := by
  after_results_simp

set_option maxRecDepth 8192 in
set_option maxHeartbeats 4000000 in
theorem arg7_eq (V : Valuation τ sig (Elt Ideal)) :
    after (ops (F := Ideal)) V (main_arg7 : DevRef τ sig) = V (main_arg7 : DevRef τ sig) := by
  after_results_simp

set_option maxRecDepth 8192 in
set_option maxHeartbeats 4000000 in
theorem arg8_eq (V : Valuation τ sig (Elt Ideal)) :
    after (ops (F := Ideal)) V (main_arg8 : DevRef τ sig) = V (main_arg8 : DevRef τ sig) := by
  after_results_simp

set_option maxRecDepth 8192 in
set_option maxHeartbeats 4000000 in
theorem arg9_eq (V : Valuation τ sig (Elt Ideal)) :
    after (ops (F := Ideal)) V (main_arg9 : DevRef τ sig) = V (main_arg9 : DevRef τ sig) := by
  after_results_simp

set_option maxRecDepth 8192 in
set_option maxHeartbeats 4000000 in
theorem arg10_eq (V : Valuation τ sig (Elt Ideal)) :
    after (ops (F := Ideal)) V (main_arg10 : DevRef τ sig) = V (main_arg10 : DevRef τ sig) := by
  after_results_simp

set_option maxRecDepth 8192 in
set_option maxHeartbeats 4000000 in
theorem arg11_eq (V : Valuation τ sig (Elt Ideal)) :
    after (ops (F := Ideal)) V (main_arg11 : DevRef τ sig) = V (main_arg11 : DevRef τ sig) := by
  after_results_simp

set_option maxRecDepth 8192 in
set_option maxHeartbeats 4000000 in
theorem arg12_eq (V : Valuation τ sig (Elt Ideal)) :
    after (ops (F := Ideal)) V (main_arg12 : DevRef τ sig) = V (main_arg12 : DevRef τ sig) := by
  after_results_simp

/-! ## The run -/

/-- On every device, from any memory with zero counters: every weakly fair execution of @main terminates with the
    result array at `refOut` of the arguments' launch contents and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v63)
        = refOut (m ((c.tc : Thread nD τ).loc main_arg0))
            (m ((c.tc : Thread nD τ).loc main_arg1))
            (m ((c.tc : Thread nD τ).loc main_arg2))
            (m ((c.tc : Thread nD τ).loc main_arg3))
            (m ((c.tc : Thread nD τ).loc main_arg4))
            (m ((c.tc : Thread nD τ).loc main_arg5))
            (m ((c.tc : Thread nD τ).loc main_arg6))
            (m ((c.tc : Thread nD τ).loc main_arg7))
            (m ((c.tc : Thread nD τ).loc main_arg8))
            (m ((c.tc : Thread nD τ).loc main_arg9))
            (m ((c.tc : Thread nD τ).loc main_arg10))
            (m ((c.tc : Thread nD τ).loc main_arg11))
            (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨(h c main_v63).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c)),
      (h c main_arg5).trans (arg5_eq (launchContents m c)),
      (h c main_arg6).trans (arg6_eq (launchContents m c)),
      (h c main_arg7).trans (arg7_eq (launchContents m c)),
      (h c main_arg8).trans (arg8_eq (launchContents m c)),
      (h c main_arg9).trans (arg9_eq (launchContents m c)),
      (h c main_arg10).trans (arg10_eq (launchContents m c)),
      (h c main_arg11).trans (arg11_eq (launchContents m c)),
      (h c main_arg12).trans (arg12_eq (launchContents m c))⟩)
    (run_seq scopedRefs_eq scopedSems_eq defs main (fun _ => ops) main_eq (fun _ => ops_sub) m ρ)

end Cert.SparseConv.Reference

end
-- ==== Proof.LibGather3.lean ====
/-
  A host gather of whole rows of a matrix by a rank-3 array of start indices, read at one element.

  The operand is `[N, C]`, the start indices `[K, M, 1]` (one row number per pair `(k, r)`), the result `[K, M, C]`:
  what `x[idx]` lowers to for a rank-2 index table. Entry `(k, r, c)` of the result is column `c` of the operand's row
  whose number is the start index `idx[k, r, 0]`, read signed and clamped into `[0, N − 1]`.
-/
import Idealize.ShloMosaic.PureOps.Ideal
import Idealize.ShloMosaic.Lib.ValueIdx

noncomputable section

namespace Cert.LibGather3

open Idealize.ShloMosaic Idealize.ShloMosaic.ValueIdx

/-- The dimension numbers of a gather of whole rows by a rank-3 index array: operand `[N, C]`, start indices
    `[K, M, 1]` (one row number per pair `(k, r)`), result `[K, M, C]`; axis 0 of the operand is collapsed and
    indexed, axis 1 is the offset axis (axis 2 of the result), the slice is one whole row. -/
abbrev rows3GatherDims (N C K M : Nat)
    (wf : GatherDims.WF ⟨2, ![N, C]⟩ ⟨3, ![K, M, 1]⟩ ⟨3, ![K, M, C]⟩ [2] [0] [] [0] [] 2 ![1, C]) :
    GatherDims ⟨2, ![N, C]⟩ ⟨3, ![K, M, 1]⟩ ⟨3, ![K, M, C]⟩ where
  offsetDims := [2]
  collapsedSliceDims := [0]
  operandBatchingDims := []
  startIndicesBatchingDims := []
  startIndexMap := [0]
  indexVectorDim := 2
  sliceSizes := ![1, C]
  wf := wf

/-- The gather read at `(k, r, c)` for the literal record: column `c` of the operand's row whose number is the
    start index `idx[k, r, 0]`, read signed and clamped into `[0, N − 1]`. -/
theorem gather_rows3_apply {α : Type} {N C K M w : Nat} (hN : 0 < N)
    (wf : GatherDims.WF ⟨2, ![N, C]⟩ ⟨3, ![K, M, 1]⟩ ⟨3, ![K, M, C]⟩ [2] [0] [] [0] [] 2 ![1, C])
    (x : (⟨2, ![N, C]⟩ : Shape).Idx → α) (idx : IVec ⟨3, ![K, M, 1]⟩ w) (k : Fin K) (r : Fin M) (c : Fin C) :
    Host.gather (rows3GatherDims N C K M wf) x idx (ix3 k r c)
      = x (ix2 ⟨min (idx (ix3 k r (0 : Fin 1))).toInt.toNat (N - 1), by omega⟩ c) := by
  -- the start on axis 0: the clamped start index; on axis 1 (not in the start index map): zero
  have hst0 : (rows3GatherDims N C K M wf).start (ix3 k r c) idx (0 : Fin 2)
      = min (idx (ix3 k r (0 : Fin 1))).toInt.toNat (N - 1) := by
    unfold GatherDims.start
    rw [dif_pos (show (0 : Fin 2) ∈ (rows3GatherDims N C K M wf).startIndexMap from List.mem_singleton.mpr rfl)]
    have hsi : (rows3GatherDims N C K M wf).siIdx (ix3 k r c)
        ⟨List.idxOf (0 : Fin 2) (rows3GatherDims N C K M wf).startIndexMap,
          List.idxOf_lt_length_iff.2 (List.mem_singleton.mpr rfl)⟩ = ix3 k r (0 : Fin 1) := by
      funext b; refine Fin.ext ?_
      match b with
      | ⟨0, _⟩ => rfl
      | ⟨1, _⟩ => rfl
      | ⟨2, _⟩ => rfl
    rw [hsi]
    rfl
  have hst1 : (rows3GatherDims N C K M wf).start (ix3 k r c) idx (1 : Fin 2) = 0 := by
    unfold GatherDims.start
    exact dif_neg (show (1 : Fin 2) ∉ ([0] : List (Fin 2)) from by decide)
  -- the offset coordinate: zero on the collapsed axis 0, the result's column on axis 1
  have hoff0 : (rows3GatherDims N C K M wf).offCoord (ix3 k r c) (0 : Fin 2) = 0 :=
    GatherDims.offCoord_eq_zero _ _ _ (fun h => ((GatherDims.mem_sKept _ _).mp h).1 (List.mem_singleton.mpr rfl))
  have hoff1 : (rows3GatherDims N C K M wf).offCoord (ix3 k r c) (1 : Fin 2) = c.val := by
    unfold GatherDims.offCoord
    rw [dif_pos ((GatherDims.mem_sKept (rows3GatherDims N C K M wf) (1 : Fin 2)).mpr
      ⟨(show (1 : Fin 2) ∉ ([0] : List (Fin 2)) from by decide), List.not_mem_nil⟩)]
    rfl
  unfold Host.gather
  congr 1
  funext a
  refine Fin.ext ?_
  match a with
  | ⟨0, _⟩ =>
    show (rows3GatherDims N C K M wf).start (ix3 k r c) idx (0 : Fin 2)
      + (rows3GatherDims N C K M wf).batchCoord (ix3 k r c) (0 : Fin 2)
      + (rows3GatherDims N C K M wf).offCoord (ix3 k r c) (0 : Fin 2) = min (idx (ix3 k r (0 : Fin 1))).toInt.toNat (N - 1)
    rw [GatherDims.batchCoord_eq_zero _ _ _ List.not_mem_nil, hst0, hoff0]
    rfl
  | ⟨1, _⟩ =>
    show (rows3GatherDims N C K M wf).start (ix3 k r c) idx (1 : Fin 2)
      + (rows3GatherDims N C K M wf).batchCoord (ix3 k r c) (1 : Fin 2)
      + (rows3GatherDims N C K M wf).offCoord (ix3 k r c) (1 : Fin 2) = c.val
    rw [GatherDims.batchCoord_eq_zero _ _ _ List.not_mem_nil, hst1, hoff1]
    omega

/-- THE GATHER OF ROWS BY A RANK-3 INDEX ARRAY READ AT `(k, r, c)`, for any dimension numbers whose fields are
    those of such a gather (a printed record's are, each by `rfl`). -/
theorem gather_rows3_apply_of {α : Type} {N C K M w : Nat} (hN : 0 < N)
    (d : GatherDims ⟨2, ![N, C]⟩ ⟨3, ![K, M, 1]⟩ ⟨3, ![K, M, C]⟩)
    (h1 : d.offsetDims = [2]) (h2 : d.collapsedSliceDims = [0]) (h3 : d.operandBatchingDims = [])
    (h4 : d.startIndicesBatchingDims = []) (h5 : d.startIndexMap = [0]) (h6 : d.indexVectorDim = 2)
    (h7 : d.sliceSizes = ![1, C])
    (x : (⟨2, ![N, C]⟩ : Shape).Idx → α) (idx : IVec ⟨3, ![K, M, 1]⟩ w) (k : Fin K) (r : Fin M) (c : Fin C) :
    Host.gather d x idx (ix3 k r c)
      = x (ix2 ⟨min (idx (ix3 k r (0 : Fin 1))).toInt.toNat (N - 1), by omega⟩ c) := by
  obtain ⟨od, cd, ob, sb, sm, iv, ss, wf⟩ := d
  dsimp only at h1 h2 h3 h4 h5 h6 h7
  subst h1 h2 h3 h4 h5 h6 h7
  exact gather_rows3_apply hN wf x idx k r c

end Cert.LibGather3

end
-- ==== Proof.LibBatchDot.lean ====
/-
  A batched matrix product read at an entry.

  For dimension numbers with one batch axis (axis 0 of both operands), contracting axis 2 of a `B × M × K` left
  operand with axis 1 of a `B × K × N` right operand, the contraction index is one coordinate `k : Fin K`: entry
  `(b, a, n)` of a host program's `dot_general` at the ideal instance is `∑ k, l[b, a, k] · r[b, k, n]`.
-/
import Idealize.ShloMosaic.PureOps.Ideal
import Idealize.ShloMosaic.PureOps.Ideal.Laws
import Idealize.ShloMosaic.Lib.ValueIdx

noncomputable section

open scoped BigOperators

namespace Cert.LibBatchDot

open Idealize.ShloMosaic Idealize.ShloMosaic.ValueIdx

/-- The sum over the contraction index of a batched `B × M × K` by `B × K × N` product, as a sum over `Fin K`:
    the left operand is read at `(b, a, k)` and the right operand at `(b, k, n)`. -/
theorem batch_sum {B M K N : Nat} (d : DotDims ⟨3, ![B, M, K]⟩ ⟨3, ![B, K, N]⟩ ⟨3, ![B, M, N]⟩)
    (h1 : d.lhsContracting = [2]) (h2 : d.rhsContracting = [1]) (h3 : d.lhsNonContracting = [1])
    (h4 : d.rhsNonContracting = [2]) (h5 : d.lhsBatch = [0]) (h6 : d.rhsBatch = [0])
    {α : Type} [AddCommMonoid α] (f : (⟨3, ![B, M, K]⟩ : Shape).Idx → (⟨3, ![B, K, N]⟩ : Shape).Idx → α)
    (b : Fin B) (a : Fin M) (n : Fin N) :
    ∑ k : d.contr.Idx, f (d.lhsIdx (ix3 b a n) k) (d.rhsIdx (ix3 b a n) k)
      = ∑ k : Fin K, f (ix3 b a k) (ix3 b k n) := by
  obtain ⟨lc, rc, ln, rn, lb, rb, wf⟩ := d
  dsimp only at h1 h2 h3 h4 h5 h6
  subst h1 h2 h3 h4 h5 h6
  have hr : (DotDims.mk [2] [1] [1] [2] [0] [0] wf :
      DotDims ⟨3, ![B, M, K]⟩ ⟨3, ![B, K, N]⟩ ⟨3, ![B, M, N]⟩).contr.rank = 1 := rfl
  have hs : (DotDims.mk [2] [1] [1] [2] [0] [0] wf :
      DotDims ⟨3, ![B, M, K]⟩ ⟨3, ![B, K, N]⟩ ⟨3, ![B, M, N]⟩).contr.size ⟨0, by omega⟩ = K := rfl
  rw [← Equiv.sum_comp (contrEquiv1 _ K hr hs).symm]
  refine Finset.sum_congr rfl fun k _ => ?_
  congr 1
  · funext c
    match c with
    | ⟨0, _⟩ => exact Fin.ext rfl
    | ⟨1, _⟩ => exact Fin.ext rfl
    | ⟨2, _⟩ => exact Fin.ext rfl
  · funext c
    match c with
    | ⟨0, _⟩ => exact Fin.ext rfl
    | ⟨1, _⟩ => exact Fin.ext rfl
    | ⟨2, _⟩ => exact Fin.ext rfl

/-- A host program's batched `dot_general`, at the ideal instance, at entry `(b, a, n)`. -/
theorem batch_dotGeneral_apply {B M K N : Nat} (d : DotDims ⟨3, ![B, M, K]⟩ ⟨3, ![B, K, N]⟩ ⟨3, ![B, M, N]⟩)
    (h1 : d.lhsContracting = [2]) (h2 : d.rhsContracting = [1]) (h3 : d.lhsNonContracting = [1])
    (h4 : d.rhsNonContracting = [2]) (h5 : d.lhsBatch = [0]) (h6 : d.rhsBatch = [0]) {φ₁ φ₂ : FTy}
    (prec : Option ContractPrecision) (l : FVec Ideal ⟨3, ![B, M, K]⟩ φ₁) (r : FVec Ideal ⟨3, ![B, K, N]⟩ φ₂)
    (b : Fin B) (a : Fin M) (n : Fin N) :
    Host.dotGeneral d prec l r (ix3 b a n) = ∑ k : Fin K, l (ix3 b a k) * r (ix3 b k n) := by
  show FloatOps.dotGeneral d prec .single l r (ix3 b a n) = _
  rw [Ideal.dotGeneral_apply]
  exact batch_sum d h1 h2 h3 h4 h5 h6 (fun i j => l i * r j) b a n

end Cert.LibBatchDot

end
-- ==== Proof.RefValue.lean ====
/-
  The reference program's term is the specification.

  Stage by stage, at one entry: the gather of rows by the wrapped index table is `takeRows`, the batched product
  is `offsetMatmul`, the scatter-add is the parameter the specification leaves open, and the normalisation followed
  by the outlined ELU is `bnElu`. Composed, `refOut` is `net` at the program's two scatter-adds.
-/
import proofs.«426714_j42949672960764_1_alg».proof.Proof.RefTerm
import proofs.«426714_j42949672960764_1_alg».proof.Proof.Spec
import proofs.«426714_j42949672960764_1_alg».proof.Proof.LibGather3
import proofs.«426714_j42949672960764_1_alg».proof.Proof.LibBatchDot
import Idealize.ShloMosaic.Lib.ValueIdx
import Idealize.ShloMosaic.Lib.Pipeline.Value
import Idealize.ShloMosaic.Lib.IdealHost

noncomputable section

open scoped BigOperators

namespace Cert.SparseConv.Reference

open Idealize.ShloMosaic Idealize.ShloMosaic.ValueIdx Cert.ReferenceIdeal Cert.SparseConv
open Cert.ReferenceIdeal.Facts₀

/-! ## The index table -/

/-- The wrapped table at an entry is the entry's wrapped word: the compare with the zero table, the sum with the
    table of 400000 and the select are entry by entry. -/
theorem wrapTable_apply (idx : IVec S27x200000 32) (i : S27x200000.Idx) : wrapTable idx i = wrapWord (idx i) := rfl

/-- The start index at `(k, r, 0)` is the wrapped word of the table's entry `(k, r)`: the broadcast along a trailing
    axis of one reads the entry with the same two leading coordinates. -/
theorem startIdx_apply (idx : IVec S27x200000 32) (k : Fin 27) (r : Fin 200000) :
    startIdx idx (ix3 k r (0 : Fin 1)) = wrapWord (idx (ix2 k r)) := by
  unfold startIdx
  refine (broadcastInDim_apply _ _ _ (ix3 k r (0 : Fin 1)) (ix2 k r) ?_).trans (wrapTable_apply idx _)
  intro a
  match a with
  | ⟨0, _⟩ => rfl
  | ⟨1, _⟩ => rfl

/-! ## The gather of rows -/

/-- The first stage's gather is `takeRows`: entry `(k, r, c)` is column `c` of the row the wrapped start index names,
    read signed and clamped into the table. -/
theorem gather1_eq (x : S400000x1.Idx → EReal) (idx : IVec S27x200000 32) : gather1 x idx = takeRows x idx := by
  funext i
  obtain ⟨k, r, c, rfl⟩ : ∃ (k : Fin 27) (r : Fin 200000) (c : Fin 1), i = ix3 k r c := ⟨i 0, i 1, i 2, eq_ix3 i⟩
  unfold gather1
  refine (Cert.LibGather3.gather_rows3_apply_of (N := 400000) (C := 1) (K := 27) (M := 200000) (by omega)
    gather_S400000x1_S27x200000x1_S27x200000x1_2_0_n_n_0_2_11 rfl rfl rfl rfl rfl rfl rfl x (startIdx idx) k r c).trans ?_
  refine Eq.trans ?_ (rfl : x (ix2 (rowOf (wrapWord (idx (ix2 k r)))) c) = takeRows x idx (ix3 k r c))
  exact congrArg (fun a => x (ix2 a c)) (Fin.ext (by
    show min (startIdx idx (ix3 k r (0 : Fin 1))).toInt.toNat (400000 - 1) = min (wrapWord (idx (ix2 k r))).toInt.toNat 399999
    rw [startIdx_apply]))

/-- The second stage's gather is `takeRows` at sixteen columns. -/
theorem gather2_eq (h : S400000x16.Idx → EReal) (idx : IVec S27x200000 32) : gather2 h idx = takeRows h idx := by
  funext i
  obtain ⟨k, r, c, rfl⟩ : ∃ (k : Fin 27) (r : Fin 200000) (c : Fin 16), i = ix3 k r c := ⟨i 0, i 1, i 2, eq_ix3 i⟩
  unfold gather2
  refine (Cert.LibGather3.gather_rows3_apply_of (N := 400000) (C := 16) (K := 27) (M := 200000) (by omega)
    gather_S400000x16_S27x200000x1_S27x200000x16_2_0_n_n_0_2_116 rfl rfl rfl rfl rfl rfl rfl h (startIdx idx) k r c).trans ?_
  refine Eq.trans ?_ (rfl : h (ix2 (rowOf (wrapWord (idx (ix2 k r)))) c) = takeRows h idx (ix3 k r c))
  exact congrArg (fun a => h (ix2 a c)) (Fin.ext (by
    show min (startIdx idx (ix3 k r (0 : Fin 1))).toInt.toNat (400000 - 1) = min (wrapWord (idx (ix2 k r))).toInt.toNat 399999
    rw [startIdx_apply]))

/-! ## The product per offset -/

/-- The first stage's batched product is `offsetMatmul`: the sum over the one input channel. -/
theorem dot1_eq (xg : S27x200000x1.Idx → EReal) (w1 : S27x1x16.Idx → EReal) : dot1 xg w1 = offsetMatmul xg w1 := by
  funext i
  obtain ⟨k, r, d, rfl⟩ : ∃ (k : Fin 27) (r : Fin 200000) (d : Fin 16), i = ix3 k r d := ⟨i 0, i 1, i 2, eq_ix3 i⟩
  unfold dot1
  exact Cert.LibBatchDot.batch_dotGeneral_apply (B := 27) (M := 200000) (K := 1) (N := 16)
    dot_S27x200000x1_S27x1x16_S27x200000x16_2_1_1_2_0_0 rfl rfl rfl rfl rfl rfl (φ₁ := .f32) (φ₂ := .f32) none xg w1 k r d

/-- The second stage's batched product is `offsetMatmul`: the sum over the sixteen input channels. -/
theorem dot2_eq (hg : S27x200000x16.Idx → EReal) (w2 : S27x16x32.Idx → EReal) : dot2 hg w2 = offsetMatmul hg w2 := by
  funext i
  obtain ⟨k, r, d, rfl⟩ : ∃ (k : Fin 27) (r : Fin 200000) (d : Fin 32), i = ix3 k r d := ⟨i 0, i 1, i 2, eq_ix3 i⟩
  unfold dot2
  exact Cert.LibBatchDot.batch_dotGeneral_apply (B := 27) (M := 200000) (K := 16) (N := 32)
    dot_S27x200000x16_S27x16x32_S27x200000x32_2_1_1_2_0_0 rfl rfl rfl rfl rfl rfl (φ₁ := .f32) (φ₂ := .f32) none hg w2 k r d

/-! ## The normalisation and the ELU -/

/-- The outlined ELU at one value is the specification's: where the compare bit is set both are `z`; where it is not,
    the inner select returns `z`, `expm1 z` is `exp z − 1`, and the factor is the word of one. -/
theorem elu_point (z : EReal) :
    Scalar.select (FloatOps.cmpf (F := Ideal) (φ := .f32) .ogt z (Ideal.ofBits .f32 0x00000000#32)) z
        (Ideal.ofBits .f32 0x3F800000#32
          * (Ideal.exp (Scalar.select (FloatOps.cmpf (F := Ideal) (φ := .f32) .ogt z (Ideal.ofBits .f32 0x00000000#32))
              (Ideal.ofBits .f32 0x00000000#32) z) - 1))
      = elu z := by
  unfold elu
  generalize FloatOps.cmpf (F := Ideal) (φ := .f32) .ogt z (Ideal.ofBits .f32 0x00000000#32) = c
  rcases BitVec.eq_zero_or_eq_one c with h | h
  · subst h
    rw [select_zero, select_zero, select_zero, Ideal.ofBits_one_f32, one_mul]
  · subst h
    rw [select_one, select_one]

/-- A vector of sixteen channel parameters laid over the rows reads the channel's parameter. -/
theorem rows16_apply (p : S16.Idx → EReal) (n : Fin 400000) (ch : Fin 16) : rows16 p (ix2 n ch) = p (ix1 ch) := by
  unfold rows16
  refine (broadcastInDim_apply _ _ _ (ix2 n ch) (ix2 (0 : Fin 1) ch) ?_).trans
    (broadcastInDim_apply _ _ _ (ix2 (0 : Fin 1) ch) (ix1 ch) ?_)
  · intro a
    match a with
    | ⟨0, _⟩ => rfl
    | ⟨1, _⟩ => rfl
  · intro a
    match a with
    | ⟨0, _⟩ => rfl

/-- A vector of thirty-two channel parameters laid over the rows reads the channel's parameter. -/
theorem rows32_apply (p : S32.Idx → EReal) (n : Fin 400000) (ch : Fin 32) : rows32 p (ix2 n ch) = p (ix1 ch) := by
  unfold rows32
  refine (broadcastInDim_apply _ _ _ (ix2 n ch) (ix2 (0 : Fin 1) ch) ?_).trans
    (broadcastInDim_apply _ _ _ (ix2 (0 : Fin 1) ch) (ix1 ch) ?_)
  · intro a
    match a with
    | ⟨0, _⟩ => rfl
    | ⟨1, _⟩ => rfl
  · intro a
    match a with
    | ⟨0, _⟩ => rfl

/-- The scale at a channel: `γ · rsqrt(σ² + ε)`. -/
theorem scale16_apply (g v : S16.Idx → EReal) (j : S16.Idx) :
    scale16 g v j = g j * Ideal.rsqrt (v j + Ideal.ofBits .f32 0x3727C5AC#32) := rfl

theorem scale32_apply (g v : S32.Idx → EReal) (j : S32.Idx) :
    scale32 g v j = g j * Ideal.rsqrt (v j + Ideal.ofBits .f32 0x3727C5AC#32) := rfl

/-- The normalisation at an entry is `bnAt` of the entry and its channel's parameters. -/
theorem bn16_apply (h : S400000x16.Idx → EReal) (g b mu v : S16.Idx → EReal) (n : Fin 400000) (ch : Fin 16) :
    bn16 h g b mu v (ix2 n ch) = bnAt (h (ix2 n ch)) (g (ix1 ch)) (b (ix1 ch)) (mu (ix1 ch)) (v (ix1 ch)) := by
  show (h (ix2 n ch) - rows16 mu (ix2 n ch)) * rows16 (scale16 g v) (ix2 n ch) + rows16 b (ix2 n ch) = _
  rw [rows16_apply, rows16_apply, rows16_apply, scale16_apply]
  rfl

theorem bn32_apply (h : S400000x32.Idx → EReal) (g b mu v : S32.Idx → EReal) (n : Fin 400000) (ch : Fin 32) :
    bn32 h g b mu v (ix2 n ch) = bnAt (h (ix2 n ch)) (g (ix1 ch)) (b (ix1 ch)) (mu (ix1 ch)) (v (ix1 ch)) := by
  show (h (ix2 n ch) - rows32 mu (ix2 n ch)) * rows32 (scale32 g v) (ix2 n ch) + rows32 b (ix2 n ch) = _
  rw [rows32_apply, rows32_apply, rows32_apply, scale32_apply]
  rfl

/-- The outlined ELU at an entry is the specification's ELU of the entry. -/
theorem elu16_apply (z : S400000x16.Idx → EReal) (i : S400000x16.Idx) : elu16 z i = elu (z i) := elu_point (z i)

theorem elu32_apply (z : S400000x32.Idx → EReal) (i : S400000x32.Idx) : elu32 z i = elu (z i) := elu_point (z i)

/-- The normalisation then the ELU is `bnElu`. -/
theorem eluBn16_eq (h : S400000x16.Idx → EReal) (g b mu v : S16.Idx → EReal) :
    elu16 (bn16 h g b mu v) = bnElu h g b mu v := by
  funext i
  obtain ⟨n, ch, rfl⟩ : ∃ (n : Fin 400000) (ch : Fin 16), i = ix2 n ch := ⟨i 0, i 1, eq_ix2 i⟩
  rw [elu16_apply, bn16_apply]
  rfl

theorem eluBn32_eq (h : S400000x32.Idx → EReal) (g b mu v : S32.Idx → EReal) :
    elu32 (bn32 h g b mu v) = bnElu h g b mu v := by
  funext i
  obtain ⟨n, ch, rfl⟩ : ∃ (n : Fin 400000) (ch : Fin 32), i = ix2 n ch := ⟨i 0, i 1, eq_ix2 i⟩
  rw [elu32_apply, bn32_apply]
  rfl

/-! ## The stages and the whole -/

/-- The first stage is the specification's stage at the program's scatter-add into sixteen columns. -/
theorem stage1_eq (x : S400000x1.Idx → EReal) (w1 : S27x1x16.Idx → EReal) (g1 b1 m1 v1 : S16.Idx → EReal)
    (idx oidx : IVec S27x200000 32) :
    stage1 x w1 g1 b1 m1 v1 idx oidx = stage (scatter16 oidx) x w1 g1 b1 m1 v1 idx := by
  unfold stage1 stage
  rw [gather1_eq, dot1_eq, eluBn16_eq]

/-- The second stage is the specification's stage at the program's scatter-add into thirty-two columns. -/
theorem stage2_eq (h : S400000x16.Idx → EReal) (w2 : S27x16x32.Idx → EReal) (g2 b2 m2 v2 : S32.Idx → EReal)
    (idx oidx : IVec S27x200000 32) :
    stage2 h w2 g2 b2 m2 v2 idx oidx = stage (scatter32 oidx) h w2 g2 b2 m2 v2 idx := by
  unfold stage2 stage
  rw [gather2_eq, dot2_eq, eluBn32_eq]

/-- The reference's term is the specification's network at the program's two scatter-adds. -/
theorem refOut_eq_net (x : S400000x1.Idx → EReal) (w1 : S27x1x16.Idx → EReal) (g1 b1 m1 v1 : S16.Idx → EReal)
    (w2 : S27x16x32.Idx → EReal) (g2 b2 m2 v2 : S32.Idx → EReal) (idx oidx : IVec S27x200000 32) :
    refOut x w1 g1 b1 m1 v1 w2 g2 b2 m2 v2 idx oidx
      = net (scatter16 oidx) (scatter32 oidx) x w1 g1 b1 m1 v1 w2 g2 b2 m2 v2 idx := by
  unfold refOut net
  rw [stage2_eq, stage1_eq]

end Cert.SparseConv.Reference

end
-- ==== Proof.PreRange.lean ====
/-
  The precondition read back at the index table. The precondition is a conjunction of thirteen scalar bits, the last of
  which is the "all" of the elementwise conjunction  -400000 ≤ idx[k, r]  and  idx[k, r] < 400000  (both signed
  comparisons of 32-bit words). That the whole conjunction is 1 makes its last conjunct 1; an "all" that is 1 had a 1 at
  every element; and a signed comparison of words that is 1 is the comparison of their signed values.
-/
import proofs.«426714_j42949672960764_1_alg».proof.Defs
import proofs.«426714_j42949672960764_1_alg».proof.Proof.Gen.KernelIdeal
import proofs.«426714_j42949672960764_1_alg».proof.Proof.Gen.Pre_finite_inputs
import proofs.«426714_j42949672960764_1_alg».proof.Proof.Spec
import Idealize.ShloMosaic.Lib.ReduceAll
import Idealize.ShloMosaic.Lib.ValueIdx

noncomputable section

namespace Cert.SparseConv

open Idealize.ShloMosaic Idealize.ShloMosaic.TcCoe Idealize.SL.Sem Idealize.ShloMosaic.ValueIdx

/-- The shape of a scalar has one index. -/
instance scalarIdx_subsingleton : Subsingleton Cert.Pre_finite_inputs.S_.Idx := ⟨fun a b => funext fun d => d.elim0⟩

/-- The two signed comparisons of a word with the bounds -400000 and 400000, both 1, bound the word's signed value. -/
theorem toInt_bounds_of_cmpi (w : BitVec 32) (h0 : IntOp.cmpi .sge w 4294567296#32 = 1#1)
    (h1 : IntOp.cmpi .slt w 400000#32 = 1#1) : -400000 ≤ w.toInt ∧ w.toInt < 400000 := by
  have e0 : (4294567296#32 : BitVec 32).toInt = -400000 := by decide
  have e1 : (400000#32 : BitVec 32).toInt = 400000 := by decide
  have hb : ∀ b : Bool, BitVec.ofBool b = 1#1 → b = true := by decide
  have g0 := hb _ h0
  have g1 := hb _ h1
  simp only [BitVec.sle, BitVec.slt, decide_eq_true_eq, e0, e1] at g0 g1
  exact ⟨g0, g1⟩

/-- Under the certificate's precondition every entry of the input index table is a valid row number. -/
theorem inRange_of_pre (m : (ℓ : Loc Cert.KernelIdeal.nD Cert.KernelIdeal.τ Cert.KernelIdeal.sig) → Buf (Elt Ideal) ℓ) (hpre : Cert.Pre_KernelIdeal m) (c : Dev Cert.KernelIdeal.nD) :
    InRange (m ((c.tc : Thread Cert.KernelIdeal.nD Cert.KernelIdeal.τ).loc Cert.KernelIdeal.main_arg11)) := by
  intro k r
  have e := congrFun (hpre c) ValueIdx.ix0
  dsimp only [Cert.Pre_finite_inputs.fn, Cert.Pre_finite_inputs.fn_part1, Cert.Pre_finite_inputs.fn_part2,
    Cert.Pre_finite_inputs.fn_part3] at e
  -- the conjunction's last conjunct: the "all" over the index table
  have e2 : Host.reduce IntOp.andi _ _ _ _ ValueIdx.ix0 = 1#1 := (IntOp.andi_eq_one.1 e).2
  -- an "all" that is 1 is 1 at entry (k, r)
  have e3 := Host.reduce_andi_all _ _ _ _ _ e2 (ix2 k r)
  -- the entry is the conjunction of the two comparisons with the broadcast bounds
  obtain ⟨h0, h1⟩ := IntOp.andi_eq_one.1 e3
  exact toInt_bounds_of_cmpi _ h0 h1

end Cert.SparseConv

end
-- ==== Proof.lean ====
/-
  Two stages of a sparse 3-D convolution — gather rows by an index table, multiply each gathered row by its
  offset's weight matrix, scatter-add the products by an output index table, batch-normalise and apply ELU — as a
  kernel program (the products and the normalisations as four tiled regions, the gathers and scatter-adds on the
  host) against a plain host program. Over the extended reals the two are one function of the thirteen arguments
  wherever the input index table holds valid row numbers, -400000 ≤ i < 400000: the kernel's gather replaces a row
  whose number is out of range by a fill value, the reference's gather clamps the number, and on valid numbers
  neither happens. The products are the same finite sums (a tile of 8000 rows per grid point against one batched
  contraction), the scatter-add is the same operation applied to equal products, and ELU written as
  `exp z − 1` is ELU written as `1 · expm1 z`. No rule of the ideal pass was applied, so the idealization is
  the kernel's own text and that conjunct is trivial. The frames of the two kernel programs are the generated ones;
  the reference's frame is its run with the result dropped.
-/
import proofs.«426714_j42949672960764_1_alg».proof.Defs
import proofs.«426714_j42949672960764_1_alg».proof.Proof.Gen.Kernel
import proofs.«426714_j42949672960764_1_alg».proof.Proof.Gen.Kernel.Frame
import proofs.«426714_j42949672960764_1_alg».proof.Proof.Gen.KernelIdeal
import proofs.«426714_j42949672960764_1_alg».proof.Proof.Gen.KernelIdeal.Frame
import proofs.«426714_j42949672960764_1_alg».proof.Proof.Gen.ReferenceIdeal
import proofs.«426714_j42949672960764_1_alg».proof.Proof.Gen.Pre_finite_inputs
import proofs.«426714_j42949672960764_1_alg».proof.Proof.KernelRun
import proofs.«426714_j42949672960764_1_alg».proof.Proof.KernelValue
import proofs.«426714_j42949672960764_1_alg».proof.Proof.RefRun
import proofs.«426714_j42949672960764_1_alg».proof.Proof.RefValue
import proofs.«426714_j42949672960764_1_alg».proof.Proof.PreRange

noncomputable section

namespace Cert.Proof

open Idealize.ShloMosaic Idealize.ShloMosaic.TcCoe Idealize.SL.Sem Cert.SparseConv

/-- The scatter-add of the sixteen-channel products is the same host operations in both programs. -/
theorem scatter16_eq : Reference.scatter16 = Kernel.scatter16 := by
  funext oidx y; rfl

/-- The scatter-add of the thirty-two-channel products is the same host operations in both programs. -/
theorem scatter32_eq : Reference.scatter32 = Kernel.scatter32 := by
  funext oidx y; rfl

theorem frame_kernel : Cert.frame_Kernel := fun m ρ _ => Cert.Kernel.Gen.frame m ρ

theorem frame_kernelIdeal : Cert.frame_KernelIdeal := fun m ρ _ => Cert.KernelIdeal.Gen.frame m ρ

/-- The reference runs and keeps its arguments: its run, with the result dropped. -/
theorem frame_referenceIdeal : Cert.frame_ReferenceIdeal := fun m ρ _ =>
  (θ_run Cert.ReferenceIdeal.defs _ _).mono (fun _ h c => (h c).2) (Reference.run m ρ)

/-- Both idealized programs end with the result array at the specification's network of the arguments: the
    kernel's by its run with the result named and the composition of its segments, the reference's by its run and
    its term read stage by stage; the arguments agree, the index table is valid by the precondition, and the two
    scatter-adds are one function. -/
theorem algebraic : Cert.algebraic_KernelIdeal_ReferenceIdeal := by
  intro m ρ m' ρ' hpre hagree
  refine ⟨fun c => Cert.KernelIdeal.Gen.W12 m ρ c (Proc.devRef .tc Cert.KernelIdeal.main_v37),
    Cert.KernelIdeal.Named.run_named (F := Ideal) m ρ, ?_⟩
  refine (θ_run Cert.ReferenceIdeal.defs _ _).mono (fun _ h c => ⟨(h c).1.trans ?_, (h c).2⟩)
    (Reference.run m' ρ')
  refine Eq.trans ?_ (Kernel.kernel_value m ρ c (inRange_of_pre m hpre c)).symm
  obtain ⟨a0, a1, a2, a3, a4, a5, a6, a7, a8, a9, a10, a11, a12⟩ := hagree c
  rw [Reference.refOut_eq_net, a0, a1, a2, a3, a4, a5, a6, a7, a8, a9, a10, a11, a12, scatter16_eq, scatter32_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
